-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S100000x128 : Shape := ⟨2, ![100000, 128]⟩
abbrev S1 : Shape := ⟨1, ![1]⟩
abbrev S100000 : Shape := ⟨1, ![100000]⟩
abbrev S2048 : Shape := ⟨1, ![2048]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S100000 .f32) (main_arg5 : IVec S2048 32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000 .f32 := Host.absf main_arg4
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_c_8 : IVec S_ 32 := constantI S_ 32 0#32
  let main_v24 : IVec S2048 32 := broadcastInDim S2048 ![] bcast_S_S2048 main_c_8
  let main_v25 : IVec S2048 1 := cmpi .sge main_arg5 main_v24
  let main_c_9 : IVec S_ 32 := constantI S_ 32 100000#32
  let main_v26 : IVec S2048 32 := broadcastInDim S2048 ![] bcast_S_S2048 main_c_9
  let main_v27 : IVec S2048 1 := cmpi .slt main_arg5 main_v26
  let main_v28 : IVec S2048 1 := andi main_v25 main_v27
  let main_c_10 : IVec S_ 1 := constantI S_ 1 1#1
  let main_v29 : IVec S_ 1 := (fun x v => Host.reduce IntOp.andi x v reducesTo_S2048_S_d0 h_S_) main_v28 main_c_10
  let main_v30 : IVec S_ 1 := andi main_v23 main_v29
  main_v30

def fn {F : FTy → Type} [FloatOps F] (main_arg0 : FVec F S2048x128 .f32) (main_arg1 : FVec F S100000x128 .f32) (main_arg2 : FVec F S1 .f32) (main_arg3 : FVec F S100000x128 .f32) (main_arg4 : FVec F S100000 .f32) (main_arg5 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S100000x128 .f32 := Host.absf main_arg3
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg4 main_arg5 main_v13 main_v16
-- ==== Kernel.lean ====
abbrev S2048x128 : Shape := ⟨2, ![2048, 128]⟩
abbrev S100000x128 : Shape := ⟨2, ![100000, 128]⟩
abbrev S1 : Shape := ⟨1, ![1]⟩
abbrev S100000 : Shape := ⟨1, ![100000]⟩
abbrev S2048 : Shape := ⟨1, ![2048]⟩
abbrev S1x1 : Shape := ⟨2, ![1, 1]⟩
abbrev S1x100000 : Shape := ⟨2, ![1, 100000]⟩
abbrev S2048x100000 : Shape := ⟨2, ![2048, 100000]⟩
abbrev S512x128 : Shape := ⟨2, ![512, 128]⟩
abbrev S1x2048 : Shape := ⟨2, ![1, 2048]⟩
abbrev S512x2048 : Shape := ⟨2, ![512, 2048]⟩
abbrev S128x2048 : Shape := ⟨2, ![128, 2048]⟩
abbrev S8x128 : Shape := ⟨2, ![8, 128]⟩
abbrev S8 : Shape := ⟨1, ![8]⟩
abbrev S_ : Shape := ⟨0, ![]⟩
abbrev S1x128 : Shape := ⟨2, ![1, 128]⟩
abbrev S128 : Shape := ⟨1, ![128]⟩
abbrev S8x1 : Shape := ⟨2, ![8, 1]⟩

abbrev nBuf : Space → Nat
  | .hbm => 10
  | .vmem => 14
  | .smem => 1
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S1, .f32⟩
  | .hbm, ⟨3, _⟩ => ⟨S100000x128, .f32⟩
  | .hbm, ⟨4, _⟩ => ⟨S100000, .f32⟩
  | .hbm, ⟨5, _⟩ => ⟨S1x1, .f32⟩
  | .hbm, ⟨6, _⟩ => ⟨S1x100000, .f32⟩
  | .hbm, ⟨7, _⟩ => ⟨S2048x100000, .f32⟩
  | .hbm, ⟨8, _⟩ => ⟨S1x1, .f32⟩
  | .hbm, ⟨9, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | .local _ .vmem, ⟨12, _⟩ => ⟨S8x128, .f32⟩
  | .local _ .vmem, ⟨13, _⟩ => ⟨S1x1, .f32⟩
  | .local _ .smem, ⟨0, _⟩ => ⟨S2048, .i32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_scratch0 : Ref sig .tc := ⟨.vmem, 12, rfl⟩
abbrev cc1_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11

abbrev nD : Nat := 1
abbrev τ : Topo := Topo.v7x

variable {F : FTy → Type} [FloatOps F]

abbrev grid0 : Pipeline.Grid := ⟨2, ![4, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![256], ![false]⟩

abbrev pre1 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v3 : BitVec 32 := Scalar.muli arg0 c8_i32
  let c0_i32_1 : BitVec 32 := 0#32
  let v4 : BitVec 32 := Scalar.addi v3 c0_i32_1
  let v5 : Index := Scalar.indexCast v4
  ![v5.toNat]
def k1_off2 (v6 : BitVec 32) : Fin 2 → Nat :=
  let c0_i32_3 : BitVec 32 := 0#32
  ![v6.toNat, 0]

def k1_chk1 (v6 : BitVec 32) : Prop :=
  (∀ a, (k1_off2 v6) a + S1x128.size a ≤ S100000x128.size a)
instance k1_chk1.dec : ∀ (v6 : BitVec 32), Decidable (k1_chk1 v6) := fun v6 => decidable_of_iff' _ (Iff.of_eq (k1_chk1.eq_1 v6))
theorem k1_off2_inb : ∀ (v6 : BitVec 32) (k1_hw1 : k1_chk1 v6), ∀ a, (k1_off2 v6) a + S1x128.size a ≤ S100000x128.size a := fun v6 k1_hw1 => k1_hw1

def k1_off3 (i : grid1.Coords) : Fin 1 → Nat :=
  let arg0 : BitVec 32 := BitVec.ofNat 32 (i 0).val
  let c8_i32 : BitVec 32 := 8#32
  let v3 : BitVec 32 := Scalar.muli arg0 c8_i32
  let c1_i32 : BitVec 32 := 1#32
  let v13 : BitVec 32 := Scalar.addi v3 c1_i32
  let v14 : Index := Scalar.indexCast v13
  ![v14.toNat]
def k1_off4 (v15 : BitVec 32) : Fin 2 → Nat :=
  let c0_i32_5 : BitVec 32 := 0#32
  ![v15.toNat, 0]

def k1_chk2 (v15 : BitVec 32) : Prop :=
  (∀ a, (k1_off4 v15) a + S1x128.size a ≤ S100000x128.size a)
instance k1_chk2.dec : ∀ (v15 : BitVec 32), Decidable (k1_chk2 v15) := fun v15 => decidable_of_iff' _ (Iff.of_eq (k1_chk2.eq_1 v15))
theorem k1_off4_inb : ∀ (v15 : BitVec 32) (k1_hw2 : k1_chk2 v15), ∀ a, (k1_off4 v15) a + S1x128.size a ≤ S100000x128.size a := fun v15 k1_hw2 => k1_hw2

def k1_off5 (i : grid1.Coords) : Fin 1 → Nat :=
  let arg0 : BitVec 32 := BitVec.ofNat 32 (i 0).val
  let c8_i32 : BitVec 32 := 8#32
  let v3 : BitVec 32 := Scalar.muli arg0 c8_i32
  let c2_i32 : BitVec 32 := 2#32
  let v22 : BitVec 32 := Scalar.addi v3 c2_i32
  let v23 : Index := Scalar.indexCast v22
  ![v23.toNat]
def k1_off6 (v24 : BitVec 32) : Fin 2 → Nat :=
  let c0_i32_7 : BitVec 32 := 0#32
  ![v24.toNat, 0]

def k1_chk3 (v24 : BitVec 32) : Prop :=
  (∀ a, (k1_off6 v24) a + S1x128.size a ≤ S100000x128.size a)
instance k1_chk3.dec : ∀ (v24 : BitVec 32), Decidable (k1_chk3 v24) := fun v24 => decidable_of_iff' _ (Iff.of_eq (k1_chk3.eq_1 v24))
theorem k1_off6_inb : ∀ (v24 : BitVec 32) (k1_hw3 : k1_chk3 v24), ∀ a, (k1_off6 v24) a + S1x128.size a ≤ S100000x128.size a := fun v24 k1_hw3 => k1_hw3

def k1_off7 (i : grid1.Coords) : Fin 1 → Nat :=
  let arg0 : BitVec 32 := BitVec.ofNat 32 (i 0).val
  let c8_i32 : BitVec 32 := 8#32
  let v3 : BitVec 32 := Scalar.muli arg0 c8_i32
  let c3_i32 : BitVec 32 := 3#32
  let v31 : BitVec 32 := Scalar.addi v3 c3_i32
  let v32 : Index := Scalar.indexCast v31
  ![v32.toNat]
def k1_off8 (v33 : BitVec 32) : Fin 2 → Nat :=
  let c0_i32_9 : BitVec 32 := 0#32
  ![v33.toNat, 0]

def k1_chk4 (v33 : BitVec 32) : Prop :=
  (∀ a, (k1_off8 v33) a + S1x128.size a ≤ S100000x128.size a)
instance k1_chk4.dec : ∀ (v33 : BitVec 32), Decidable (k1_chk4 v33) := fun v33 => decidable_of_iff' _ (Iff.of_eq (k1_chk4.eq_1 v33))
theorem k1_off8_inb : ∀ (v33 : BitVec 32) (k1_hw4 : k1_chk4 v33), ∀ a, (k1_off8 v33) a + S1x128.size a ≤ S100000x128.size a := fun v33 k1_hw4 => k1_hw4

def k1_off9 (i : grid1.Coords) : Fin 1 → Nat :=
  let arg0 : BitVec 32 := BitVec.ofNat 32 (i 0).val
  let c8_i32 : BitVec 32 := 8#32
  let v3 : BitVec 32 := Scalar.muli arg0 c8_i32
  let c4_i32 : BitVec 32 := 4#32
  let v40 : BitVec 32 := Scalar.addi v3 c4_i32
  let v41 : Index := Scalar.indexCast v40
  ![v41.toNat]
def k1_off10 (v42 : BitVec 32) : Fin 2 → Nat :=
  let c0_i32_11 : BitVec 32 := 0#32
  ![v42.toNat, 0]

def k1_chk5 (v42 : BitVec 32) : Prop :=
  (∀ a, (k1_off10 v42) a + S1x128.size a ≤ S100000x128.size a)
instance k1_chk5.dec : ∀ (v42 : BitVec 32), Decidable (k1_chk5 v42) := fun v42 => decidable_of_iff' _ (Iff.of_eq (k1_chk5.eq_1 v42))
theorem k1_off10_inb : ∀ (v42 : BitVec 32) (k1_hw5 : k1_chk5 v42), ∀ a, (k1_off10 v42) a + S1x128.size a ≤ S100000x128.size a := fun v42 k1_hw5 => k1_hw5

def k1_off11 (i : grid1.Coords) : Fin 1 → Nat :=
  let arg0 : BitVec 32 := BitVec.ofNat 32 (i 0).val
  let c8_i32 : BitVec 32 := 8#32
  let v3 : BitVec 32 := Scalar.muli arg0 c8_i32
  let c5_i32 : BitVec 32 := 5#32
  let v49 : BitVec 32 := Scalar.addi v3 c5_i32
  let v50 : Index := Scalar.indexCast v49
  ![v50.toNat]
def k1_off12 (v51 : BitVec 32) : Fin 2 → Nat :=
  let c0_i32_13 : BitVec 32 := 0#32
  ![v51.toNat, 0]

def k1_chk6 (v51 : BitVec 32) : Prop :=
  (∀ a, (k1_off12 v51) a + S1x128.size a ≤ S100000x128.size a)
instance k1_chk6.dec : ∀ (v51 : BitVec 32), Decidable (k1_chk6 v51) := fun v51 => decidable_of_iff' _ (Iff.of_eq (k1_chk6.eq_1 v51))
theorem k1_off12_inb : ∀ (v51 : BitVec 32) (k1_hw6 : k1_chk6 v51), ∀ a, (k1_off12 v51) a + S1x128.size a ≤ S100000x128.size a := fun v51 k1_hw6 => k1_hw6

def k1_off13 (i : grid1.Coords) : Fin 1 → Nat :=
  let arg0 : BitVec 32 := BitVec.ofNat 32 (i 0).val
  let c8_i32 : BitVec 32 := 8#32
  let v3 : BitVec 32 := Scalar.muli arg0 c8_i32
  let c6_i32 : BitVec 32 := 6#32
  let v58 : BitVec 32 := Scalar.addi v3 c6_i32
  let v59 : Index := Scalar.indexCast v58
  ![v59.toNat]
def k1_off14 (v60 : BitVec 32) : Fin 2 → Nat :=
  let c0_i32_15 : BitVec 32 := 0#32
  ![v60.toNat, 0]

def k1_chk7 (v60 : BitVec 32) : Prop :=
  (∀ a, (k1_off14 v60) a + S1x128.size a ≤ S100000x128.size a)
instance k1_chk7.dec : ∀ (v60 : BitVec 32), Decidable (k1_chk7 v60) := fun v60 => decidable_of_iff' _ (Iff.of_eq (k1_chk7.eq_1 v60))
theorem k1_off14_inb : ∀ (v60 : BitVec 32) (k1_hw7 : k1_chk7 v60), ∀ a, (k1_off14 v60) a + S1x128.size a ≤ S100000x128.size a := fun v60 k1_hw7 => k1_hw7

def k1_off15 (i : grid1.Coords) : Fin 1 → Nat :=
  let arg0 : BitVec 32 := BitVec.ofNat 32 (i 0).val
  let c8_i32 : BitVec 32 := 8#32
  let v3 : BitVec 32 := Scalar.muli arg0 c8_i32
  let c7_i32 : BitVec 32 := 7#32
  let v67 : BitVec 32 := Scalar.addi v3 c7_i32
  let v68 : Index := Scalar.indexCast v67
  ![v68.toNat]
def k1_off16 (v69 : BitVec 32) : Fin 2 → Nat :=
  let c0_i32_17 : BitVec 32 := 0#32
  ![v69.toNat, 0]

def k1_chk8 (v69 : BitVec 32) : Prop :=
  (∀ a, (k1_off16 v69) a + S1x128.size a ≤ S100000x128.size a)
instance k1_chk8.dec : ∀ (v69 : BitVec 32), Decidable (k1_chk8 v69) := fun v69 => decidable_of_iff' _ (Iff.of_eq (k1_chk8.eq_1 v69))
theorem k1_off16_inb : ∀ (v69 : BitVec 32) (k1_hw8 : k1_chk8 v69), ∀ a, (k1_off16 v69) a + S1x128.size a ≤ S100000x128.size a := fun v69 k1_hw8 => k1_hw8

def k1_off17 (i : grid1.Coords) : Fin 1 → Nat :=
  let arg0 : BitVec 32 := BitVec.ofNat 32 (i 0).val
  let c8_i32 : BitVec 32 := 8#32
  let v3 : BitVec 32 := Scalar.muli arg0 c8_i32
  let c0_i32_19 : BitVec 32 := 0#32
  let v76 : BitVec 32 := Scalar.addi v3 c0_i32_19
  let v77 : Index := Scalar.indexCast v76
  ![v77.toNat]
def k1_off18 (v78 : BitVec 32) : Fin 2 → Nat :=
  let c0_i32_21 : BitVec 32 := 0#32
  ![v78.toNat, 0]

def k1_chk9 (v78 : BitVec 32) : Prop :=
  (∀ a, (k1_off18 v78) a + S1x128.size a ≤ S100000x128.size a)
instance k1_chk9.dec : ∀ (v78 : BitVec 32), Decidable (k1_chk9 v78) := fun v78 => decidable_of_iff' _ (Iff.of_eq (k1_chk9.eq_1 v78))
theorem k1_off18_inb : ∀ (v78 : BitVec 32) (k1_hw9 : k1_chk9 v78), ∀ a, (k1_off18 v78) a + S1x128.size a ≤ S100000x128.size a := fun v78 k1_hw9 => k1_hw9

def k1_off19 (i : grid1.Coords) : Fin 1 → Nat :=
  let arg0 : BitVec 32 := BitVec.ofNat 32 (i 0).val
  let c8_i32 : BitVec 32 := 8#32
  let v3 : BitVec 32 := Scalar.muli arg0 c8_i32
  let c1_i32_22 : BitVec 32 := 1#32
  let v85 : BitVec 32 := Scalar.addi v3 c1_i32_22
  let v86 : Index := Scalar.indexCast v85
  ![v86.toNat]
def k1_off20 (v87 : BitVec 32) : Fin 2 → Nat :=
  let c0_i32_24 : BitVec 32 := 0#32
  ![v87.toNat, 0]

def k1_chk10 (v87 : BitVec 32) : Prop :=
  (∀ a, (k1_off20 v87) a + S1x128.size a ≤ S100000x128.size a)
instance k1_chk10.dec : ∀ (v87 : BitVec 32), Decidable (k1_chk10 v87) := fun v87 => decidable_of_iff' _ (Iff.of_eq (k1_chk10.eq_1 v87))
theorem k1_off20_inb : ∀ (v87 : BitVec 32) (k1_hw10 : k1_chk10 v87), ∀ a, (k1_off20 v87) a + S1x128.size a ≤ S100000x128.size a := fun v87 k1_hw10 => k1_hw10

def k1_off21 (i : grid1.Coords) : Fin 1 → Nat :=
  let arg0 : BitVec 32 := BitVec.ofNat 32 (i 0).val
  let c8_i32 : BitVec 32 := 8#32
  let v3 : BitVec 32 := Scalar.muli arg0 c8_i32
  let c2_i32_25 : BitVec 32 := 2#32
  let v94 : BitVec 32 := Scalar.addi v3 c2_i32_25
  let v95 : Index := Scalar.indexCast v94
  ![v95.toNat]
def k1_off22 (v96 : BitVec 32) : Fin 2 → Nat :=
  let c0_i32_27 : BitVec 32 := 0#32
  ![v96.toNat, 0]

def k1_chk11 (v96 : BitVec 32) : Prop :=
  (∀ a, (k1_off22 v96) a + S1x128.size a ≤ S100000x128.size a)
instance k1_chk11.dec : ∀ (v96 : BitVec 32), Decidable (k1_chk11 v96) := fun v96 => decidable_of_iff' _ (Iff.of_eq (k1_chk11.eq_1 v96))
theorem k1_off22_inb : ∀ (v96 : BitVec 32) (k1_hw11 : k1_chk11 v96), ∀ a, (k1_off22 v96) a + S1x128.size a ≤ S100000x128.size a := fun v96 k1_hw11 => k1_hw11

def k1_off23 (i : grid1.Coords) : Fin 1 → Nat :=
  let arg0 : BitVec 32 := BitVec.ofNat 32 (i 0).val
  let c8_i32 : BitVec 32 := 8#32
  let v3 : BitVec 32 := Scalar.muli arg0 c8_i32
  let c3_i32_28 : BitVec 32 := 3#32
  let v103 : BitVec 32 := Scalar.addi v3 c3_i32_28
  let v104 : Index := Scalar.indexCast v103
  ![v104.toNat]
def k1_off24 (v105 : BitVec 32) : Fin 2 → Nat :=
  let c0_i32_30 : BitVec 32 := 0#32
  ![v105.toNat, 0]

def k1_chk12 (v105 : BitVec 32) : Prop :=
  (∀ a, (k1_off24 v105) a + S1x128.size a ≤ S100000x128.size a)
instance k1_chk12.dec : ∀ (v105 : BitVec 32), Decidable (k1_chk12 v105) := fun v105 => decidable_of_iff' _ (Iff.of_eq (k1_chk12.eq_1 v105))
theorem k1_off24_inb : ∀ (v105 : BitVec 32) (k1_hw12 : k1_chk12 v105), ∀ a, (k1_off24 v105) a + S1x128.size a ≤ S100000x128.size a := fun v105 k1_hw12 => k1_hw12

def k1_off25 (i : grid1.Coords) : Fin 1 → Nat :=
  let arg0 : BitVec 32 := BitVec.ofNat 32 (i 0).val
  let c8_i32 : BitVec 32 := 8#32
  let v3 : BitVec 32 := Scalar.muli arg0 c8_i32
  let c4_i32_31 : BitVec 32 := 4#32
  let v112 : BitVec 32 := Scalar.addi v3 c4_i32_31
  let v113 : Index := Scalar.indexCast v112
  ![v113.toNat]
def k1_off26 (v114 : BitVec 32) : Fin 2 → Nat :=
  let c0_i32_33 : BitVec 32 := 0#32
  ![v114.toNat, 0]

def k1_chk13 (v114 : BitVec 32) : Prop :=
  (∀ a, (k1_off26 v114) a + S1x128.size a ≤ S100000x128.size a)
instance k1_chk13.dec : ∀ (v114 : BitVec 32), Decidable (k1_chk13 v114) := fun v114 => decidable_of_iff' _ (Iff.of_eq (k1_chk13.eq_1 v114))
theorem k1_off26_inb : ∀ (v114 : BitVec 32) (k1_hw13 : k1_chk13 v114), ∀ a, (k1_off26 v114) a + S1x128.size a ≤ S100000x128.size a := fun v114 k1_hw13 => k1_hw13

def k1_off27 (i : grid1.Coords) : Fin 1 → Nat :=
  let arg0 : BitVec 32 := BitVec.ofNat 32 (i 0).val
  let c8_i32 : BitVec 32 := 8#32
  let v3 : BitVec 32 := Scalar.muli arg0 c8_i32
  let c5_i32_34 : BitVec 32 := 5#32
  let v121 : BitVec 32 := Scalar.addi v3 c5_i32_34
  let v122 : Index := Scalar.indexCast v121
  ![v122.toNat]
def k1_off28 (v123 : BitVec 32) : Fin 2 → Nat :=
  let c0_i32_36 : BitVec 32 := 0#32
  ![v123.toNat, 0]

def k1_chk14 (v123 : BitVec 32) : Prop :=
  (∀ a, (k1_off28 v123) a + S1x128.size a ≤ S100000x128.size a)
instance k1_chk14.dec : ∀ (v123 : BitVec 32), Decidable (k1_chk14 v123) := fun v123 => decidable_of_iff' _ (Iff.of_eq (k1_chk14.eq_1 v123))
theorem k1_off28_inb : ∀ (v123 : BitVec 32) (k1_hw14 : k1_chk14 v123), ∀ a, (k1_off28 v123) a + S1x128.size a ≤ S100000x128.size a := fun v123 k1_hw14 => k1_hw14

def k1_off29 (i : grid1.Coords) : Fin 1 → Nat :=
  let arg0 : BitVec 32 := BitVec.ofNat 32 (i 0).val
  let c8_i32 : BitVec 32 := 8#32
  let v3 : BitVec 32 := Scalar.muli arg0 c8_i32
  let c6_i32_37 : BitVec 32 := 6#32
  let v130 : BitVec 32 := Scalar.addi v3 c6_i32_37
  let v131 : Index := Scalar.indexCast v130
  ![v131.toNat]
def k1_off30 (v132 : BitVec 32) : Fin 2 → Nat :=
  let c0_i32_39 : BitVec 32 := 0#32
  ![v132.toNat, 0]

def k1_chk15 (v132 : BitVec 32) : Prop :=
  (∀ a, (k1_off30 v132) a + S1x128.size a ≤ S100000x128.size a)
instance k1_chk15.dec : ∀ (v132 : BitVec 32), Decidable (k1_chk15 v132) := fun v132 => decidable_of_iff' _ (Iff.of_eq (k1_chk15.eq_1 v132))
theorem k1_off30_inb : ∀ (v132 : BitVec 32) (k1_hw15 : k1_chk15 v132), ∀ a, (k1_off30 v132) a + S1x128.size a ≤ S100000x128.size a := fun v132 k1_hw15 => k1_hw15

def k1_off31 (i : grid1.Coords) : Fin 1 → Nat :=
  let arg0 : BitVec 32 := BitVec.ofNat 32 (i 0).val
  let c8_i32 : BitVec 32 := 8#32
  let v3 : BitVec 32 := Scalar.muli arg0 c8_i32
  let c7_i32_40 : BitVec 32 := 7#32
  let v139 : BitVec 32 := Scalar.addi v3 c7_i32_40
  let v140 : Index := Scalar.indexCast v139
  ![v140.toNat]
def k1_off32 (v141 : BitVec 32) : Fin 2 → Nat :=
  let c0_i32_42 : BitVec 32 := 0#32
  ![v141.toNat, 0]

def k1_chk16 (v141 : BitVec 32) : Prop :=
  (∀ a, (k1_off32 v141) a + S1x128.size a ≤ S100000x128.size a)
instance k1_chk16.dec : ∀ (v141 : BitVec 32), Decidable (k1_chk16 v141) := fun v141 => decidable_of_iff' _ (Iff.of_eq (k1_chk16.eq_1 v141))
theorem k1_off32_inb : ∀ (v141 : BitVec 32) (k1_hw16 : k1_chk16 v141), ∀ a, (k1_off32 v141) a + S1x128.size a ≤ S100000x128.size a := fun v141 k1_hw16 => k1_hw16

def k1_cond2 (i : grid1.Coords) : BitVec 1 :=
  let arg0 : BitVec 32 := BitVec.ofNat 32 (i 0).val
  let c255_i32 : BitVec 32 := 255#32
  let v165 : BitVec 1 := Scalar.cmpi .eq arg0 c255_i32
  let v166 : BitVec 32 := Scalar.extui v165
  let c0_i32_54 : BitVec 32 := 0#32
  let v167 : BitVec 1 := Scalar.cmpi .ne v166 c0_i32_54
  v167

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S1_S1x1 : S1.ShapeCasts S1x1
  shapeCasts_S100000_S1x100000 : S100000.ShapeCasts S1x100000
  inb_S512x128_S512x128_0_0 : ∀ a, (![0, 0] : Fin 2 → Nat) a + S512x128.size a ≤ S512x128.size a
  h_S512x128 : 0 < S512x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x128 : S1x1.Broadcasts S512x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  numel1_S1 : S1.numel = 1
  inb_S8_S1_0 : ∀ a, (![0] : Fin 1 → Nat) a + S1.size a ≤ S8.size a
  squeezes_S1_S_ : S1.Squeezes S_
  inb_S8x128_S1x128_0_0 : ∀ a, (![0, 0] : Fin 2 → Nat) a + S1x128.size a ≤ S8x128.size a
  squeezes_S1x128_S128 : S1x128.Squeezes S128
  inb_S8_S1_1 : ∀ a, (![1] : Fin 1 → Nat) a + S1.size a ≤ S8.size a
  inb_S8x128_S1x128_1_0 : ∀ a, (![1, 0] : Fin 2 → Nat) a + S1x128.size a ≤ S8x128.size a
  inb_S8_S1_2 : ∀ a, (![2] : Fin 1 → Nat) a + S1.size a ≤ S8.size a
  inb_S8x128_S1x128_2_0 : ∀ a, (![2, 0] : Fin 2 → Nat) a + S1x128.size a ≤ S8x128.size a
  inb_S8_S1_3 : ∀ a, (![3] : Fin 1 → Nat) a + S1.size a ≤ S8.size a
  inb_S8x128_S1x128_3_0 : ∀ a, (![3, 0] : Fin 2 → Nat) a + S1x128.size a ≤ S8x128.size a
  inb_S8_S1_4 : ∀ a, (![4] : Fin 1 → Nat) a + S1.size a ≤ S8.size a
  inb_S8x128_S1x128_4_0 : ∀ a, (![4, 0] : Fin 2 → Nat) a + S1x128.size a ≤ S8x128.size a
  inb_S8_S1_5 : ∀ a, (![5] : Fin 1 → Nat) a + S1.size a ≤ S8.size a
  inb_S8x128_S1x128_5_0 : ∀ a, (![5, 0] : Fin 2 → Nat) a + S1x128.size a ≤ S8x128.size a
  inb_S8_S1_6 : ∀ a, (![6] : Fin 1 → Nat) a + S1.size a ≤ S8.size a
  inb_S8x128_S1x128_6_0 : ∀ a, (![6, 0] : Fin 2 → Nat) a + S1x128.size a ≤ S8x128.size a
  inb_S8_S1_7 : ∀ a, (![7] : Fin 1 → Nat) a + S1.size a ≤ S8.size a
  inb_S8x128_S1x128_7_0 : ∀ a, (![7, 0] : Fin 2 → Nat) a + S1x128.size a ≤ S8x128.size a
  inb_S8x128_S8x128_0_0 : ∀ a, (![0, 0] : Fin 2 → Nat) a + S8x128.size a ≤ S8x128.size a
  h_S8x128 : 0 < S8x128.numel
  reduces_S8x128_S8 : S8x128.Reduces [1] S8
  shapeCasts_S8_S8x1 : S8.ShapeCasts S8x1
  reduces_S8x1_S1 : S8x1.Reduces [0] S1
  shapeCasts_S1x1_S_ : S1x1.ShapeCasts S_
  dot_S512x128_S128x2048_S512x2048_1_0_0_1_n_n_wf : DotDims.WF S512x128 S128x2048 S512x2048 [1] [0] [0] [1] [] []
  hcc1_scratch1 : 12 + S8.numel ≤ 20
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x100000.size a
  hwx0_2 : ∀ i : grid0.Coords, EltTy.bits .f32 = 32 ∨ (Rect.unit (s := S1x100000) (fun a => cc0_transform_2 i a * S1x2048.size a) (fun a => (Pipeline.Clip.of (cc0_transform_2 i a) (S1x2048.size a) (S1x100000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x100000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S512x2048.size a < S2048x100000.size a
  hwx0_4 : ∀ i : grid0.Coords, EltTy.bits .f32 = 32 ∨ (Rect.unit (s := S2048x100000) (fun a => cc0_transform_4 i a * S512x2048.size a) (fun a => (Pipeline.Clip.of (cc0_transform_4 i a) (S512x2048.size a) (S2048x100000.size a)).extent (S512x2048.size a)) fun a => Pipeline.Clip.inb (Pipeline.Clip.ok_of (hstart0_4 i a))).WholeWords (EltTy.packing .f32)
  hwxs0_4 : ∀ i : grid0.Coords, EltTy.bits .f32 = 32 ∨ (Rect.unit (s := S512x2048) (fun _ => 0) (fun a => (Pipeline.Clip.of (cc0_transform_4 i a) (S512x2048.size a) (S2048x100000.size a)).extent (S512x2048.size a)) fun a => (Nat.zero_add _).trans_le (Pipeline.Clip.extent_le (Pipeline.Clip.ok_of (hstart0_4 i a)))).WholeWords (EltTy.packing .f32)
  hrank1 : 0 < grid1.rank
  k1_off1_inb : ∀ i : grid1.Coords, ∀ a, (k1_off1 i) a + S1.size a ≤ S2048.size a
  k1_off3_inb : ∀ i : grid1.Coords, ∀ a, (k1_off3 i) a + S1.size a ≤ S2048.size a
  k1_off5_inb : ∀ i : grid1.Coords, ∀ a, (k1_off5 i) a + S1.size a ≤ S2048.size a
  k1_off7_inb : ∀ i : grid1.Coords, ∀ a, (k1_off7 i) a + S1.size a ≤ S2048.size a
  k1_off9_inb : ∀ i : grid1.Coords, ∀ a, (k1_off9 i) a + S1.size a ≤ S2048.size a
  k1_off11_inb : ∀ i : grid1.Coords, ∀ a, (k1_off11 i) a + S1.size a ≤ S2048.size a
  k1_off13_inb : ∀ i : grid1.Coords, ∀ a, (k1_off13 i) a + S1.size a ≤ S2048.size a
  k1_off15_inb : ∀ i : grid1.Coords, ∀ a, (k1_off15 i) a + S1.size a ≤ S2048.size a
  k1_off17_inb : ∀ i : grid1.Coords, ∀ a, (k1_off17 i) a + S1.size a ≤ S2048.size a
  k1_off19_inb : ∀ i : grid1.Coords, ∀ a, (k1_off19 i) a + S1.size a ≤ S2048.size a
  k1_off21_inb : ∀ i : grid1.Coords, ∀ a, (k1_off21 i) a + S1.size a ≤ S2048.size a
  k1_off23_inb : ∀ i : grid1.Coords, ∀ a, (k1_off23 i) a + S1.size a ≤ S2048.size a
  k1_off25_inb : ∀ i : grid1.Coords, ∀ a, (k1_off25 i) a + S1.size a ≤ S2048.size a
  k1_off27_inb : ∀ i : grid1.Coords, ∀ a, (k1_off27 i) a + S1.size a ≤ S2048.size a
  k1_off29_inb : ∀ i : grid1.Coords, ∀ a, (k1_off29 i) a + S1.size a ≤ S2048.size a
  k1_off31_inb : ∀ i : grid1.Coords, ∀ a, (k1_off31 i) a + S1.size a ≤ S2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128.size a ≤ S2048x128.size a
  hwx1_0 : ∀ i : grid1.Coords, EltTy.bits .f32 = 32 ∨ (Rect.block (s := S2048x128) S8x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_2 i = cc1_transform_2 i'
  hinb1_1 : ∀ (i : grid1.Coords) a, (cc1_transform_2 i a + 1) * S1x1.size a ≤ S1x1.size a
  hwx1_1 : ∀ i : grid1.Coords, EltTy.bits .f32 = 32 ∨ (Rect.block (s := S1x1) S1x1.size (cc1_transform_2 i) (hinb1_1 i)).WholeWords (EltTy.packing .f32)

variable [Facts₀]

abbrev cc1_scratch1 : DmaSems sig S8 := SemArray.consecutive 12 S8 hcc1_scratch1
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S2048x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v2) S512x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev spec1_0 : Pipeline.WinSpec sig grid1.rank :=
  Pipeline.WinSpec.ofSpec (Memref.whole main_arg0) S8x128.size reads1_0 false false 2 stage1_0 sem1_0 nbuf1_0 hstage1_0

abbrev spec1_1 : Pipeline.WinSpec sig grid1.rank :=
  Pipeline.WinSpec.ofSpec (Memref.whole main_v3) S1x1.size reads1_1 true true 1 stage1_1 sem1_1 nbuf1_1 hstage1_1

abbrev spec1 : Fin 2 → Pipeline.WinSpec sig grid1.rank := fun | 0 => spec1_0 | 1 => spec1_1 | ⟨_ + 2, h⟩ => absurd h (Nat.not_lt.2 (Nat.le_add_left _ _))
theorem hcount1 : ∀ w, grid1.bufCount (spec1 w).reads (spec1 w).sync = (spec1 w).nbuf := fun | 0 => nbuf1_0 | 1 => nbuf1_1 | ⟨_ + 2, h⟩ => absurd h (Nat.not_lt.2 (Nat.le_add_left _ _))
abbrev ix1 (pf : pre1.Contents (Elt F)) : (w : Fin 2) → grid1.Coords → Fin (spec1 w).shape.rank → Nat := fun | 0 => cc1_transform_0 | 1 => cc1_transform_2 | ⟨_ + 2, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | ⟨_ + 2, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | ⟨_ + 2, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | ⟨_ + 2, h⟩ => absurd h (Nat.not_lt.2 (Nat.le_add_left _ _))
abbrev idle1 : Fin 2 → grid1.Coords → Bool := fun | 0 => fun _ => false | 1 => fun i => !(k1_cond2 i == 1#1) | ⟨_ + 2, h⟩ => absurd h (Nat.not_lt.2 (Nat.le_add_left _ _))

class Facts : Prop extends Facts₀ where
  harr1 : ∀ w, (spec1 w).arr.IsWhole

variable [Facts]
-- ==== ReferenceIdeal.lean ====
abbrev S2048x128 : Shape := ⟨2, ![2048, 128]⟩
abbrev S100000x128 : Shape := ⟨2, ![100000, 128]⟩
abbrev S1 : Shape := ⟨1, ![1]⟩
abbrev S100000 : Shape := ⟨1, ![100000]⟩
abbrev S2048 : Shape := ⟨1, ![2048]⟩
abbrev S_ : Shape := ⟨0, ![]⟩
abbrev S1x1 : Shape := ⟨2, ![1, 1]⟩
abbrev S128x100000 : Shape := ⟨2, ![128, 100000]⟩
abbrev S2048x100000 : Shape := ⟨2, ![2048, 100000]⟩
abbrev S1x100000 : Shape := ⟨2, ![1, 100000]⟩
abbrev S2048x1 : Shape := ⟨2, ![2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S1, .f32⟩
  | .hbm, ⟨3, _⟩ => ⟨S100000x128, .f32⟩
  | .hbm, ⟨4, _⟩ => ⟨S100000, .f32⟩
  | .hbm, ⟨5, _⟩ => ⟨S2048, .i32⟩
  | .hbm, ⟨6, _⟩ => ⟨S_, .f32⟩
  | .hbm, ⟨7, _⟩ => ⟨S2048x128, .f32⟩
  | .hbm, ⟨8, _⟩ => ⟨S2048x128, .i1⟩
  | .hbm, ⟨9, _⟩ => ⟨S1x1, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S128x100000, .f32⟩
  | .hbm, ⟨14, _⟩ => ⟨S2048x100000, .f32⟩
  | .hbm, ⟨15, _⟩ => ⟨S1x100000, .f32⟩
  | .hbm, ⟨16, _⟩ => ⟨S2048x100000, .f32⟩
  | .hbm, ⟨17, _⟩ => ⟨S2048x100000, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x128, .f32⟩
  | .hbm, ⟨27, _⟩ => ⟨S2048x128, .f32⟩
  | .hbm, ⟨28, _⟩ => ⟨S2048x128, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x128_0_1 : S1x1.BroadcastsInDim S2048x128 (![0, 1] : Fin 2 → Fin S2048x128.rank)
  transposes_S100000x128_S128x100000_1_0 : S100000x128.Transposes [1, 0] S128x100000
  bcast_S100000_S1x100000_1 : S100000.BroadcastsInDim S1x100000 (![1] : Fin 1 → Fin S1x100000.rank)
  bcast_S1x100000_S2048x100000_0_1 : S1x100000.BroadcastsInDim S2048x100000 (![0, 1] : Fin 2 → Fin S2048x100000.rank)
  bcast_S_S2048 : S_.BroadcastsInDim S2048 (![] : Fin 0 → Fin S2048.rank)
  bcast_S2048_S2048x1_0 : S2048.BroadcastsInDim S2048x1 (![0] : Fin 1 → Fin S2048x1.rank)
  reducesTo_S2048x128_S2048_d1 : S2048x128.ReducesTo [1] S2048
  h_S_ : 0 < S_.numel
  reducesTo_S2048_S_d0 : S2048.ReducesTo [0] S_
  dot_S2048x128_S128x100000_S2048x100000_1_0_0_1_n_n_wf : DotDims.WF S2048x128 S128x100000 S2048x100000 [1] [0] [0] [1] [] []
  gather_S100000x128_S2048x1_S2048x128_1_0_n_n_0_1_1128_wf : GatherDims.WF S100000x128 S2048x1 S2048x128 [1] [0] [] [0] [] 1 ![1, 128]

variable [Facts₀]

def dot_S2048x128_S128x100000_S2048x100000_1_0_0_1_n_n : DotDims S2048x128 S128x100000 S2048x100000 where
  lhsContracting := [1]
  rhsContracting := [0]
  lhsNonContracting := [0]
  rhsNonContracting := [1]
  lhsBatch := []
  rhsBatch := []
  wf := dot_S2048x128_S128x100000_S2048x100000_1_0_0_1_n_n_wf
def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf

class Facts : Prop extends Facts₀ where

variable [Facts]
-- ==== Proof.Labels.lean ====
/-
  The precondition's last conjunct read back: every label word, as an unsigned number, is below 100000.
  The printed predicate is a conjunction of six whole-array tests folded by `and`; only the last one (0 ≤ label and
  label < 100000 as signed words, at every position) is opened here.
-/
import proofs.«413297_j40621800685615_1_alg».proof.Pre_finite_inputs
import proofs.«413297_j40621800685615_1_alg».proof.Proof.Gen.Pre_finite_inputs
import Idealize.ShloMosaic.Lib.ReduceAll

noncomputable section

namespace Cert.Proof.Labels

open Idealize.ShloMosaic
open Cert.Pre_finite_inputs

/-- If the precondition holds of the six arrays, every label is in the range of the center table's rows. -/
theorem labels_lt {F : FTy → Type} [FloatOps F]
    (a0 : FVec F S2048x128 .f32) (a1 : FVec F S100000x128 .f32) (a2 : FVec F S1 .f32)
    (a3 : FVec F S100000x128 .f32) (a4 : FVec F S100000 .f32) (lab : IVec S2048 32)
    (h : Cert.Pre_finite_inputs.fn (F := F) a0 a1 a2 a3 a4 lab = fun _ => 1#1) :
    ∀ k : S2048.Idx, (lab k).toNat < 100000 := by
  intro k
  -- the predicate at its one index, unfolded down to its last `and`
  have h0 := congrFun h (fun a => a.elim0)
  unfold Cert.Pre_finite_inputs.fn Cert.Pre_finite_inputs.fn_part1 at h0
  dsimp only at h0
  -- the last conjunct: the `and` over all positions of (0 ≤ label and label < 100000) is 1
  have hall := (IntOp.andi_eq_one.1 h0).2
  -- so the test is 1 at position k, and both of its compares are
  haveI : Subsingleton S_.Idx := ⟨fun a b => funext fun d => d.elim0⟩
  have hk := Host.reduce_andi_all _ _ _ _ _ hall k
  obtain ⟨hge, hlt⟩ := IntOp.andi_eq_one.1 hk
  -- read signed: 0 ≤ label and label < 100000; a broadcast constant reads the constant at every position
  have hge' : (0#32 : BitVec 32).toInt ≤ (lab k).toInt := IntOp.cmpi_sge.1 hge
  have hlt' : (lab k).toInt < (100000#32 : BitVec 32).toInt := IntOp.cmpi_slt.1 hlt
  have e0 : (0#32 : BitVec 32).toInt = 0 := by decide
  have e1 : (100000#32 : BitVec 32).toInt = 100000 := by decide
  rw [e0] at hge'
  rw [e1] at hlt'
  -- a word whose signed value is nonnegative has that value as its unsigned value
  have hx := BitVec.toInt_eq_toNat_cond (lab k)
  have hw := (lab k).isLt
  split at hx <;> omega

end Cert.Proof.Labels

end
-- ==== Proof.Spec.lean ====
/-
  What the two programs compute, as functions of the six argument arrays, index by index on the extended reals.

  The classifier branch: entry (r, j) of the first result is the inner product over the 128 features of row r of x, passed
  through the one-slope PReLU, with row j of the weight, plus bias j. The center-loss branch: each sample's squared
  distance to the center its label names, clamped to [lo, hi], summed over the 2048 samples and divided by 2048
  (stated as the product with the real 1/2048).
-/
import Idealize.ShloMosaic.PureOps.Ideal
import Idealize.ShloMosaic.Lib.ValueIdx

noncomputable section

namespace Cert.Proof.Spec

open Idealize.ShloMosaic Idealize.ShloMosaic.ValueIdx

abbrev SX : Shape := ⟨2, ![2048, 128]⟩
abbrev SC : Shape := ⟨2, ![100000, 128]⟩
abbrev SA : Shape := ⟨1, ![1]⟩
abbrev SB : Shape := ⟨1, ![100000]⟩
abbrev SL : Shape := ⟨1, ![2048]⟩
abbrev SO : Shape := ⟨2, ![2048, 100000]⟩

/-- The float zero both programs compare against, and the two clamp bounds, as the words both programs carry. -/
abbrev zeroF : EReal := Ideal.ofBits .f32 0x00000000#32
abbrev loF : EReal := Ideal.ofBits .f32 0x2B8CBCCC#32
abbrev hiF : EReal := Ideal.ofBits .f32 0x5368D4A5#32

/-- PReLU with slope `a`: x where x ≥ 0, else a · x. -/
def act (a x : EReal) : EReal := Scalar.select (FloatOps.cmpf (F := Ideal) (φ := .f32) .oge x zeroF) x (a * x)

/-- Entry (r, j) of the classifier's output. -/
def linOut (x : SX.Idx → EReal) (a : SA.Idx → EReal) (w : SC.Idx → EReal) (b : SB.Idx → EReal)
    (r : Fin 2048) (j : Fin 100000) : EReal :=
  (∑ k : Fin 128, act (a (ix1 (0 : Fin 1))) (x (ix2 r k)) * w (ix2 j k)) + b (ix1 j)

/-- The row of the center table a label word names (the word itself when it is below 100000). -/
def rowOf (v : BitVec 32) : Fin 100000 := ⟨v.toNat % 100000, Nat.mod_lt _ (by decide)⟩

theorem rowOf_val {v : BitVec 32} (h : v.toNat < 100000) : (rowOf v).val = v.toNat := Nat.mod_eq_of_lt h

/-- Sample r's squared distance to its class center. -/
def rowDist (x : SX.Idx → EReal) (ctr : SC.Idx → EReal) (lab : SL.Idx → BitVec 32) (r : Fin 2048) : EReal :=
  ∑ d : Fin 128, (x (ix2 r d) - ctr (ix2 (rowOf (lab (ix1 r))) d)) * (x (ix2 r d) - ctr (ix2 (rowOf (lab (ix1 r))) d))

/-- The clamp to [lo, hi]: the lower bound first, then the upper. -/
def clipD (s : EReal) : EReal := min hiF (max loF s)

/-- The sum of the clamped distances over the 2048 samples, -/
def lossSum (x : SX.Idx → EReal) (ctr : SC.Idx → EReal) (lab : SL.Idx → BitVec 32) : EReal :=
  ∑ r : Fin 2048, clipD (rowDist x ctr lab r)

/-- and their mean. -/
def loss (x : SX.Idx → EReal) (ctr : SC.Idx → EReal) (lab : SL.Idx → BitVec 32) : EReal :=
  lossSum x ctr lab * ((1 / 2048 : ℝ) : EReal)

end Cert.Proof.Spec

end
-- ==== Proof.RefValue.lean ====
/-
  The reference's two results are the specification's functions of the argument arrays.
-/
import proofs.«413297_j40621800685615_1_alg».proof.Defs
import proofs.«413297_j40621800685615_1_alg».proof.Proof.Gen.ReferenceIdeal
import proofs.«413297_j40621800685615_1_alg».proof.Proof.Gen.ReferenceIdeal.Run
import proofs.«413297_j40621800685615_1_alg».proof.Proof.Gen.ReferenceIdeal.Read
import proofs.«413297_j40621800685615_1_alg».proof.Proof.Spec
import Idealize.ShloMosaic.Lib.ValueIdxRank1

noncomputable section

namespace Cert.Proof.RefValue

open Idealize.ShloMosaic Idealize.ShloMosaic.TcCoe Idealize.SL.Sem Idealize.ShloMosaic.ValueIdx
open Cert.ReferenceIdeal

/-! ## The gather of the centers, read at an index -/

/-- The row gather read at (r, d): row (the start index of sample r, read signed and clamped into the table) of the
    operand, at column d. -/
theorem gather_row {α : Type} (x : S100000x128.Idx → α) (idx : IVec S2048x1 32) (r : Fin 2048) (d : Fin 128) :
    Host.gather gather_S100000x128_S2048x1_S2048x128_1_0_n_n_0_1_1128 x idx (ix2 r d)
      = x (ix2 (⟨min (idx (ix2 r (0 : Fin 1))).toInt.toNat 99999, by omega⟩ : Fin 100000) d) := by
  unfold Host.gather
  congr 1
  funext a
  refine Fin.ext ?_
  match a with
  | ⟨0, _⟩ =>
    show gather_S100000x128_S2048x1_S2048x128_1_0_n_n_0_1_1128.start (ix2 r d) idx 0
        + gather_S100000x128_S2048x1_S2048x128_1_0_n_n_0_1_1128.batchCoord (ix2 r d) 0
        + gather_S100000x128_S2048x1_S2048x128_1_0_n_n_0_1_1128.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S2048x1_S2048x128_1_0_n_n_0_1_1128.startIndexMap from
      List.mem_singleton.mpr rfl)]
    have hsi : gather_S100000x128_S2048x1_S2048x128_1_0_n_n_0_1_1128.siIdx (ix2 r d)
        ⟨List.idxOf (0 : Fin 2) gather_S100000x128_S2048x1_S2048x128_1_0_n_n_0_1_1128.startIndexMap,
          List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show gather_S100000x128_S2048x1_S2048x128_1_0_n_n_0_1_1128.start (ix2 r d) idx 1
        + gather_S100000x128_S2048x1_S2048x128_1_0_n_n_0_1_1128.batchCoord (ix2 r d) 1
        + gather_S100000x128_S2048x1_S2048x128_1_0_n_n_0_1_1128.offCoord (ix2 r d) 1 = d.val
    rw [GatherDims.batchCoord_eq_zero _ _ _ List.not_mem_nil]
    unfold GatherDims.start
    rw [dif_neg (show ¬ (1 : Fin 2) ∈ gather_S100000x128_S2048x1_S2048x128_1_0_n_n_0_1_1128.startIndexMap by decide)]
    unfold GatherDims.offCoord
    rw [dif_pos (show (1 : Fin 2) ∈ gather_S100000x128_S2048x1_S2048x128_1_0_n_n_0_1_1128.sKept by decide)]
    simp only [Nat.add_zero, Nat.zero_add]
    rfl

/-- A label word below 100000 is not negative read signed, and reads the same signed and unsigned. -/
theorem label_word {v : BitVec 32} (h : v.toNat < 100000) :
    IntOp.cmpi .slt v 0#32 = 0#1 ∧ v.toInt.toNat = v.toNat := by
  have hi : v.toInt = (v.toNat : Int) := by
    unfold BitVec.toInt
    rw [if_pos (by omega)]
  refine ⟨eq_zero_of_ne_one fun h1 => ?_, by rw [hi]; rfl⟩
  have := IntOp.cmpi_slt.mp h1
  rw [hi] at this
  have h0 : (0#32 : BitVec 32).toInt = 0 := by decide
  omega

/-- The row gather at start indices that hold an in-range label: row (that label) of the operand. -/
theorem gather_row_label {α : Type} (x : S100000x128.Idx → α) (idx : IVec S2048x1 32) (r : Fin 2048) (d : Fin 128)
    (v : BitVec 32) (hv : idx (ix2 r (0 : Fin 1)) = v) (h : v.toNat < 100000) :
    Host.gather gather_S100000x128_S2048x1_S2048x128_1_0_n_n_0_1_1128 x idx (ix2 r d) = x (ix2 (Spec.rowOf v) d) := by
  rw [gather_row]
  congr 2
  refine Fin.ext ?_
  show min (idx (ix2 r (0 : Fin 1))).toInt.toNat 99999 = v.toNat % 100000
  rw [hv, (label_word h).2, Nat.mod_eq_of_lt h]
  omega

/-- The start indices at sample r: the label itself when it is in range (the wrap of a negative label is not taken). -/
theorem v16_apply (lab : S2048.Idx → BitVec 32) (r : Fin 2048) (h : (lab (ix1 r)).toNat < 100000) :
    Read.val_main_v16 (F := Ideal) lab (ix2 r (0 : Fin 1)) = lab (ix1 r) := by
  have e : Read.idx_main_v16 (ix2 r (0 : Fin 1)) = ix1 r := funext fun a => Fin.ext (by match a with | ⟨0, _⟩ => rfl)
  rw [Read.val_main_v16_apply, Read.val_main_v15_apply, Read.val_main_v12_apply, Read.val_main_v11_apply,
    Read.val_main_c_apply, e, (label_word h).1, select_zero]

/-! ## The center-loss branch -/

/-- The gathered centers at (r, d): the center the label of sample r names, at feature d. -/
theorem v17_apply (ctr : S100000x128.Idx → EReal) (lab : S2048.Idx → BitVec 32) (r : Fin 2048) (d : Fin 128)
    (h : (lab (ix1 r)).toNat < 100000) :
    Read.val_main_v17 (F := Ideal) ctr lab (ix2 r d) = ctr (ix2 (Spec.rowOf (lab (ix1 r))) d) := by
  unfold Read.val_main_v17
  exact gather_row_label ctr _ r d _ (v16_apply lab r h) h

/-- Sample r's sum of squared differences, onto the zero the reference starts its sum at. -/
theorem v20_apply (x : S2048x128.Idx → EReal) (ctr : S100000x128.Idx → EReal) (lab : S2048.Idx → BitVec 32) (r : Fin 2048)
    (h : (lab (ix1 r)).toNat < 100000) :
    Read.val_main_v20 (F := Ideal) x ctr lab (ix1 r) = Spec.rowDist x ctr lab r := by
  rw [Read.val_main_v20_apply, Read.val_main_cst_1_apply]
  simp only [Ideal.ofBits_def, Ideal.ofBits_zero_f32, zero_add]
  unfold Spec.rowDist
  refine Finset.sum_congr rfl fun d _ => ?_
  have e : Read.idx_main_v20 (ix1 r) d = ix2 r d :=
    funext fun a => Fin.ext (by match a with | ⟨0, _⟩ => rfl | ⟨1, _⟩ => rfl)
  rw [e, Read.val_main_v19_apply, Read.val_main_v18_apply, v17_apply ctr lab r d h]
  rfl

/-- The clamped distance of sample r: the lower bound first, then the upper. -/
theorem v21_apply (x : S2048x128.Idx → EReal) (ctr : S100000x128.Idx → EReal) (lab : S2048.Idx → BitVec 32) (r : Fin 2048)
    (h : (lab (ix1 r)).toNat < 100000) :
    Read.val_main_v21 (F := Ideal) x ctr lab (ix1 r) = Spec.clipD (Spec.rowDist x ctr lab r) := by
  rw [Read.val_main_v21_apply, Read.val_main_call1_v4_apply, Read.val_main_call1_v3_apply, Read.val_main_cst_3_apply,
    Read.val_main_call1_v2_apply, Read.val_main_call1_v1_apply, Read.val_main_call1_v0_apply, Read.val_main_cst_2_apply,
    v20_apply x ctr lab r h]
  rfl

/-- The divisor's word denotes the real 2048. -/
theorem ofBits_2048 : Ideal.ofBits .f32 0x45000000#32 = ((2048 : ℝ) : EReal) := by
  simp [Ideal.ofBits, Ideal.ieee, -EReal.coe_mul]; norm_num

/-- The reference's first result: the sum of the clamped distances over the samples, divided by 2048. -/
theorem v23_apply (x : S2048x128.Idx → EReal) (ctr : S100000x128.Idx → EReal) (lab : S2048.Idx → BitVec 32)
    (h : ∀ r : Fin 2048, (lab (ix1 r)).toNat < 100000) (i : S_.Idx) :
    Read.val_main_v23 (F := Ideal) x ctr lab i = Spec.loss x ctr lab := by
  rw [Read.val_main_v23_apply, Read.val_main_v22_apply, Read.val_main_cst_4_apply, Read.val_main_cst_5_apply]
  simp only [Ideal.hostDivf_def, Ideal.ofBits_def, Ideal.ofBits_zero_f32, zero_add, ofBits_2048,
    Ideal.div_coe (by norm_num : (2048 : ℝ) ≠ 0)]
  unfold Spec.loss Spec.lossSum
  congr 1
  rw [← Equiv.sum_comp (idxEquiv1 (n := 2048)).symm]
  exact Finset.sum_congr rfl fun r _ => v21_apply x ctr lab r (h r)

/-! ## The classifier branch -/

/-- The classifier's entry (r, j): the inner product of the activated row r with row j of the weight, plus bias j. -/
theorem v10_apply (x : S2048x128.Idx → EReal) (a : S1.Idx → EReal) (w : S100000x128.Idx → EReal) (b : S100000.Idx → EReal)
    (r : Fin 2048) (j : Fin 100000) :
    Read.val_main_v10 (F := Ideal) x a w b (ix2 r j) = Spec.linOut x a w b r j := by
  have eb : Read.idx_main_v8 (Read.idx_main_v9 (ix2 r j)) = ix1 j :=
    funext fun c => Fin.ext (by match c with | ⟨0, _⟩ => rfl)
  rw [Read.val_main_v10_apply, Read.val_main_v7_apply, Read.val_main_v9_apply, Read.val_main_v8_apply, eb]
  unfold Spec.linOut
  simp only [Ideal.addf_def]
  refine congrArg (· + b (ix1 j)) (Finset.sum_congr rfl fun k _ => ?_)
  have el : Read.lidx_main_v7 (ix2 r j) k = ix2 r k :=
    funext fun c => Fin.ext (by match c with | ⟨0, _⟩ => rfl | ⟨1, _⟩ => rfl)
  have er : Read.idx_main_v6 (Read.ridx_main_v7 (ix2 r j) k) = ix2 j k :=
    funext fun c => Fin.ext (by match c with | ⟨0, _⟩ => rfl | ⟨1, _⟩ => rfl)
  have ea : Read.idx_main_v2 (Read.idx_main_v3 (ix2 r k)) = ix1 (0 : Fin 1) :=
    funext fun c => Fin.ext (by match c with | ⟨0, _⟩ => rfl)
  rw [el, Read.val_main_v5_apply, Read.val_main_v1_apply, Read.val_main_v0_apply, Read.val_main_cst_apply,
    Read.val_main_v4_apply, Read.val_main_v3_apply, Read.val_main_v2_apply, ea, Read.val_main_v6_apply, er]
  rfl

/-! ## The run -/

/-- Under labels in range the reference ends with the mean clamped distance in its first result, the classifier's
    output in its second, and its arguments as launched. -/
theorem ref_run (m : (ℓ : Loc nD τ sig) → Buf (Elt Ideal) ℓ) (ρ : Dev nD → PrngReg)
    (hlab : ∀ (c : Dev nD) (k : S2048.Idx), (m ((c.tc : Thread nD τ).loc main_arg5) k).toNat < 100000) :
    θ_run (defs (F := Ideal)) (onTc (τ := τ) (main (F := Ideal))) ⟨m, fun _ => 0, ρ⟩ (fun r => ∀ c : Dev nD,
      r.2.mem ((c.tc : Thread nD τ).loc main_v23)
          = (fun _ => Spec.loss (m ((c.tc : Thread nD τ).loc main_arg0)) (m ((c.tc : Thread nD τ).loc main_arg1)) (m ((c.tc : Thread nD τ).loc main_arg5)))
      ∧ r.2.mem ((c.tc : Thread nD τ).loc main_v10)
          = (fun i => Spec.linOut (m ((c.tc : Thread nD τ).loc main_arg0)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun _ h c => ⟨(h c).1.trans ?_, (h c).2.1.trans ?_, (h c).2.2⟩)
    (Cert.ReferenceIdeal.Value.run (F := Ideal) m ρ)
  · rw [Read.val_main_v23_eq]
    funext i
    exact v23_apply _ _ _ (fun r => hlab c (ix1 r)) i
  · rw [Read.val_main_v10_eq]
    funext i
    obtain ⟨r, j, rfl⟩ : ∃ (r : Fin 2048) (j : Fin 100000), i = ix2 r j := ⟨i 0, i 1, eq_ix2 i⟩
    exact v10_apply _ _ _ _ r j

end Cert.Proof.RefValue

end
-- ==== Proof.KI.Common.lean ====
/-
  Names shared by the modules about the two kernels of this program: how a whole buffer is held, the center table
  held as one read share per transfer, the center-loss kernel's eight semaphore cells, the kinds of its grid points
  (the first zeroes the running sum, the last writes the mean out), and that a label below 100000 names a row of the
  center table.
-/
import proofs.«413297_j40621800685615_1_alg».proof.Proof.Gen.KernelIdeal
import proofs.«413297_j40621800685615_1_alg».proof.Proof.Gen.KernelIdeal.Skeleton
import proofs.«413297_j40621800685615_1_alg».proof.Proof.Gen.KernelIdeal.Launch
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the counters the kernel's own transfers draw on. -/
abbrev UC : Type := Pipeline.UD sig nD τ

local notation "𝕄" => MT nD τ sig Unit (Elt F) ℕ UC ℕ

/-- The contents type of memref `M`'s buffer on core `c`, and that buffer held whole at `f` at the full share. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The operands the center-loss kernel is passed beside its windows: the label table, the center table, its row
    scratch, and its running sum. -/
abbrev labM : Memref sig .tc .smem S2048 .i32 := Memref.whole main_arg5
abbrev ctrM : Memref sig .tc .hbm S100000x128 .f32 := Memref.whole main_arg1
abbrev rowsM : Memref sig .tc .vmem S8x128 .f32 := Memref.whole cc1_scratch0
abbrev accM : Memref sig .tc .vmem S1x1 .f32 := Memref.whole cc1_scratch2

/-- The center table held under the read share of cell `j`: eight rows are copied out of it at once, one copy per
    cell, and each copy borrows its own share. -/
abbrev tokPt (c : Dev nD) (j : ℕ) (f : HbBuf (F := F) c ctrM) : sProp 𝕄 :=
  ctrM.view.loc (c : Thread nD τ) ↦{Transfers.shareTokN fullShare j} f

/-- The eight read shares the copies borrow (cells 12 to 19). -/
abbrev toks (c : Dev nD) (f : HbBuf (F := F) c ctrM) : sProp 𝕄 :=
  iprop(tokPt c 12 f ∗ tokPt c 13 f ∗ tokPt c 14 f ∗ tokPt c 15 f ∗ tokPt c 16 f ∗ tokPt c 17 f ∗ tokPt c 18 f ∗ tokPt c 19 f)

/-- The kernel's own semaphore cells, and all eight counters at zero. -/
abbrev osem1 : Fin 8 → SemLoc sig := fun j =>
  (![SemLoc.dma 12, SemLoc.dma 13, SemLoc.dma 14, SemLoc.dma 15, SemLoc.dma 16, SemLoc.dma 17, SemLoc.dma 18, SemLoc.dma 19] : Fin 8 → SemLoc sig) j
abbrev sems0 (c : Dev nD) : sProp 𝕄 :=
  iprop(semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0)

theorem ownSemFacts1 : Pipeline.OwnSemFacts spec1 osem1 := by decide

theorem ownSems01_eq (c : Dev nD) :
    (Pipeline.ownSems0 (Ix := Unit) (Name := ℕ) (U := UC) (Lvl := ℕ) (Val := Elt F) (τ := τ) osem1 c : sProp 𝕄) = sems0 c := by
  rw [Pipeline.ownSems0_eq_of_list c osem1 [0, 1, 2, 3, 4, 5, 6, 7] (by decide) (by decide)]; rfl

/-- The two conditions the center-loss kernel branches on, at grid coordinates `i`: "this is point 0" as the body
    computes it, "this is point 255" as the printed program names it. -/
abbrev IsFirst (i : grid1.Coords) : Prop := Scalar.cmpi .ne (Scalar.extui (Scalar.cmpi .eq (BitVec.ofNat 32 (i 0).val) 0#32)) 0#32 = 1#1
abbrev IsLast (i : grid1.Coords) : Prop := k1_cond2 i = 1#1

/-- A label word below 100000 names a whole row of the center table: the fact each of the sixteen label reads assumes. -/
theorem chk_of {v : BitVec 32} (h : v.toNat < 100000) :
    ∀ a : Fin 2, (![v.toNat, 0] : Fin 2 → Nat) a + S1x128.size a ≤ S100000x128.size a := by
  intro a
  match a with
  | ⟨0, _⟩ => show v.toNat + 1 ≤ 100000; omega
  | ⟨1, _⟩ => show 0 + 128 ≤ 128; omega

end Cert.KernelIdeal.Hand

end
-- ==== Proof.KI.FcBody.lean ====
/-
  The classifier kernel's body at one grid point: it loads its four staged blocks (512 rows of x, 2048 rows of the
  weight, 2048 biases, the one slope), computes PReLU(x) · wᵀ + b on the block, and stores the 512 × 2048 result block
  whole. What the result's staging buffer holds afterwards is the body's arithmetic of the four blocks as it finds them.
-/
import proofs.«413297_j40621800685615_1_alg».proof.Proof.KI.Common
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The result block from the x block, the weight block, the bias block and the slope. -/
def fcOut (x0 : Vec F S512x128 .f32) (w0 : Vec F S2048x128 .f32) (b0 : Vec F S1x2048 .f32) (a0 : Vec F S1x1 .f32) : Vec F S512x2048 .f32 :=
  k0_pay1 x0 a0 w0 b0

/-- Every access of the body starts at the origin of its buffer: the offset vector `![0, 0]` is the zero function. -/
theorem fcBody_offsets_zero : (![0, 0] : Fin 2 → Nat) = fun _ => 0 :=
  funext fun a => match a with
    | ⟨0, _⟩ => rfl
    | ⟨1, _⟩ => rfl

set_option maxHeartbeats 1000000 in
/-- On whole staging memrefs, the four inputs at what they hold and the result's at anything, the body runs to the
    continuation with the inputs as they were and the result's buffer at `fcOut` of them. -/
theorem sound_fc (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole)
    (x0 : Vec F S512x128 .f32) (w0 : Vec F S2048x128 .f32) (b0 : Vec F S1x2048 .f32) (a0 : Vec F S1x1 .f32) (K : PUnit → sProp 𝕄) :
    iprop(owns (c : Thread nD τ) arg2 fullShare x0 ∗ owns (c : Thread nD τ) arg3 fullShare w0 ∗ owns (c : Thread nD τ) arg4 fullShare b0
        ∗ owns (c : Thread nD τ) arg5 fullShare a0 ∗ (∃ d, owns (c : Thread nD τ) arg6 fullShare d)
        ∗ (iprop(owns (c : Thread nD τ) arg2 fullShare x0 ∗ owns (c : Thread nD τ) arg3 fullShare w0 ∗ owns (c : Thread nD τ) arg4 fullShare b0
            ∗ owns (c : Thread nD τ) arg5 fullShare a0 ∗ owns (c : Thread nD τ) arg6 fullShare (fcOut x0 w0 b0 a0)) -∗ K ⟨⟩))
      ⊢ wp frame (wpE (defs₀ (F := F)) Variants.none c none) E (cc0__prelu_fc_kernel i arg2 harg2 arg3 harg3 arg4 harg4 arg5 harg5 arg6 harg6) K := by
  simp only [cc0__prelu_fc_kernel_eq_skeleton]; unfold cc0__prelu_fc_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  -- the four input buffers were only read: each is handed back with the contents it came with
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the result's buffer holds one write over its whole rectangle; what it then reads is that write's payload,
  -- and each load through a whole rectangle at the origin read its block unchanged
  iexists _; isplitr
  swap; · iexact H6
  ipureintro
  rw [View.read_writes_eq_canon _ _ _ (fun y => View.cover_of_tiled [⟨_, _⟩] S512x2048.size (by rfl) y),
    View.canon_unit_zero fcBody_offsets_zero]
  simp only [View.readAt_eq_ld]
  rw [View.ld_unit_zero (S := S512x128) fcBody_offsets_zero, View.ld_unit_zero (S := S1x1) fcBody_offsets_zero,
    View.ld_unit_zero (S := S2048x128) fcBody_offsets_zero, View.ld_unit_zero (S := S1x2048) fcBody_offsets_zero]
  unfold fcOut
  rfl

end Cert.KernelIdeal.Hand

end
-- ==== Proof.KI.FcDat.lean ====
/-
  The classifier pipeline's proof data: what each window's staging buffer holds after the body at each of the 196 grid
  points. Point t = 49·p + q works on rows 512·p … of x and on rows 2048·q … of the weight and of the bias; the last
  weight and bias blocks (q = 48) overhang their arrays by 352 rows, so their fetch is cut and the staging rows past
  the array's end hold words nothing names: the data are stated on the rows inside the array, filled out with zeros.
-/
import proofs.«413297_j40621800685615_1_alg».proof.Proof.KI.FcBody
import proofs.«413297_j40621800685615_1_alg».proof.Proof.Gen.KernelIdeal.Regions
import proofs.«413297_j40621800685615_1_alg».proof.Proof.Gen.KernelIdeal.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UC ℕ

variable (m : (ℓ : Loc nD τ sig) → Buf (Elt F) ℓ)

/-- Core `c`'s buffers when the classifier region is entered: the launch memory after the two reshapes. -/
abbrev Ve0 (c : Dev nD) (b : Ref sig .tc) : Buf (Elt F) ((c : Thread nD τ).loc b) := V1 m c b

/-- Each input window's block at point `t`, its part inside the array, -/
def xblkP (c : Dev nD) (t : Fin cfg0.N) : (win0_0.xblock (grid0.coords t)).Idx → Elt F .f32 :=
  (win0_0.blk t).view.read (Elt F) (Ve0 m c main_arg0)
def wblkP (c : Dev nD) (t : Fin cfg0.N) : (win0_1.xblock (grid0.coords t)).Idx → Elt F .f32 :=
  (win0_1.blk t).view.read (Elt F) (Ve0 m c main_arg3)
def bblkP (c : Dev nD) (t : Fin cfg0.N) : (win0_2.xblock (grid0.coords t)).Idx → Elt F .f32 :=
  (win0_2.blk t).view.read (Elt F) (Ve0 m c main_v1)
def ablkP (c : Dev nD) (t : Fin cfg0.N) : (win0_3.xblock (grid0.coords t)).Idx → Elt F .f32 :=
  (win0_3.blk t).view.read (Elt F) (Ve0 m c main_v0)

/-- and filled out to the whole block with the zero word where the block overhangs its array. -/
def xblk (c : Dev nD) (t : Fin cfg0.N) : S512x128.Idx → Elt F .f32 :=
  win0_0.fill (grid0.coords t) (fun _ => Scalar.ofBits .f32 0#32) (xblkP m c t)
def wblk (c : Dev nD) (t : Fin cfg0.N) : S2048x128.Idx → Elt F .f32 :=
  win0_1.fill (grid0.coords t) (fun _ => Scalar.ofBits .f32 0#32) (wblkP m c t)
def bblk (c : Dev nD) (t : Fin cfg0.N) : S1x2048.Idx → Elt F .f32 :=
  win0_2.fill (grid0.coords t) (fun _ => Scalar.ofBits .f32 0#32) (bblkP m c t)
def ablk (c : Dev nD) (t : Fin cfg0.N) : S1x1.Idx → Elt F .f32 :=
  win0_3.fill (grid0.coords t) (fun _ => Scalar.ofBits .f32 0#32) (ablkP m c t)

/-- The result block the body stores at point `t`, from those four. -/
def oblk (c : Dev nD) (t : Fin cfg0.N) : S512x2048.Idx → Elt F .f32 :=
  fcOut (xblk m c t) (wblk m c t) (bblk m c t) (ablk m c t)

/-- The classifier pipeline's proof data on core `c`: the arrays as the region finds them; after the body each input's
    buffer at its block and the result's at `oblk`; the invariant the scoped buffers no window stages; nothing owed; full shares. -/
def dat0 (c : Dev nD) : Dat τ (Elt F) Unit ℕ UC ℕ cfg0 c where
  A w := Ve0 m c (Pipeline.arrRef spec0 w)
  after w t := match w with
    | ⟨0, _⟩ => xblk m c t
    | ⟨1, _⟩ => wblk m c t
    | ⟨2, _⟩ => bblk m c t
    | ⟨3, _⟩ => ablk m c t
    | ⟨4, _⟩ => oblk m c t
  Φ _ := Pipeline.scopedRest (Ix := Unit) (Name := ℕ) (U := UC) (Lvl := ℕ) (Val := Elt F) spec0 c
  q _ := fullShare
  owed _ := 0

theorem dat0_A (c : Dev nD) (w : Fin cfg0.W) : (dat0 m c).A w = Ve0 m c (Pipeline.arrRef spec0 w) := by dsimp only [dat0]
theorem dat0_after4 (c : Dev nD) (t : Fin cfg0.N) : (dat0 m c).after 4 t = oblk m c t := by dsimp only [dat0]

/-- The weight's and the bias's blocks are fetched at every point: the body finds the block just fetched on the rows
    inside the array, and `d` on the rows past its end. -/
theorem before0_1 (c : Dev nD) (t : Fin cfg0.N) (d) :
    (dat0 m c).before (1 : Fin 5) t d = win0_1.fill (grid0.coords t) d (wblkP m c t) := by
  unfold Dat.before; rw [if_pos (fetch0_1 t)]; rfl
theorem before0_2 (c : Dev nD) (t : Fin cfg0.N) (d) :
    (dat0 m c).before (2 : Fin 5) t d = win0_2.fill (grid0.coords t) d (bblkP m c t) := by
  unfold Dat.before; rw [if_pos (fetch0_2 t)]; rfl

/-- The x block and the slope tile their arrays and the body leaves them in place: at a point that does not fetch them
    the block index has not moved, so the buffer holds the point's block all the same. -/
theorem before0_0 (c : Dev nD) (t : Fin cfg0.N) (d) : (dat0 m c).before (0 : Fin 5) t d = xblk m c t :=
  ((dat0 m c).before_in_eq_fetched 0 rfl (fun _ => rfl) (fun _ _ _ => rfl)
    (fun t => win0_0.cut_fill (grid0.coords t) (fun _ => Scalar.ofBits .f32 0#32) (xblkP m c t)) t d).trans (by unfold Dat.fetched Dat.blockOf xblk; rfl)
theorem before0_3 (c : Dev nD) (t : Fin cfg0.N) (d) : (dat0 m c).before (3 : Fin 5) t d = ablk m c t :=
  ((dat0 m c).before_in_eq_fetched 3 rfl (fun _ => rfl) (fun _ _ _ => rfl)
    (fun t => win0_3.cut_fill (grid0.coords t) (fun _ => Scalar.ofBits .f32 0#32) (ablkP m c t)) t d).trans (by unfold Dat.fetched Dat.blockOf ablk; rfl)

/-- Which windows a claim that does not read the classifier's output forgets: the output's. -/
abbrev fgt0 : Fin cfg0.W → Bool := fun w => decide (w = 4)

/-- What the body is handed at point `t` when the output window is forgotten: the invariant, what the core owes, each
    input's current buffer at what the loop left there, the output's at anything; -/
def bodyPreF (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ X, owns (c : Thread nD τ) (st0_4 t) fullShare X))

/-- and what it hands back: the x block and the slope as named, the weight and the bias blocks as named on the rows
    inside their arrays, the output's buffer at anything. -/
def bodyPostF (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ (∃ d, owns (c : Thread nD τ) (st0_1 t) fullShare (win0_1.fill (grid0.coords t) d (win0_1.cut (grid0.coords t) ((dat0 m c).after 1 t))))
    ∗ (∃ d, owns (c : Thread nD τ) (st0_2 t) fullShare (win0_2.fill (grid0.coords t) d (win0_2.cut (grid0.coords t) ((dat0 m c).after 2 t))))
    ∗ owns (c : Thread nD τ) (st0_3 t) fullShare ((dat0 m c).after 3 t)
    ∗ (∃ X, owns (c : Thread nD τ) (st0_4 t) fullShare X))

/-- The body at any point, the output forgotten: the four inputs' buffers hold their blocks (the weight's and the
    bias's filled out past the array's end with words nothing names), the body only reads them, and the invariant and
    what the core owes pass through unread. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩, H4⟩
  rw [before0_0 m c t d0, before0_1 m c t d1, before0_2 m c t d2, before0_3 m c t d3]
  iapply (sound_fc c Set.univ (grid0.coords t) _ _ _ _ _ _ _ _ _ _ (xblk m c t) (win0_1.fill (grid0.coords t) d1 (wblkP m c t))
    (win0_2.fill (grid0.coords t) d2 (bblkP m c t)) (ablk m c t) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]
  · iexists d1
    rw [show win0_1.cut (grid0.coords t) ((dat0 m c).after 1 t) = wblkP m c t from win0_1.cut_fill _ _ _]
    iexact H1
  isplitl [H2]
  · iexists d2
    rw [show win0_2.cut (grid0.coords t) ((dat0 m c).after 2 t) = bblkP m c t from win0_2.cut_fill _ _ _]
    iexact H2
  isplitl [H3]; · iexact H3
  iexists _; iexact H4

/-- The body obligation with the output window forgotten, at any float instance: the inputs are handed back as found
    (on the rows inside their arrays), the output's buffer at whatever the body stored. -/
theorem body_obligation0_fgt (c : Dev nD) :
    BodyObligationLoose (dat0 (F := F) m c) (defs₀ (F := F)) Variants.none () Set.univ fgt0 := fun t => by
  rw [bigSep_W0, bigSep_W0]
  exact sound_bodyF m c t

end Cert.KernelIdeal.Hand

end
-- ==== Proof.KI.LossBody.lean ====
/-
  The center-loss kernel's body at one grid point, by the point's kind.

  At a point the body reads eight labels, copies the eight rows of the center table they name into its row scratch
  (one copy per semaphore cell, all eight started before any is waited for, each waited for before the scratch is
  read), and adds to its running sum the eight clamped squared distances between the staged block of x and those rows.
  The first point zeroes the running sum before adding; the last also writes the sum times 1/2048 into the result's
  staging buffer. What the running sum and the result's buffer hold afterwards is stated as a function of the staged
  block, the label table, the center table and the running sum before.

  The one piece of content is the rows identity (`rows_eq`): a write through row j of the scratch changes row j and
  no other, so after the eight writes row r holds the r-th payload; that payload is row (label 8·i + r) of the center
  table, the label offsets being 8·i + r exactly (i < 256, so the 32-bit arithmetic does not wrap) and every label
  being below 100000. The rest is reading whole one-cell buffers back: a load of a whole buffer at offset zero reads
  its contents, and a store through the whole cell leaves its payload.
-/
import proofs.«413297_j40621800685615_1_alg».proof.Proof.KI.Common
import proofs.«413297_j40621800685615_1_alg».proof.Proof.Spec
import Idealize.ShloMosaic.Lib.Writes
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The eight rows of the center table that the labels of block `i` name, as one 8 × 128 block: row r is the
    center row of label 8·i + r. -/
def gathRows (lab : S2048.Idx → BitVec 32) (ctr : S100000x128.Idx → Elt F .f32) (i : grid1.Coords) : Vec F S8x128 .f32 :=
  fun j => ctr (ValueIdx.ix2 (Cert.Proof.Spec.rowOf (lab (ValueIdx.ix1 (⟨(8 * (i 0).val + (j 0).val) % 2048, Nat.mod_lt _ (by decide)⟩ : Fin 2048))))
    (⟨(j 1).val % 128, Nat.mod_lt _ (by decide)⟩ : Fin 128))

/-- The running sum after a point that found it at `a`: `a` plus the eight clamped squared distances of the
    block `x0` to the rows `g`. -/
def accStep (x0 g : Vec F S8x128 .f32) (a : Vec F S1x1 .f32) : Vec F S1x1 .f32 := k1_pay1 x0 g a
/-- After the first point: the same from zero. -/
def accFirst (x0 g : Vec F S8x128 .f32) : Vec F S1x1 .f32 := k1_pay1 x0 g k1_pay3
/-- What the last point stores into the result's staging buffer: the final sum times the word 2⁻¹¹. -/
def outLast (x0 g : Vec F S8x128 .f32) (a : Vec F S1x1 .f32) : Vec F S1x1 .f32 := k1_pay2 (k1_pay1 x0 g a)

section Generic
variable {sg : RefSig} {κ : Kind} {sp : Space} {e : EltTy} {Val : EltTy → Type}

/-- The 128-vector index matched with position (0, d) of a 1 × 128 row is d. -/
theorem unsqueeze_row (h : S128.numel = (⟨2, S1x128.size⟩ : Shape).numel) (d : Fin 128) :
    (Shape.reshapeEquiv h).symm (ValueIdx.ix2 (⟨0, Nat.one_pos⟩ : Fin 1) d) = ValueIdx.ix1 d := by
  rw [Equiv.symm_apply_eq]
  exact (Shape.reshapeEquiv_eq_of_rowMajor h (by
    rw [Shape.rowMajor_val_two, Shape.rowMajor_val_one]
    show 0 * 128 + d.val = d.val
    omega)).symm

/-- Reading an 8 × 128 buffer after one unmasked write through row j, squeezed to a 128-vector: row j reads the payload, every other row what was there. -/
theorem read_write_row (M : Memref sg κ sp S8x128 e) (j : ℕ) (inb : ∀ a, (![j, 0] : Fin 2 → ℕ) a + S1x128.size a ≤ S8x128.size a)
    (hr : ∀ a, (Rect.unit (s := S8x128) ![j, 0] S1x128.size inb).stride a = 1) (hq : (Rect.unit (s := S8x128) ![j, 0] S1x128.size inb).shape.Squeezes S128)
    (f : M.view.ty.Contents Val) (w : S128.Idx → Val e) (y : S8x128.Idx) :
    M.view.read Val (((M.slice (Rect.unit (s := S8x128) ![j, 0] S1x128.size inb) hr).squeeze S128 hq).view.write Val f w Finset.univ) y
      = if (y 0).val = j then w (ValueIdx.ix1 (y 1)) else M.view.read Val f y := by
  show M.view.read Val (((M.view.slice (Rect.unit (s := S8x128) ![j, 0] S1x128.size inb)).reshape S128 hq.numel_eq).write Val f w Finset.univ) y = _
  rw [View.write_reshape_univ, ← View.writes_singleton]
  by_cases h : (y 0).val = j
  · rw [if_pos h]
    refine (View.read_writes_cons_rows_of_mem M.view f inb _ [] y (ValueIdx.ix2 (⟨0, Nat.one_pos⟩ : Fin 1) (y 1)) rfl ?_ rfl).trans ?_
    · show (y 0).val = j + 0
      omega
    · exact congrArg w (unsqueeze_row _ (y 1))
  · rw [if_neg h]
    exact View.read_writes_cons_rows_of_not_mem (W := 1) M.view f inb _ [] y rfl rfl (by omega)
end Generic

section Words
variable (c : Dev nD)

/-- A label read: the one-word load of the label table at offset n reads entry n. -/
theorem labWord_eq (lab : HbBuf (F := F) c labM) {off : Fin 1 → ℕ} (n : ℕ) (hn : n < 2048) (ho : off = ![n])
    (inb : ∀ a, off a + S1.size a ≤ S2048.size a) (x : (Rect.unit (s := S2048) off S1.size inb).toLoadRect.shape.Idx) :
    View.readAt (Elt F) labM.view (Rect.unit (s := S2048) off S1.size inb).toLoadRect lab x = lab (ValueIdx.ix1 (⟨n, hn⟩ : Fin 2048)) := by
  subst ho
  show lab _ = lab _
  congr 1
  funext a
  match a with
  | ⟨0, _⟩ =>
    apply Fin.ext
    have hx : (x 0).val < 1 := (x 0).isLt
    show n + 1 * (x 0).val = n
    omega

/-- A source row: the center table read through row w, squeezed to a 128-vector, at d is entry (w, d). -/
theorem srcRow_apply (ctr : HbBuf (F := F) c ctrM) (w : BitVec 32) (hw : w.toNat < 100000) {off : Fin 2 → ℕ} (ho : off = ![w.toNat, 0])
    (p : ∀ a, off a + S1x128.size a ≤ S100000x128.size a)
    (hr : ∀ a, (Rect.unit (s := S100000x128) off S1x128.size p).stride a = 1) (hq : (Rect.unit (s := S100000x128) off S1x128.size p).shape.Squeezes S128)
    (d : Fin 128) :
    View.read (Elt F) ((ctrM.slice (Rect.unit (s := S100000x128) off S1x128.size p) hr).squeeze S128 hq).view ctr (ValueIdx.ix1 d)
      = ctr (ValueIdx.ix2 (⟨w.toNat, hw⟩ : Fin 100000) d) := by
  subst ho
  show ctr ((Rect.unit (s := S100000x128) ![w.toNat, 0] S1x128.size p).emb (Shape.reshapeEquiv hq.numel_eq (ValueIdx.ix1 d))) = ctr _
  have hd := unsqueeze_row hq.numel_eq d
  rw [Equiv.symm_apply_eq] at hd
  rw [← hd]
  congr 1
  funext a
  match a with
  | ⟨0, _⟩ => exact Fin.ext (by show w.toNat + 1 * 0 = w.toNat; omega)
  | ⟨1, _⟩ => exact Fin.ext (by show 0 + 1 * d.val = d.val; omega)
end Words

section Landed
variable {sg : RefSig} {κ : Kind} {sp : Space} {e : EltTy} {Val : EltTy → Type}

/-- Eight rows written in turn, each through its own row of the buffer: row r of the result reads the r-th payload. -/
theorem read_landed (M : Memref sg κ sp S8x128 e) (f : M.view.ty.Contents Val) (p0 p1 p2 p3 p4 p5 p6 p7 : S128.Idx → Val e)
    (i0 : ∀ a, (![0, 0] : Fin 2 → ℕ) a + S1x128.size a ≤ S8x128.size a) (r0 : ∀ a, (Rect.unit (s := S8x128) ![0, 0] S1x128.size i0).stride a = 1) (q0 : (Rect.unit (s := S8x128) ![0, 0] S1x128.size i0).shape.Squeezes S128)
    (i1 : ∀ a, (![1, 0] : Fin 2 → ℕ) a + S1x128.size a ≤ S8x128.size a) (r1 : ∀ a, (Rect.unit (s := S8x128) ![1, 0] S1x128.size i1).stride a = 1) (q1 : (Rect.unit (s := S8x128) ![1, 0] S1x128.size i1).shape.Squeezes S128)
    (i2 : ∀ a, (![2, 0] : Fin 2 → ℕ) a + S1x128.size a ≤ S8x128.size a) (r2 : ∀ a, (Rect.unit (s := S8x128) ![2, 0] S1x128.size i2).stride a = 1) (q2 : (Rect.unit (s := S8x128) ![2, 0] S1x128.size i2).shape.Squeezes S128)
    (i3 : ∀ a, (![3, 0] : Fin 2 → ℕ) a + S1x128.size a ≤ S8x128.size a) (r3 : ∀ a, (Rect.unit (s := S8x128) ![3, 0] S1x128.size i3).stride a = 1) (q3 : (Rect.unit (s := S8x128) ![3, 0] S1x128.size i3).shape.Squeezes S128)
    (i4 : ∀ a, (![4, 0] : Fin 2 → ℕ) a + S1x128.size a ≤ S8x128.size a) (r4 : ∀ a, (Rect.unit (s := S8x128) ![4, 0] S1x128.size i4).stride a = 1) (q4 : (Rect.unit (s := S8x128) ![4, 0] S1x128.size i4).shape.Squeezes S128)
    (i5 : ∀ a, (![5, 0] : Fin 2 → ℕ) a + S1x128.size a ≤ S8x128.size a) (r5 : ∀ a, (Rect.unit (s := S8x128) ![5, 0] S1x128.size i5).stride a = 1) (q5 : (Rect.unit (s := S8x128) ![5, 0] S1x128.size i5).shape.Squeezes S128)
    (i6 : ∀ a, (![6, 0] : Fin 2 → ℕ) a + S1x128.size a ≤ S8x128.size a) (r6 : ∀ a, (Rect.unit (s := S8x128) ![6, 0] S1x128.size i6).stride a = 1) (q6 : (Rect.unit (s := S8x128) ![6, 0] S1x128.size i6).shape.Squeezes S128)
    (i7 : ∀ a, (![7, 0] : Fin 2 → ℕ) a + S1x128.size a ≤ S8x128.size a) (r7 : ∀ a, (Rect.unit (s := S8x128) ![7, 0] S1x128.size i7).stride a = 1) (q7 : (Rect.unit (s := S8x128) ![7, 0] S1x128.size i7).shape.Squeezes S128)
    (r : Fin 8) (d : Fin 128) :
    M.view.read Val
      (View.write Val ((M.slice (Rect.unit (s := S8x128) ![7, 0] S1x128.size i7) r7).squeeze S128 q7).view
      (View.write Val ((M.slice (Rect.unit (s := S8x128) ![6, 0] S1x128.size i6) r6).squeeze S128 q6).view
      (View.write Val ((M.slice (Rect.unit (s := S8x128) ![5, 0] S1x128.size i5) r5).squeeze S128 q5).view
      (View.write Val ((M.slice (Rect.unit (s := S8x128) ![4, 0] S1x128.size i4) r4).squeeze S128 q4).view
      (View.write Val ((M.slice (Rect.unit (s := S8x128) ![3, 0] S1x128.size i3) r3).squeeze S128 q3).view
      (View.write Val ((M.slice (Rect.unit (s := S8x128) ![2, 0] S1x128.size i2) r2).squeeze S128 q2).view
      (View.write Val ((M.slice (Rect.unit (s := S8x128) ![1, 0] S1x128.size i1) r1).squeeze S128 q1).view
      (View.write Val ((M.slice (Rect.unit (s := S8x128) ![0, 0] S1x128.size i0) r0).squeeze S128 q0).view
      f p0 Finset.univ) p1 Finset.univ) p2 Finset.univ) p3 Finset.univ) p4 Finset.univ) p5 Finset.univ) p6 Finset.univ) p7 Finset.univ) (ValueIdx.ix2 r d)
    = (![p0, p1, p2, p3, p4, p5, p6, p7] : Fin 8 → S128.Idx → Val e) r (ValueIdx.ix1 d) := by
  rw [read_write_row, read_write_row, read_write_row, read_write_row, read_write_row, read_write_row, read_write_row, read_write_row]
  fin_cases r <;> rfl
end Landed

section Rows
variable (c : Dev nD) (i : grid1.Coords) (lab : HbBuf (F := F) c labM) (ctr : HbBuf (F := F) c ctrM)

/-- The label word the body reads at offset `off` of the label table. -/
abbrev labRd (off : Fin 1 → ℕ) (inb : ∀ a, off a + S1.size a ≤ S2048.size a) : Elt F .i32 :=
  View.readAt (Elt F) labM.view (Rect.unit (s := S2048) off S1.size inb).toLoadRect lab (Shape.Idx.first (numel1_S1.symm ▸ Nat.one_pos))

/-- What a copy of the center row that word `w` names moves: that row as a 128-vector. -/
abbrev rowPay (w : BitVec 32) (h : w.toNat < 100000) : S128.Idx → Elt F .f32 :=
  (ReadAs.same : ReadAs (Elt F) S128 .f32 S128 .f32).apply
    (View.read (Elt F) ((ctrM.slice (Rect.unit (s := S100000x128) ![w.toNat, 0] S1x128.size (chk_of h)) (fun _ => rfl)).squeeze S128 squeezes_S1x128_S128).view ctr)

variable (hl : ∀ k, (lab k).toNat < 100000)
include hl

/-- Every label word read is an entry of the table, so below 100000. -/
theorem labRd_lt (off : Fin 1 → ℕ) (inb : ∀ a, off a + S1.size a ≤ S2048.size a) : (labRd c lab off inb).toNat < 100000 := hl _

/-- Row r of the gathered block: the copy of the row named by label 8·i + r moves, at d, the center table's entry
    (that label, d). -/
theorem row_entry (r : Fin 8) (w : BitVec 32) (h : w.toNat < 100000) (hn : 8 * (i 0).val + r.val < 2048)
    (hw : w = lab (ValueIdx.ix1 (⟨8 * (i 0).val + r.val, hn⟩ : Fin 2048))) (d : Fin 128) :
    rowPay c ctr w h (ValueIdx.ix1 d) = gathRows lab ctr i (ValueIdx.ix2 r d) := by
  refine (srcRow_apply c ctr w h rfl (chk_of h) (fun _ => rfl) squeezes_S1x128_S128 d).trans ?_
  unfold gathRows
  have e1 : (⟨(8 * (i 0).val + ((ValueIdx.ix2 r d) 0).val) % 2048, Nat.mod_lt _ (by decide)⟩ : Fin 2048) = ⟨8 * (i 0).val + r.val, hn⟩ :=
    Fin.ext (Nat.mod_eq_of_lt hn)
  have e2 : (⟨((ValueIdx.ix2 r d) 1).val % 128, Nat.mod_lt _ (by decide)⟩ : Fin 128) = d := Fin.ext (Nat.mod_eq_of_lt d.isLt)
  rw [e1, e2, ← hw]
  congr 1
  funext a
  match a with
  | ⟨0, _⟩ => exact Fin.ext (Cert.Proof.Spec.rowOf_val h).symm
  | ⟨1, _⟩ => rfl

/-- THE ROWS IDENTITY. After the eight copies have landed in the row scratch, each in its own row, the load of the
    whole scratch reads the gathered block: row r is the center row of label 8·i + r, whatever the scratch held before. -/
theorem rows_eq (fs0 : BufTy.Contents (Elt F) rowsM.view.ty) :
    View.readAt (Elt F) rowsM.view (Rect.unit (s := S8x128) ![0, 0] S8x128.size inb_S8x128_S8x128_0_0).toLoadRect
      (View.write (Elt F) ((rowsM.slice (Rect.unit (s := S8x128) ![7, 0] S1x128.size inb_S8x128_S1x128_7_0) (fun _ => rfl)).squeeze S128 squeezes_S1x128_S128).view
      (View.write (Elt F) ((rowsM.slice (Rect.unit (s := S8x128) ![6, 0] S1x128.size inb_S8x128_S1x128_6_0) (fun _ => rfl)).squeeze S128 squeezes_S1x128_S128).view
      (View.write (Elt F) ((rowsM.slice (Rect.unit (s := S8x128) ![5, 0] S1x128.size inb_S8x128_S1x128_5_0) (fun _ => rfl)).squeeze S128 squeezes_S1x128_S128).view
      (View.write (Elt F) ((rowsM.slice (Rect.unit (s := S8x128) ![4, 0] S1x128.size inb_S8x128_S1x128_4_0) (fun _ => rfl)).squeeze S128 squeezes_S1x128_S128).view
      (View.write (Elt F) ((rowsM.slice (Rect.unit (s := S8x128) ![3, 0] S1x128.size inb_S8x128_S1x128_3_0) (fun _ => rfl)).squeeze S128 squeezes_S1x128_S128).view
      (View.write (Elt F) ((rowsM.slice (Rect.unit (s := S8x128) ![2, 0] S1x128.size inb_S8x128_S1x128_2_0) (fun _ => rfl)).squeeze S128 squeezes_S1x128_S128).view
      (View.write (Elt F) ((rowsM.slice (Rect.unit (s := S8x128) ![1, 0] S1x128.size inb_S8x128_S1x128_1_0) (fun _ => rfl)).squeeze S128 squeezes_S1x128_S128).view
      (View.write (Elt F) ((rowsM.slice (Rect.unit (s := S8x128) ![0, 0] S1x128.size inb_S8x128_S1x128_0_0) (fun _ => rfl)).squeeze S128 squeezes_S1x128_S128).view
      fs0 (rowPay c ctr (labRd c lab (k1_off1 i) (k1_off1_inb i)) (labRd_lt c lab hl _ _)) Finset.univ) (rowPay c ctr (labRd c lab (k1_off3 i) (k1_off3_inb i)) (labRd_lt c lab hl _ _)) Finset.univ) (rowPay c ctr (labRd c lab (k1_off5 i) (k1_off5_inb i)) (labRd_lt c lab hl _ _)) Finset.univ) (rowPay c ctr (labRd c lab (k1_off7 i) (k1_off7_inb i)) (labRd_lt c lab hl _ _)) Finset.univ) (rowPay c ctr (labRd c lab (k1_off9 i) (k1_off9_inb i)) (labRd_lt c lab hl _ _)) Finset.univ) (rowPay c ctr (labRd c lab (k1_off11 i) (k1_off11_inb i)) (labRd_lt c lab hl _ _)) Finset.univ) (rowPay c ctr (labRd c lab (k1_off13 i) (k1_off13_inb i)) (labRd_lt c lab hl _ _)) Finset.univ) (rowPay c ctr (labRd c lab (k1_off15 i) (k1_off15_inb i)) (labRd_lt c lab hl _ _)) Finset.univ)
      = gathRows lab ctr i := by
  have hz : (![0, 0] : Fin 2 → ℕ) = fun _ => 0 := by funext a; match a with | ⟨0, _⟩ => rfl | ⟨1, _⟩ => rfl
  have hi : (i 0).val < 256 := (i 0).isLt
  rw [View.readAt_eq_ld, View.ld_unit_zero (S := S8x128) hz]
  funext y
  obtain ⟨r, d, rfl⟩ : ∃ (r : Fin 8) (d : Fin 128), y = ValueIdx.ix2 r d := ⟨y 0, y 1, ValueIdx.eq_ix2 y⟩
  rw [read_landed]
  fin_cases r
  · show rowPay c ctr (labRd c lab (k1_off1 i) (k1_off1_inb i)) (labRd_lt c lab hl _ _) (ValueIdx.ix1 d) = gathRows lab ctr i (ValueIdx.ix2 (0 : Fin 8) d)
    exact row_entry c i lab ctr hl 0 (labRd c lab (k1_off1 i) (k1_off1_inb i)) (labRd_lt c lab hl _ _) (by show 8 * (i 0).val + 0 < 2048; omega)
      (labWord_eq c lab _ _ (k1_off1_eq i) _ _) d
  · show rowPay c ctr (labRd c lab (k1_off3 i) (k1_off3_inb i)) (labRd_lt c lab hl _ _) (ValueIdx.ix1 d) = gathRows lab ctr i (ValueIdx.ix2 (1 : Fin 8) d)
    exact row_entry c i lab ctr hl 1 (labRd c lab (k1_off3 i) (k1_off3_inb i)) (labRd_lt c lab hl _ _) (by show 8 * (i 0).val + 1 < 2048; omega)
      (labWord_eq c lab _ _ (k1_off3_eq i) _ _) d
  · show rowPay c ctr (labRd c lab (k1_off5 i) (k1_off5_inb i)) (labRd_lt c lab hl _ _) (ValueIdx.ix1 d) = gathRows lab ctr i (ValueIdx.ix2 (2 : Fin 8) d)
    exact row_entry c i lab ctr hl 2 (labRd c lab (k1_off5 i) (k1_off5_inb i)) (labRd_lt c lab hl _ _) (by show 8 * (i 0).val + 2 < 2048; omega)
      (labWord_eq c lab _ _ (k1_off5_eq i) _ _) d
  · show rowPay c ctr (labRd c lab (k1_off7 i) (k1_off7_inb i)) (labRd_lt c lab hl _ _) (ValueIdx.ix1 d) = gathRows lab ctr i (ValueIdx.ix2 (3 : Fin 8) d)
    exact row_entry c i lab ctr hl 3 (labRd c lab (k1_off7 i) (k1_off7_inb i)) (labRd_lt c lab hl _ _) (by show 8 * (i 0).val + 3 < 2048; omega)
      (labWord_eq c lab _ _ (k1_off7_eq i) _ _) d
  · show rowPay c ctr (labRd c lab (k1_off9 i) (k1_off9_inb i)) (labRd_lt c lab hl _ _) (ValueIdx.ix1 d) = gathRows lab ctr i (ValueIdx.ix2 (4 : Fin 8) d)
    exact row_entry c i lab ctr hl 4 (labRd c lab (k1_off9 i) (k1_off9_inb i)) (labRd_lt c lab hl _ _) (by show 8 * (i 0).val + 4 < 2048; omega)
      (labWord_eq c lab _ _ (k1_off9_eq i) _ _) d
  · show rowPay c ctr (labRd c lab (k1_off11 i) (k1_off11_inb i)) (labRd_lt c lab hl _ _) (ValueIdx.ix1 d) = gathRows lab ctr i (ValueIdx.ix2 (5 : Fin 8) d)
    exact row_entry c i lab ctr hl 5 (labRd c lab (k1_off11 i) (k1_off11_inb i)) (labRd_lt c lab hl _ _) (by show 8 * (i 0).val + 5 < 2048; omega)
      (labWord_eq c lab _ _ (k1_off11_eq i) _ _) d
  · show rowPay c ctr (labRd c lab (k1_off13 i) (k1_off13_inb i)) (labRd_lt c lab hl _ _) (ValueIdx.ix1 d) = gathRows lab ctr i (ValueIdx.ix2 (6 : Fin 8) d)
    exact row_entry c i lab ctr hl 6 (labRd c lab (k1_off13 i) (k1_off13_inb i)) (labRd_lt c lab hl _ _) (by show 8 * (i 0).val + 6 < 2048; omega)
      (labWord_eq c lab _ _ (k1_off13_eq i) _ _) d
  · show rowPay c ctr (labRd c lab (k1_off15 i) (k1_off15_inb i)) (labRd_lt c lab hl _ _) (ValueIdx.ix1 d) = gathRows lab ctr i (ValueIdx.ix2 (7 : Fin 8) d)
    exact row_entry c i lab ctr hl 7 (labRd c lab (k1_off15 i) (k1_off15_inb i)) (labRd_lt c lab hl _ _) (by show 8 * (i 0).val + 7 < 2048; omega)
      (labWord_eq c lab _ _ (k1_off15_eq i) _ _) d
end Rows

section Covers
omit [FloatOps F] in
/-- The running sum's one cell is all of its buffer: a store through it covers every index; -/
theorem cover_acc1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiled _ S1x1.size (by rfl) y
omit [FloatOps F] in
/-- so do two in turn. -/
theorem cover_acc2 (p q : Vec F S1x1 .f32) (y : S1x1.Idx) :
    ∃ pc ∈ ([⟨Rect.unit (s := S1x1) ![0, 0] S1x1.size inb_S1x1_S1x1_0_0, p⟩, ⟨Rect.unit (s := S1x1) ![0, 0] S1x1.size inb_S1x1_S1x1_0_0, q⟩] :
      List (View.Piece (Elt F) S1x1 .f32)), y ∈ pc.1.set :=
  View.cover_of_tiled _ S1x1.size (by rfl) y

theorem zero2 : (![0, 0] : Fin 2 → ℕ) = fun _ => 0 := by
  funext a; match a with | ⟨0, _⟩ => rfl | ⟨1, _⟩ => rfl
end Covers

section Runs

variable (c : Dev nD) (i : grid1.Coords) (arg2 : Memref sig .tc .vmem S8x128 .f32) (harg2 : arg2.IsWhole)
  (arg4 : Memref sig .tc .vmem S1x1 .f32) (harg4 : arg4.IsWhole)
  (x0 : Vec F S8x128 .f32) (lab : HbBuf (F := F) c labM) (ctr : HbBuf (F := F) c ctrM)
  (hl : ∀ k, (lab k).toNat < 100000)
include hl

local notation "BODY" => cc1__center_loss_kernel i labM (Memref.isWhole_whole _) arg2 harg2 ctrM (Memref.isWhole_whole _) arg4 harg4
  rowsM (Memref.isWhole_whole _) cc1_scratch1 accM (Memref.isWhole_whole _)

set_option sl_exec.dmaWindow true in
set_option sl_exec.dmaWindowSet true in
set_option maxHeartbeats 4000000 in
/-- The first point: the running sum, whatever it held, ends at `accFirst`; the result's buffer (`O`) is untouched. -/
theorem run_first (hF : IsFirst i) (hL : ¬ IsLast i) (O : sProp 𝕄) (W : Waits sig Unit) (K : PUnit → sProp 𝕄) :
    iprop(owns (c : Thread nD τ) arg2 fullShare x0 ∗ O ∗ (∃ d, owns (c : Thread nD τ) rowsM fullShare d) ∗ (∃ a, owns (c : Thread nD τ) accM fullShare a)
        ∗ sems0 c ∗ toks c ctr ∗ hbPt c labM lab ∗ owes (c : Thread nD τ) 0 W
        ∗ (iprop(owns (c : Thread nD τ) arg2 fullShare x0 ∗ O ∗ (∃ d, owns (c : Thread nD τ) rowsM fullShare d)
            ∗ owns (c : Thread nD τ) accM fullShare (accFirst x0 (gathRows lab ctr i))
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, HO, ⟨%ds0, %fs0, -, HS0⟩, ⟨%a', %fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [HO]; · iexact HO
  isplitl [HS0]; · iexists _; iexists _; isplitr; swap; (· iexact HS0); ipureintro; rfl
  isplitl [Ha]
  · iexists _; isplitr; swap; (· iexact Ha); ipureintro
    have e2 : run_first.sl.v149 c i lab ctr hl fs0 = gathRows lab ctr i := rows_eq c i lab ctr hl fs0
    rw [e2]
    sl_unfold_run_names
    rw [View.read_writes_eq_canon _ _ _ (cover_acc2 _ _), View.canon_cons_unit_zero (S := S1x1) zero2, View.readCov_unit_zero (S := S1x1) _ zero2,
      View.readAt_eq_ld, harg2.read_unread, View.ld_unit_zero (S := S8x128) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

set_option sl_exec.dmaWindow true in
set_option sl_exec.dmaWindowSet true in
set_option maxHeartbeats 4000000 in
/-- A middle point: the running sum at `a` ends at `accStep … a`; the result's buffer (`O`) is untouched. -/
theorem run_mid (hF : ¬ IsFirst i) (hL : ¬ IsLast i) (a : Vec F S1x1 .f32) (O : sProp 𝕄) (W : Waits sig Unit) (K : PUnit → sProp 𝕄) :
    iprop(owns (c : Thread nD τ) arg2 fullShare x0 ∗ O ∗ (∃ d, owns (c : Thread nD τ) rowsM fullShare d) ∗ owns (c : Thread nD τ) accM fullShare a
        ∗ sems0 c ∗ toks c ctr ∗ hbPt c labM lab ∗ owes (c : Thread nD τ) 0 W
        ∗ (iprop(owns (c : Thread nD τ) arg2 fullShare x0 ∗ O ∗ (∃ d, owns (c : Thread nD τ) rowsM fullShare d)
            ∗ owns (c : Thread nD τ) accM fullShare (accStep x0 (gathRows lab ctr i) a)
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, HO, ⟨%ds0, %fs0, -, HS0⟩, ⟨%fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [HO]; · iexact HO
  isplitl [HS0]; · iexists _; iexists _; isplitr; swap; (· iexact HS0); ipureintro; rfl
  isplitl [Ha]
  · iexists _; isplitr; swap; (· iexact Ha); ipureintro
    have e2 : run_mid.sl.v149 c i lab ctr hl fs0 = gathRows lab ctr i := rows_eq c i lab ctr hl fs0
    rw [View.read_writes_eq_canon _ _ _ (cover_acc1 _), View.canon_unit_zero (S := S1x1) zero2, e2]
    sl_unfold_run_names
    rw [View.readAt_eq_ld, View.readAt_eq_ld, harg2.read_unread, hfa, View.ld_unit_zero (S := S8x128) zero2, View.ld_unit_zero (S := S1x1) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

set_option sl_exec.dmaWindow true in
set_option sl_exec.dmaWindowSet true in
set_option maxHeartbeats 4000000 in
/-- The last point: the running sum at `a` ends at `accStep … a` and the result's staging buffer at `outLast … a`. -/
theorem run_last (hF : ¬ IsFirst i) (hL : IsLast i) (a : Vec F S1x1 .f32) (W : Waits sig Unit) (K : PUnit → sProp 𝕄) :
    iprop(owns (c : Thread nD τ) arg2 fullShare x0 ∗ (∃ d, owns (c : Thread nD τ) arg4 fullShare d) ∗ (∃ d, owns (c : Thread nD τ) rowsM fullShare d)
        ∗ owns (c : Thread nD τ) accM fullShare a
        ∗ sems0 c ∗ toks c ctr ∗ hbPt c labM lab ∗ owes (c : Thread nD τ) 0 W
        ∗ (iprop(owns (c : Thread nD τ) arg2 fullShare x0 ∗ owns (c : Thread nD τ) arg4 fullShare (outLast x0 (gathRows lab ctr i) a)
            ∗ (∃ d, owns (c : Thread nD τ) rowsM fullShare d)
            ∗ owns (c : Thread nD τ) accM fullShare (accStep x0 (gathRows lab ctr i) a)
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, ⟨%d4, %f4, %hf4, H4⟩, ⟨%ds0, %fs0, -, HS0⟩, ⟨%fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [H4]
  · iexists _; isplitr; swap; (· iexact H4); ipureintro
    have e2 : run_last.sl.v149 c i lab ctr hl fs0 = gathRows lab ctr i := rows_eq c i lab ctr hl fs0
    unfold run_last.sl.v168 run_last.sl.Ha_1
    rw [e2, View.read_writes_eq_canon _ _ _ (cover_acc1 _), View.canon_unit_zero (S := S1x1) zero2, View.readCov_unit_zero (S := S1x1) _ zero2]
    sl_unfold_run_names
    rw [View.readAt_eq_ld, View.readAt_eq_ld, harg2.read_unread, hfa, View.ld_unit_zero (S := S8x128) zero2, View.ld_unit_zero (S := S1x1) zero2]
    rfl
  isplitl [HS0]; · iexists _; iexists _; isplitr; swap; (· iexact HS0); ipureintro; rfl
  isplitl [Ha]
  · iexists _; isplitr; swap; (· iexact Ha); ipureintro
    have e2 : run_last.sl.v149 c i lab ctr hl fs0 = gathRows lab ctr i := rows_eq c i lab ctr hl fs0
    unfold run_last.sl.Ha_1
    rw [e2, View.read_writes_eq_canon _ _ _ (cover_acc1 _), View.canon_unit_zero (S := S1x1) zero2]
    sl_unfold_run_names
    rw [View.readAt_eq_ld, View.readAt_eq_ld, harg2.read_unread, hfa, View.ld_unit_zero (S := S8x128) zero2, View.ld_unit_zero (S := S1x1) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

end Runs

end Cert.KernelIdeal.Hand

end
-- ==== Proof.KI.LossDat.lean ====
/-
  The center-loss pipeline's proof data. Its 256 grid points each take eight samples; the kernel carries a running sum
  of clamped squared distances in a scratch cell across the points, so the invariant before point k names that cell's
  contents: anything before point 0 (which zeroes it), else the sum over the points below k. The result's window is
  idle at every point but the last, where the body stores the sum times 1/2048 and the pipeline writes it back.
  Beside the running sum the invariant carries what the body uses and hands back unchanged: its row scratch, its eight
  semaphore cells at zero, the center table (left in HBM, read by the body's own copies) and the label table.
-/
import proofs.«413297_j40621800685615_1_alg».proof.Proof.KI.LossBody
import proofs.«413297_j40621800685615_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UC ℕ

variable (m : (ℓ : Loc nD τ sig) → Buf (Elt F) ℓ)

/-- The label table and the center table as launched on core `c`. -/
abbrev labOf (c : Dev nD) : HbBuf (F := F) c labM := m ((c : Thread nD τ).loc main_arg5)
abbrev ctrOf (c : Dev nD) : HbBuf (F := F) c ctrM := m ((c : Thread nD τ).loc main_arg1)

/-- The prefetched table's contents the pipeline is pinned at: the labels as launched (the mesh has one device). -/
def adm1 : (pcfg1 (F := F)).Adm :=
  ⟨fun | 0 => m (((0 : Dev nD) : Thread nD τ).loc main_arg5) | ⟨_ + 1, h⟩ => absurd h (Nat.not_lt.2 (Nat.le_add_left _ _)), trivial⟩

/-- The center-loss pipeline at those contents. -/
abbrev cfgL : Pipeline.Cfg sig Λ₀ := cfg1 (adm1 m)

/-- The block of x staged at point `t` (rows 8·t … 8·t + 7), and the center rows its eight labels name. -/
def xb1 (c : Dev nD) (t : Fin (cfgL m).N) : Vec F S8x128 .f32 :=
  (((cfgL m).win 0).blk t).view.read (Elt F) (m ((c : Thread nD τ).loc main_arg0))
def g1 (c : Dev nD) (t : Fin (cfgL m).N) : Vec F S8x128 .f32 :=
  gathRows (labOf m c) (ctrOf m c) ((cfgL m).grid.coords t)

/-- The running sum after point `k`: from zero at point 0, then one `accStep` per point. -/
def accA (c : Dev nD) : (k : ℕ) → k < (cfgL m).N → Vec F S1x1 .f32
  | 0, hk => accFirst (xb1 m c ⟨0, hk⟩) (g1 m c ⟨0, hk⟩)
  | k + 1, hk => accStep (xb1 m c ⟨k + 1, hk⟩) (g1 m c ⟨k + 1, hk⟩) (accA c k (Nat.lt_of_succ_lt hk))

/-- The running sum's cell before point `k`: anything before point 0, else what the point before left. -/
def accPart (c : Dev nD) (k : Fin ((cfgL m).N + 1)) : sProp 𝕄 :=
  if h : k.val = 0 then iprop(∃ a, owns (c : Thread nD τ) accM fullShare a)
  else iprop(owns (c : Thread nD τ) accM fullShare (accA m c (k.val - 1) (by have := k.isLt; omega)))

/-- The scoped buffers of the core that are neither this pipeline's staging buffers nor its two scratch buffers:
    the classifier pipeline's nine staging buffers, each at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before point `k`. -/
def ΦL (c : Dev nD) (k : Fin ((cfgL m).N + 1)) : sProp 𝕄 :=
  iprop(accPart m c k ∗ (∃ d, owns (c : Thread nD τ) rowsM fullShare d) ∗ sems0 c
    ∗ hbPt c ctrM (ctrOf m c) ∗ hbPt c labM (labOf m c) ∗ otherStaging c)

/-- What the last point stores into the result's staging buffer; at the other points the window is idle and this is
    not read. -/
def outAt (c : Dev nD) (t : Fin (cfgL m).N) : Vec F S1x1 .f32 :=
  if h : t.val = 0 then k1_pay3
  else outLast (xb1 m c t) (g1 m c t) (accA m c (t.val - 1) (by have := t.isLt; omega))

/-- The center-loss pipeline's proof data on core `c`. -/
def dat1 (c : Dev nD) : Dat τ (Elt F) Unit ℕ UC ℕ (cfgL m) c where
  A w := m ((c : Thread nD τ).loc (Pipeline.arrRef spec1 w))
  after w t := match w with
    | ⟨0, _⟩ => xb1 m c t
    | ⟨1, _⟩ => outAt m c t
  Φ k := ΦL m c k
  q _ := fullShare
  owed _ := 0

theorem dat1_A (c : Dev nD) (w : Fin (cfgL m).W) : (dat1 m c).A w = m ((c : Thread nD τ).loc (Pipeline.arrRef spec1 w)) := by
  dsimp only [dat1]

/-- Every label of the launch memory is below 100000: the hypothesis the body's sixteen label reads need. -/
abbrev LabOk : Prop := ∀ (c : Dev nD) (k : S2048.Idx), (labOf m c k).toNat < 100000

/-! ## The kinds of point, and the schedule, over the 256 points -/

theorem isFirstL_iff : ∀ t : Fin grid1.N, IsFirst (grid1.coords t) ↔ t.val = 0 :=
  (by decide +kernel : ∀ t : Fin grid1.N, (Scalar.cmpi .ne (Scalar.extui (Scalar.cmpi .eq (BitVec.ofNat 32 ((grid1.coords t) 0).val) 0#32)) 0#32 = 1#1) ↔ t.val = 0)
theorem isLastL_iff : ∀ t : Fin grid1.N, IsLast (grid1.coords t) ↔ t.val = 255 :=
  (by decide +kernel : ∀ t : Fin grid1.N, k1_cond2 (grid1.coords t) = 1#1 ↔ t.val = 255)

section Sched
variable (a : (pcfg1 (F := F)).Adm)

/-- The block of x moves at every point: it is fetched at every point. -/
theorem fetchL_0 : ∀ t : Fin (cfg1 a).N, ((cfg1 a).win 0).fetch t = true :=
  (by decide +kernel : ∀ t : Fin grid1.N,
    (!false && (decide (t.val = 0) || decide (∃ h : 0 < t.val, cc1_transform_0 (grid1.coords t) ≠ cc1_transform_0 (grid1.coords ⟨t.val - 1, by omega⟩)))) = true)

/-- The result's one block never moves: it is written back at the last point only. -/
theorem flushL_1 : ∀ t : Fin (cfg1 a).N, ((cfg1 a).win 1).flush t = true ↔ t.val = 255 :=
  (by decide +kernel : ∀ t : Fin grid1.N,
    (true && (decide (t.val + 1 = grid1.N) || decide (∃ h : t.val + 1 < grid1.N, cc1_transform_2 (grid1.coords ⟨t.val + 1, h⟩) ≠ cc1_transform_2 (grid1.coords t)))) = true ↔ t.val = 255)

end Sched

/-! ## The center table as eight read shares and a remainder -/

/-- What of the center table the eight copies do not borrow: the remainder after twenty read shares are split off,
    and shares 0 to 11. It rides along a point untouched. -/
def ctrRest (c : Dev nD) (f : HbBuf (F := F) c ctrM) : sProp 𝕄 :=
  iprop((ctrM.view.loc (c : Thread nD τ) ↦{Transfers.shareDrop fullShare 20} f)
    ∗ tokPt c 0 f ∗ tokPt c 1 f ∗ tokPt c 2 f ∗ tokPt c 3 f ∗ tokPt c 4 f ∗ tokPt c 5 f ∗ tokPt c 6 f ∗ tokPt c 7 f ∗ tokPt c 8 f ∗ tokPt c 9 f ∗ tokPt c 10 f ∗ tokPt c 11 f)

/-- The twenty read shares one by one. -/
theorem ctrTok_chain (c : Dev nD) (f : HbBuf (F := F) c ctrM) :
    BI.bigSep (Finset.range 20) (fun i => (ctrM.view.loc (c : Thread nD τ) ↦{Transfers.shareTokN fullShare i} f : sProp 𝕄))
      = iprop(tokPt c 0 f ∗ tokPt c 1 f ∗ tokPt c 2 f ∗ tokPt c 3 f ∗ tokPt c 4 f ∗ tokPt c 5 f ∗ tokPt c 6 f ∗ tokPt c 7 f ∗ tokPt c 8 f ∗ tokPt c 9 f ∗ tokPt c 10 f ∗ tokPt c 11 f ∗ tokPt c 12 f ∗ tokPt c 13 f ∗ tokPt c 14 f ∗ tokPt c 15 f ∗ tokPt c 16 f ∗ tokPt c 17 f ∗ tokPt c 18 f ∗ tokPt c 19 f) :=
  BI.bigSep_eq_bigSepL_of_eq [0, 1, 2, 3, 4, 5, 6, 7, 8, 9, 10, 11, 12, 13, 14, 15, 16, 17, 18, 19] (by decide) (by decide) _

/-- The table held whole splits into the remainder and the eight shares, -/
theorem ctrL_split (c : Dev nD) (f : HbBuf (F := F) c ctrM) : hbPt c ctrM f ⊢ iprop(ctrRest c f ∗ toks c f) := by
  refine (Transfers.pointsTo_toks_range fullShare 20).1.trans ?_
  rw [ctrTok_chain]; unfold ctrRest toks
  iintro ⟨Hd, H0, H1, H2, H3, H4, H5, H6, H7, H8, H9, H10, H11, H12, H13, H14, H15, H16, H17, H18, H19⟩
  isplitl [Hd H0 H1 H2 H3 H4 H5 H6 H7 H8 H9 H10 H11]
  · iframe
  · iframe

/-- and these join back into the table held whole. -/
theorem ctrL_join (c : Dev nD) (f : HbBuf (F := F) c ctrM) : iprop(ctrRest c f ∗ toks c f) ⊢ hbPt c ctrM f := by
  refine BIBase.Entails.trans ?_ (Transfers.pointsTo_toks_range fullShare 20).2
  rw [ctrTok_chain]; unfold ctrRest toks
  iintro ⟨⟨Hd, H0, H1, H2, H3, H4, H5, H6, H7, H8, H9, H10, H11⟩, H12, H13, H14, H15, H16, H17, H18, H19⟩
  iframe

/-! ## The windows at a point -/

/-- The result's window is idle except at the last point, and written back exactly there; x's window is never idle. -/
theorem idleL_of_last (t : Fin (cfgL m).N) (h : IsLast (grid1.coords t)) : (cfgL m).idle (1 : Fin 2) ((cfgL m).grid.coords t) = false := by
  show (!(k1_cond2 (grid1.coords t) == 1#1)) = false; rw [show (k1_cond2 (grid1.coords t) == 1#1) = true from beq_iff_eq.mpr h]; rfl
theorem idleL_of_not_last (t : Fin (cfgL m).N) (h : ¬ IsLast (grid1.coords t)) : (cfgL m).idle (1 : Fin 2) ((cfgL m).grid.coords t) = true := by
  show (!(k1_cond2 (grid1.coords t) == 1#1)) = true; rw [show (k1_cond2 (grid1.coords t) == 1#1) = false from beq_eq_false_iff_ne.mpr h]; rfl
theorem idleL_0 (t : Fin (cfgL m).N) : (cfgL m).idle (0 : Fin 2) ((cfgL m).grid.coords t) = false := rfl
theorem flushL_of_last (t : Fin (cfgL m).N) (h : IsLast (grid1.coords t)) : ((cfgL m).win (1 : Fin 2)).flush t = true :=
  (flushL_1 (adm1 m) t).mpr ((isLastL_iff t).mp h)
theorem flushL_of_not_last (t : Fin (cfgL m).N) (h : ¬ IsLast (grid1.coords t)) : ((cfgL m).win (1 : Fin 2)).flush t = false :=
  Bool.eq_false_iff.mpr fun hf => h ((isLastL_iff t).mpr ((flushL_1 (adm1 m) t).mp hf))

/-- What x's staging buffer holds at a point (its block, just fetched) and what the body leaves in each buffer. -/
theorem beforeL_0 (c : Dev nD) (t : Fin (cfgL m).N) (d) : (dat1 m c).before (0 : Fin 2) t d = xb1 m c t := by
  rw [(dat1 m c).before_fetched (0 : Fin 2) t (fetchL_0 (adm1 m) t)]; unfold Dat.fetched Dat.blockOf; dsimp only [dat1]; rfl
theorem afterL_0 (c : Dev nD) (t : Fin (cfgL m).N) : (dat1 m c).after (0 : Fin 2) t = xb1 m c t := by dsimp only [dat1]
theorem afterL_1 (c : Dev nD) (t : Fin (cfgL m).N) : (dat1 m c).after (1 : Fin 2) t = outAt m c t := by dsimp only [dat1]

/-! ## The running sum, point by point -/

theorem accA_first (c : Dev nD) (t : Fin (cfgL m).N) (h : t.val = 0) : accA m c t.val t.isLt = accFirst (xb1 m c t) (g1 m c t) := by
  obtain ⟨k, hk⟩ := t
  cases k with
  | zero => rfl
  | succ k => exact absurd h (Nat.succ_ne_zero k)

theorem accA_step (c : Dev nD) (t : Fin (cfgL m).N) (h : t.val ≠ 0) (hp : t.val - 1 < (cfgL m).N) :
    accA m c t.val t.isLt = accStep (xb1 m c t) (g1 m c t) (accA m c (t.val - 1) hp) := by
  obtain ⟨k, hk⟩ := t
  cases k with
  | zero => exact absurd rfl h
  | succ k => rfl

/-- The running sum before a point that is not the first: what the point before left. -/
abbrev accB (c : Dev nD) (t : Fin (cfgL m).N) : Vec F S1x1 .f32 :=
  accA m c (t.val - 1) (by have := t.isLt; omega)

/-! ## The invariant before and after a point -/

/-- What the invariant holds beside the running sum. -/
abbrev restL (c : Dev nD) : sProp 𝕄 :=
  iprop((∃ d, owns (c : Thread nD τ) rowsM fullShare d) ∗ sems0 c ∗ hbPt c ctrM (ctrOf m c) ∗ hbPt c labM (labOf m c) ∗ otherStaging c)

theorem ΦL_pre_first (c : Dev nD) (t : Fin (cfgL m).N) (h : t.val = 0) :
    (dat1 m c).Φ t.castSucc = iprop((∃ a, owns (c : Thread nD τ) accM fullShare a) ∗ restL m c) := by
  show ΦL m c _ = _; unfold ΦL accPart; rw [dif_pos (by exact h)]
theorem ΦL_pre_other (c : Dev nD) (t : Fin (cfgL m).N) (h : t.val ≠ 0) :
    (dat1 m c).Φ t.castSucc = iprop(owns (c : Thread nD τ) accM fullShare (accB m c t) ∗ restL m c) := by
  show ΦL m c _ = _; unfold ΦL accPart; rw [dif_neg (by exact h)]; rfl
theorem ΦL_post (c : Dev nD) (t : Fin (cfgL m).N) :
    (dat1 m c).Φ t.succ = iprop(owns (c : Thread nD τ) accM fullShare (accA m c t.val t.isLt) ∗ restL m c) := by
  show ΦL m c _ = _; unfold ΦL accPart; rw [dif_neg (by show ¬ (t.val + 1 = 0); omega)]; rfl

theorem owesAtL_intro (c : Dev nD) (t : Fin ((cfgL m).N + 1)) (W' : Waits sig Unit) :
    owes (c : Thread nD τ) 0 W' ⊢ ((dat1 m c).owesAt () t : sProp 𝕄) := by
  unfold Dat.owesAt Pipeline.owesWithin
  rw [show (dat1 m c).owed t = 0 from rfl]
  iintro HO; iexists W'; isplitr; · ipureintro; exact fun _ _ => Or.inl trivial
  iexact HO

/-! ## The body obligation -/

/-- The body obligation at every point, under labels in range: by the point's kind, the run of that kind between the
    invariant's two forms, the center table lent to it as eight read shares and joined back after; the result's staging
    buffer passed through at a point that leaves it alone, at what the body stored at the last point. -/
theorem body_obligation1 (hlab : LabOk m) (c : Dev nD) :
    BodyObligation (dat1 (F := F) m c) (defs₀ (F := F)) Variants.none () Set.univ := fun t => by
  rw [bigSep_W1, bigSep_W1]
  unfold Dat.owesAt Pipeline.owesWithin
  rw [show (dat1 m c).owed t.castSucc = 0 from rfl]
  have hN : (cfgL m).N = 256 := N_1
  by_cases hL : IsLast (grid1.coords t)
  · -- the last point: not the first
    have h255 : t.val = 255 := (isLastL_iff t).mp hL
    have hF : ¬ IsFirst (grid1.coords t) := fun h => by have := (isFirstL_iff t).mp h; omega
    rw [idleL_of_last m t hL]
    simp only [idleL_0, beforeL_0, afterL_0, afterL_1]
    rw [ΦL_pre_other m c t (by omega), ΦL_post m c t, accA_step m c t (by omega) (by have := t.isLt; omega),
      show outAt m c t = outLast (xb1 m c t) (g1 m c t) (accB m c t) from dif_neg (by omega)]
    iintro ⟨⟨Ha, Hrows, Hsems, Hctr, Hlab, Hoth⟩, ⟨%Wt, %hW, HO⟩, ⟨%d0, H0⟩, ⟨%d1, H1⟩⟩
    ihave Hc := (ctrL_split c (ctrOf m c)) $$ Hctr
    icases Hc with ⟨Hrest, Htoks⟩
    iapply (run_last c (grid1.coords t) (spec1_0.stage ((cfgL m).slots t 0)) (hstage1_0 (((cfgL m).slots t 0).cast nbuf1_0))
      (spec1_1.stage ((cfgL m).slots t 1)) (hstage1_1 (((cfgL m).slots t 1).cast nbuf1_1)) (xb1 m c t) (labOf m c) (ctrOf m c) (hlab c) hF hL (accB m c t) Wt _)
    isplitl [H0]; · iexact H0
    isplitl [H1]; · iexists _; iexact H1
    isplitl [Hrows]; · iexact Hrows
    isplitl [Ha]; · iexact Ha
    isplitl [Hsems]; · iexact Hsems
    isplitl [Htoks]; · iexact Htoks
    isplitl [Hlab]; · iexact Hlab
    isplitl [HO]; · iexact HO
    iintro ⟨H0, H1, Hrows, Ha, Hsems, Htoks, Hlab, ⟨%W', HO⟩⟩
    ihave Hctr := (ctrL_join c (ctrOf m c)) $$ [Hrest Htoks]
    · isplitl [Hrest]; · iexact Hrest
      iexact Htoks
    isplitl [Ha Hrows Hsems Hctr Hlab Hoth]
    · isplitl [Ha]; · iexact Ha
      isplitl [Hrows]; · iexact Hrows
      isplitl [Hsems]; · iexact Hsems
      isplitl [Hctr]; · iexact Hctr
      isplitl [Hlab]; · iexact Hlab
      iexact Hoth
    isplitl [HO]; · iapply (owesAtL_intro m c); iexact HO
    isplitl [H0]; · iexact H0
    iexact H1
  · rw [idleL_of_not_last m t hL, flushL_of_not_last m t hL]
    simp only [idleL_0, beforeL_0, afterL_0]
    have hn255 : t.val ≠ 255 := fun h => hL ((isLastL_iff t).mpr h)
    by_cases hF : IsFirst (grid1.coords t)
    · -- the first point
      have h0 : t.val = 0 := (isFirstL_iff t).mp hF
      rw [ΦL_pre_first m c t h0, ΦL_post m c t, accA_first m c t h0]
      iintro ⟨⟨Ha, Hrows, Hsems, Hctr, Hlab, Hoth⟩, ⟨%Wt, %hW, HO⟩, ⟨%d0, H0⟩, H1⟩
      ihave Hc := (ctrL_split c (ctrOf m c)) $$ Hctr
      icases Hc with ⟨Hrest, Htoks⟩
      iapply (run_first c (grid1.coords t) (spec1_0.stage ((cfgL m).slots t 0)) (hstage1_0 (((cfgL m).slots t 0).cast nbuf1_0))
        (spec1_1.stage ((cfgL m).slots t 1)) (hstage1_1 (((cfgL m).slots t 1).cast nbuf1_1)) (xb1 m c t) (labOf m c) (ctrOf m c) (hlab c) hF hL _ Wt _)
      isplitl [H0]; · iexact H0
      isplitl [H1]; · iexact H1
      isplitl [Hrows]; · iexact Hrows
      isplitl [Ha]; · iexact Ha
      isplitl [Hsems]; · iexact Hsems
      isplitl [Htoks]; · iexact Htoks
      isplitl [Hlab]; · iexact Hlab
      isplitl [HO]; · iexact HO
      iintro ⟨H0, H1, Hrows, Ha, Hsems, Htoks, Hlab, ⟨%W', HO⟩⟩
      ihave Hctr := (ctrL_join c (ctrOf m c)) $$ [Hrest Htoks]
      · isplitl [Hrest]; · iexact Hrest
        iexact Htoks
      isplitl [Ha Hrows Hsems Hctr Hlab Hoth]
      · isplitl [Ha]; · iexact Ha
        isplitl [Hrows]; · iexact Hrows
        isplitl [Hsems]; · iexact Hsems
        isplitl [Hctr]; · iexact Hctr
        isplitl [Hlab]; · iexact Hlab
        iexact Hoth
      isplitl [HO]; · iapply (owesAtL_intro m c); iexact HO
      isplitl [H0]; · iexact H0
      iexact H1
    · -- a middle point
      have h0 : t.val ≠ 0 := fun h => hF ((isFirstL_iff t).mpr h)
      rw [ΦL_pre_other m c t h0, ΦL_post m c t, accA_step m c t h0 (by have := t.isLt; omega)]
      iintro ⟨⟨Ha, Hrows, Hsems, Hctr, Hlab, Hoth⟩, ⟨%Wt, %hW, HO⟩, ⟨%d0, H0⟩, H1⟩
      ihave Hc := (ctrL_split c (ctrOf m c)) $$ Hctr
      icases Hc with ⟨Hrest, Htoks⟩
      iapply (run_mid c (grid1.coords t) (spec1_0.stage ((cfgL m).slots t 0)) (hstage1_0 (((cfgL m).slots t 0).cast nbuf1_0))
        (spec1_1.stage ((cfgL m).slots t 1)) (hstage1_1 (((cfgL m).slots t 1).cast nbuf1_1)) (xb1 m c t) (labOf m c) (ctrOf m c) (hlab c) hF hL (accB m c t) _ Wt _)
      isplitl [H0]; · iexact H0
      isplitl [H1]; · iexact H1
      isplitl [Hrows]; · iexact Hrows
      isplitl [Ha]; · iexact Ha
      isplitl [Hsems]; · iexact Hsems
      isplitl [Htoks]; · iexact Htoks
      isplitl [Hlab]; · iexact Hlab
      isplitl [HO]; · iexact HO
      iintro ⟨H0, H1, Hrows, Ha, Hsems, Htoks, Hlab, ⟨%W', HO⟩⟩
      ihave Hctr := (ctrL_join c (ctrOf m c)) $$ [Hrest Htoks]
      · isplitl [Hrest]; · iexact Hrest
        iexact Htoks
      isplitl [Ha Hrows Hsems Hctr Hlab Hoth]
      · isplitl [Ha]; · iexact Ha
        isplitl [Hrows]; · iexact Hrows
        isplitl [Hsems]; · iexact Hsems
        isplitl [Hctr]; · iexact Hctr
        isplitl [Hlab]; · iexact Hlab
        iexact Hoth
      isplitl [HO]; · iapply (owesAtL_intro m c); iexact HO
      isplitl [H0]; · iexact H0
      iexact H1

/-- What enters the invariant at the first point beside the tables and the scoped buffers: the eight cells at zero
    and the center table; -/
abbrev XL (c : Dev nD) : sProp 𝕄 := iprop(sems0 c ∗ hbPt c ctrM (ctrOf m c))
/-- and what the invariant gives back at the end beside the cells and the scoped buffers: the center table and the
    label table. -/
abbrev YL (c : Dev nD) : sProp 𝕄 := iprop(hbPt c ctrM (ctrOf m c) ∗ hbPt c labM (labOf m c))

/-! ## Into the invariant at the first point, and out of it after the last -/

theorem accPart_zero (c : Dev nD) : accPart m c 0 = iprop(∃ a, owns (c : Thread nD τ) accM fullShare a) := by
  unfold accPart; exact dif_pos rfl

omit m in
/-- A whole buffer owned at some contents is its points-to at some contents. -/
theorem wholeL_forget (c : Dev nD) (b : Ref sig .tc) (d : b.ty.Contents (Elt F)) :
    (owns (c : Thread nD τ) (Memref.whole b) fullShare d : sProp 𝕄)
      ⊢ iprop(∃ f : Buf (Elt F) ((c : Thread nD τ).loc b), ((c : Thread nD τ).loc b) ↦{fullShare} f) := by
  rw [owns_whole]; iintro H; iexists _; iexact H

/-- Whatever the point, the running sum's cell is held whole at some contents. -/
theorem accPart_forget (c : Dev nD) (k : Fin ((cfgL m).N + 1)) :
    accPart m c k ⊢ iprop(∃ f : Buf (Elt F) ((c : Thread nD τ).loc cc1_scratch2), ((c : Thread nD τ).loc cc1_scratch2) ↦{fullShare} f) := by
  unfold accPart; split
  · iintro ⟨%a, H⟩; iapply (wholeL_forget c cc1_scratch2 a); iexact H
  · exact wholeL_forget c cc1_scratch2 _

/-- The one prefetched table, listed. -/
theorem prefHeldL_eq (c : Dev nD) (V : pre1.Contents (Elt F)) :
    (Pipeline.prefHeld (Ix := Unit) (Name := ℕ) (U := UC) (Lvl := ℕ) pre1 c (fun _ => fullShare) V : sProp 𝕄)
      = (((c : Thread nD τ).loc (pre1.ref 0)) ↦{fullShare} V 0) := by
  unfold Pipeline.prefHeld
  exact bigSep_univ_eq_bigSepL [(0 : Fin 1)] (by decide) (by decide) _

theorem ΦL_in (c : Dev nD) :
    iprop(XL m c ∗ Pipeline.prefHeld (Ix := Unit) (Name := ℕ) (U := UC) (Lvl := ℕ) pre1 c (fun _ => fullShare) (adm1 m).1
        ∗ Pipeline.scopedRest (Ix := Unit) (Name := ℕ) (U := UC) (Lvl := ℕ) (Val := Elt F) spec1 c)
      ⊢ (dat1 m c).Φ 0 := by
  obtain rfl : c = 0 := Subsingleton.elim _ _
  rw [prefHeldL_eq, scopedRest1_eq, show (dat1 m 0).Φ 0 = ΦL m 0 0 from rfl]
  unfold ΦL otherStaging; rw [accPart_zero]
  iintro ⟨⟨Hsems, Hctr⟩, Hlab, S1, S2, S3, S4, S5, S6, S7, S8, S9, ⟨%f0, Hr0⟩, ⟨%f2, Hr2⟩⟩
  isplitl [Hr2]
  · iexists f2; rw [owns_whole]; iexact Hr2
  isplitl [Hr0]
  · iexists f0; rw [owns_whole]; iexact Hr0
  isplitl [Hsems]; · iexact Hsems
  isplitl [Hctr]; · iexact Hctr
  isplitl [Hlab]; · iexact Hlab
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

theorem ΦL_out (c : Dev nD) :
    (dat1 m c).Φ (Fin.last (cfgL m).N)
      ⊢ iprop(YL m c ∗ Pipeline.ownSems0 (Ix := Unit) (Name := ℕ) (U := UC) (Lvl := ℕ) (Val := Elt F) (τ := τ) osem1 c
          ∗ Pipeline.scopedRest (Ix := Unit) (Name := ℕ) (U := UC) (Lvl := ℕ) (Val := Elt F) spec1 c) := by
  rw [ownSems01_eq, scopedRest1_eq, show (dat1 m c).Φ (Fin.last (cfgL m).N) = ΦL m c (Fin.last (cfgL m).N) from rfl]
  unfold ΦL otherStaging
  iintro ⟨Ha, ⟨%d, Hrows⟩, Hsems, Hctr, Hlab, S1, S2, S3, S4, S5, S6, S7, S8, S9⟩
  ihave Ha' := (accPart_forget m c _) $$ Ha
  isplitl [Hctr Hlab]
  · isplitl [Hctr]; · iexact Hctr
    iexact Hlab
  isplitl [Hsems]; · iexact Hsems
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [Hrows]; · iapply (wholeL_forget c cc1_scratch0 d); iexact Hrows
  iexact Ha'

/-- The grid has 256 points; the last is point 255. -/
theorem cfgL_N : (cfgL m).N = 256 := N_1
def tLast : Fin (cfgL m).N := ⟨255, by rw [cfgL_N]; decide⟩

/-- An array of one entry has one index. -/
theorem idxL11_eq (x y : S1x1.Idx) : x = y := funext fun a => Fin.ext <| by
  match a with
  | ⟨0, _⟩ => have h1 : (x 0).val < 1 := (x 0).isLt; have h2 : (y 0).val < 1 := (y 0).isLt; show (x 0).val = (y 0).val; omega
  | ⟨1, _⟩ => have h1 : (x 1).val < 1 := (x 1).isLt; have h2 : (y 1).val < 1 := (y 1).isLt; show (x 1).val = (y 1).val; omega

/-- The result array (one entry) after the run holds what the last point stored. -/
theorem loss_arrAt (c : Dev nD) : (dat1 m c).arrAt 1 (cfgL m).N = outAt m c (tLast m) := by
  refine (dat1 m c).arrAt_eq_of_cover (1 : Fin 2) (outAt m c (tLast m)) (fun t hf => ?_) (fun i => ?_)
  · -- the one point that writes the block back is the last, and its block is the whole array
    have ht : t = tLast m := Fin.ext ((flushL_1 (adm1 m) t).mp hf)
    subst ht
    show ((cfgL m).win (1 : Fin 2)).cut ((cfgL m).grid.coords (tLast m)) ((dat1 m c).after (1 : Fin 2) (tLast m)) = _
    rw [afterL_1]
    funext y
    exact congrArg (outAt m c (tLast m)) (idxL11_eq _ _)
  · refine ⟨tLast m, (flushL_1 (adm1 m) (tLast m)).mpr rfl, ?_⟩
    show i ∈ ((View.whole main_v3).slice (((cfgL m).win (1 : Fin 2)).rect (tLast m))).set
    rw [View.set_slice_whole, Rect.mem_set_unit]
    intro a
    match a with
    | ⟨0, _⟩ => have h1 : (i 0).val < 1 := (i 0).isLt; show 0 * 1 ≤ (i 0).val ∧ (i 0).val < 0 * 1 + 1; omega
    | ⟨1, _⟩ => have h1 : (i 1).val < 1 := (i 1).isLt; show 0 * 1 ≤ (i 1).val ∧ (i 1).val < 0 * 1 + 1; omega

end Cert.KernelIdeal.Hand

end
-- ==== Proof.KI.Thread.lean ====
/-
  What the core holds between the items of the program: two reshapes, the classifier region, the center-loss region,
  one reshape. Before the classifier region every unscoped buffer is held at its contents after the two reshapes.
  After it the classifier's output is held apart, at contents that are named only when a claim wants them (the mask
  `fgt` says whether its window is forgotten), and every other unscoped buffer as before; the center-loss region then
  changes only its one-entry result. Beside the buffers ride the generator register and the core's empty debt.
-/
import proofs.«413297_j40621800685615_1_alg».proof.Proof.KI.FcDat
import proofs.«413297_j40621800685615_1_alg».proof.Proof.KI.LossDat
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

/-- The pipeline library's algebra is the left component of the certificate's. -/
abbrev EP : Emb (UR sig nD τ) (MT nD τ sig Unit (Elt F) ℕ UC ℕ) := embL

variable (m : (ℓ : Loc nD τ sig) → Buf (Elt F) ℓ) (fgt : Fin cfg0.W → Bool)

/-- The two pipelines' table contents: the classifier has no table, the center-loss pipeline the labels as launched. -/
def adm : (p : Fin 2) → (pcfgs (F := F) p).Adm
  | ⟨0, _⟩ => cfg0.toPCfg_adm
  | ⟨1, _⟩ => adm1 m

/-- The two pipelines' proof data, read relationally: the classifier's with the windows `fgt` marks forgotten, the
    center-loss pipeline's exact. -/
def rdats : (p : Fin 2) → (c : Dev nD) → RDat τ (Elt F) Unit ℕ UC ℕ (Pipeline.pin (pcfgs (F := F)) (adm m) p) c
  | ⟨0, _⟩ => fun c => (dat0 m c).toRForget fgt
  | ⟨1, _⟩ => fun c => (dat1 m c).toR

abbrev 𝒱₀ : Variants := Variants.none
/-- No core owes another anything: no level is assigned. -/
abbrev Lv : GSem nD τ sig → Finset Unit := fun _ => ∅
abbrev lvl : GSem nD τ sig → Unit → ℕ := fun _ _ => 0

/-- What rides beside the buffers through every item: the generator register at some state, the core owing nothing. -/
abbrev Rr (c : Dev nD) : sProp 𝕄 := iprop((∃ r, prngReg c r) ∗ ∃ W, owes (c : Thread nD τ) (0 : CellTallies nD τ sig Unit) W)

/-- The unscoped buffers other than the classifier's output. -/
def ucNo2 : Finset (DevRef τ sig) := (Pipeline.ucRefs τ sig).erase (Proc.devRef .tc main_v2)

/-- The classifier's output after its region: at some contents, which are the pipeline's account of the array when
    its window is not forgotten. -/
def v2Part (c : Dev nD) : sProp 𝕄 :=
  iprop(∃ f2 : Buf (Elt F) ((c : Thread nD τ).loc main_v2),
    ⌜fgt 4 = false → f2 = (dat0 m c).arrAt 4 cfg0.N⌝ ∗ ((c : Thread nD τ).loc main_v2) ↦{fullShare} f2)

/-- The other unscoped buffers after the center-loss region: its result at the pipeline's account of it. -/
abbrev V3' (c : Dev nD) : Valuation τ sig (Elt F) :=
  Function.update (V1 m c) main_v3 ((dat1 m c).arrAt 1 (cfgL m).N)

/-- One unscoped buffer of core `c` held whole at the valuation's contents. -/
abbrev pv (c : Dev nD) (V : Valuation τ sig (Elt F)) (r : Ref sig .tc) : sProp 𝕄 := ((c : Thread nD τ).loc r) ↦{fullShare} V r

/-- The eleven unscoped buffers of a core, one by one; -/
theorem held_uc_eq (c : Dev nD) (V : Valuation τ sig (Elt F)) :
    (StableHlo.held (c : Thread nD τ) (Pipeline.ucRefs τ sig) V : sProp 𝕄)
      = iprop(pv c V main_arg0 ∗ pv c V main_arg1 ∗ pv c V main_arg2 ∗ pv c V main_arg3 ∗ pv c V main_arg4 ∗ pv c V main_v0 ∗ pv c V main_v1
          ∗ pv c V main_v2 ∗ pv c V main_v3 ∗ pv c V main_v4 ∗ pv c V main_arg5) := by
  unfold StableHlo.held
  rw [BI.bigSep_eq_bigSepL_of_eq [Proc.devRef .tc main_arg0, Proc.devRef .tc main_arg1, Proc.devRef .tc main_arg2, Proc.devRef .tc main_arg3, Proc.devRef .tc main_arg4,
    Proc.devRef .tc main_v0, Proc.devRef .tc main_v1, Proc.devRef .tc main_v2, Proc.devRef .tc main_v3, Proc.devRef .tc main_v4, Proc.devRef .tc main_arg5] (by decide) (by decide)]
  rfl

/-- and the ten other than the classifier's output. -/
theorem held_no2_eq (c : Dev nD) (V : Valuation τ sig (Elt F)) :
    (StableHlo.held (c : Thread nD τ) ucNo2 V : sProp 𝕄)
      = iprop(pv c V main_arg0 ∗ pv c V main_arg1 ∗ pv c V main_arg2 ∗ pv c V main_arg3 ∗ pv c V main_arg4 ∗ pv c V main_v0 ∗ pv c V main_v1
          ∗ pv c V main_v3 ∗ pv c V main_v4 ∗ pv c V main_arg5) := by
  unfold StableHlo.held ucNo2
  rw [BI.bigSep_eq_bigSepL_of_eq [Proc.devRef .tc main_arg0, Proc.devRef .tc main_arg1, Proc.devRef .tc main_arg2, Proc.devRef .tc main_arg3, Proc.devRef .tc main_arg4,
    Proc.devRef .tc main_v0, Proc.devRef .tc main_v1, Proc.devRef .tc main_v3, Proc.devRef .tc main_v4, Proc.devRef .tc main_arg5] (by decide) (by decide)]
  rfl

/-- Before the classifier region, after it, and after the center-loss region. -/
abbrev T1 (c : Dev nD) : sProp 𝕄 := iprop(StableHlo.held (c : Thread nD τ) (Pipeline.ucRefs τ sig) (V1 m c) ∗ Rr c)
abbrev T2 (c : Dev nD) : sProp 𝕄 := iprop(v2Part m fgt c ∗ StableHlo.held (c : Thread nD τ) ucNo2 (V1 m c) ∗ Rr c)
abbrev T3 (c : Dev nD) : sProp 𝕄 := iprop(v2Part m fgt c ∗ StableHlo.held (c : Thread nD τ) ucNo2 (V3' m c) ∗ Rr c)

end Cert.KernelIdeal.Hand

end
-- ==== Proof.KI.Reg0.lean ====
/-
  The classifier region as one item of the program: entered from every unscoped buffer held after the two reshapes,
  left with the classifier's output held apart (at contents named only when its window is not forgotten) and every
  other unscoped buffer as it was. Its five arrays are split out of the unscoped buffers at entry and put back at
  exit; it has no semaphore of its own, and its invariant is just the scoped buffers it does not stage.
-/
import proofs.«413297_j40621800685615_1_alg».proof.Proof.KI.Thread

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (fgt : Fin cfg0.W → Bool)

/-- What bypasses the classifier region: the unscoped buffers that are none of its arrays, and what rides along. -/
abbrev Z0 (c : Dev nD) : sProp 𝕄 :=
  iprop(Pipeline.unscopedRest (Ix := Unit) (Name := ℕ) (U := UC) (Lvl := ℕ) spec0 c (Ve0 m c) ∗ ∃ r, prngReg c r)

/-- ENTRY: the five arrays at the proof data's entry contents, no table, the core's empty debt, and the bypass, out of
    every unscoped buffer held after the reshapes. -/
theorem hentry0 (c : Dev nD) :
    iprop(T1 m c ∗ Pipeline.ownSems0 (Ix := Unit) (Name := ℕ) (U := UC) (Lvl := ℕ) (Val := Elt F) (τ := τ) (fun k : PEmpty => k.elim) c
        ∗ levAts Lv lvl)
      ⊢ |={Set.univ}=> iprop((rdats m fgt 0 c).arrays (rdats m fgt 0 c).A
          ∗ Pipeline.prefHeld (pcfgs (F := F) 0).pre c (fun _ => fullShare) (adm m 0).1
          ∗ (rdats m fgt 0 c).owesAt () 0 ∗ (iprop(emp) : sProp 𝕄) ∗ Z0 m c) := by
  rw [Pipeline.ownSems0_none]
  have hsplit := Pipeline.RDat.arrays_of_unscopedBufs (p := 0) (pcfgs (F := F)) (adm m) (rdats m fgt) (launch0 (F := F)).win
    (launch0 (F := F)).arr_whole c ((rdats m fgt 0 c).share_full fun _ => rfl) (fun b => V1 m c b) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · rw [show (rdats m fgt 0 c).owesAt () 0 = (dat0 m c).owesAt () 0 from rfl]
    unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact Hp

/-- The invariant at the first point is the scoped buffers the pipeline does not stage. -/
theorem hin0 (c : Dev nD) :
    iprop((iprop(emp) : sProp 𝕄) ∗ Pipeline.prefHeld (pcfgs (F := F) 0).pre c (fun _ => fullShare) (adm m 0).1
        ∗ Pipeline.scopedRest (Pipeline.pin (pcfgs (F := F)) (adm m) 0).spec c)
      ⊢ (rdats m fgt 0 c).Φ 0 := by
  rw [show (rdats m fgt 0 c).Φ 0
    = Pipeline.scopedRest (Ix := Unit) (Name := ℕ) (U := UC) (Lvl := ℕ) (Val := Elt F) spec0 c from rfl]
  iintro ⟨-, -, Hr⟩
  iexact Hr

/-- and at the last point gives them back. -/
theorem hout0 (c : Dev nD) :
    (rdats m fgt 0 c).Φ (Fin.last (Pipeline.pin (pcfgs (F := F)) (adm m) 0).N)
      ⊢ iprop((iprop(emp) : sProp 𝕄)
          ∗ Pipeline.ownSems0 (Ix := Unit) (Name := ℕ) (U := UC) (Lvl := ℕ) (Val := Elt F) (τ := τ) (fun k : PEmpty => k.elim) c
          ∗ Pipeline.scopedRest (Pipeline.pin (pcfgs (F := F)) (adm m) 0).spec c) := by
  rw [Pipeline.ownSems0_none, show (rdats m fgt 0 c).Φ (Fin.last (Pipeline.pin (pcfgs (F := F)) (adm m) 0).N)
    = Pipeline.scopedRest (Ix := Unit) (Name := ℕ) (U := UC) (Lvl := ℕ) (Val := Elt F) spec0 c from rfl]
  iintro Hr
  isplitr; · iempintro
  isplitr; · iempintro
  iexact Hr

/-- A window's array is a whole buffer held at the full share: its points-to is that of the buffer behind it. -/
theorem arr_pv (c : Dev nD) (w : Fin cfg0.W) (G : Buf (Elt F) ((cfg0.win w).arr.view.loc (c : Thread nD τ))) :
    ((cfg0.win w).arr.view.loc (c : Thread nD τ) ↦[(cfg0.win w).arr.view.set]{((dat0 m c).toRForget fgt).share w} G : sProp 𝕄)
      = (((c : Thread nD τ).loc (Pipeline.arrRef spec0 w)) ↦{fullShare} G) := by
  rw [(arr_whole0 w).set_eq_univ, ((dat0 m c).toRForget fgt).share_full (fun _ => rfl) w]

/-- An input window's array is never written back: after every write-back it is the buffer behind it as the region
    found it. -/
theorem arr_in_pv (c : Dev nD) (w : Fin cfg0.W) (hin : (cfg0.win w).isOut = false) :
    iprop(∃ G, ⌜((dat0 m c).toRForget fgt).ArrAt w cfg0.N G⌝
        ∗ (cfg0.win w).arr.view.loc (c : Thread nD τ) ↦[(cfg0.win w).arr.view.set]{((dat0 m c).toRForget fgt).share w} G)
      ⊢ pv c (V1 m c) (Pipeline.arrRef spec0 w) := by
  iintro ⟨%G, %h, H⟩
  rw [RDat.ArrAt_in ((dat0 m c).toRForget fgt) w hin] at h
  subst h
  ihave H' := (Entails.of_eq (arr_pv m fgt c w _)) $$ H
  iexact H'

/-- The output window's array after every write-back is the classifier's output held apart: at some contents, which
    are the exact account of the array when the window is not forgotten. -/
theorem arr_out_pv (c : Dev nD) :
    iprop(∃ G, ⌜((dat0 m c).toRForget fgt).ArrAt 4 cfg0.N G⌝
        ∗ (cfg0.win 4).arr.view.loc (c : Thread nD τ) ↦[(cfg0.win 4).arr.view.set]{((dat0 m c).toRForget fgt).share 4} G)
      ⊢ v2Part m fgt c := by
  unfold v2Part
  iintro ⟨%F4, %h4, H4⟩
  ihave H4' := (Entails.of_eq (arr_pv m fgt c 4 F4)) $$ H4
  iexists F4; isplitr
  · ipureintro; exact fun h => ((dat0 m c).toRForget_arrAt_iff h cfg0.N F4).mp h4
  iexact H4'

/-- EXIT: the arrays at what they may hold after every write-back (the four inputs as entered; the output at some
    contents, the exact account of it when its window is not forgotten), the debt and the bypass make the state after
    the region. -/
theorem hexit0 (c : Dev nD) :
    iprop((rdats m fgt 0 c).arraysAt (Pipeline.pin (pcfgs (F := F)) (adm m) 0).N
        ∗ (rdats m fgt 0 c).owesAt () (Fin.last (Pipeline.pin (pcfgs (F := F)) (adm m) 0).N) ∗ (iprop(emp) : sProp 𝕄) ∗ Z0 m c)
      ⊢ |={Set.univ}=> T2 m fgt c := by
  show iprop(((dat0 m c).toRForget fgt).arraysAt cfg0.N ∗ (dat0 m c).owesAt () (Fin.last cfg0.N) ∗ (iprop(emp) : sProp 𝕄)
      ∗ Pipeline.unscopedRest (Ix := Unit) (Name := ℕ) (U := UC) (Lvl := ℕ) spec0 c (Ve0 m c) ∗ ∃ r, prngReg c r)
    ⊢ |={Set.univ}=> iprop(v2Part m fgt c ∗ StableHlo.held (c : Thread nD τ) ucNo2 (V1 m c) ∗ Rr c)
  -- the four input arrays are the buffers main_arg0, main_arg3, main_v1, main_v0
  have p0 : _ ⊢ pv c (V1 m c) main_arg0 := arr_in_pv m fgt c 0 rfl
  have p1 : _ ⊢ pv c (V1 m c) main_arg3 := arr_in_pv m fgt c 1 rfl
  have p2 : _ ⊢ pv c (V1 m c) main_v1 := arr_in_pv m fgt c 2 rfl
  have p3 : _ ⊢ pv c (V1 m c) main_v0 := arr_in_pv m fgt c 3 rfl
  unfold RDat.arraysAt
  rw [bigSep_W0, held_no2_eq, unscopedRest0_eq]
  iintro ⟨⟨A0, A1, A2, A3, A4⟩, HO, -, ⟨Ha1, Ha2, Ha4, Hv3, Hv4, Ha5⟩, Hp⟩
  ihave H0 := p0 $$ A0
  ihave H1 := p1 $$ A1
  ihave H2 := p2 $$ A2
  ihave H3 := p3 $$ A3
  ihave H4 := (arr_out_pv m fgt c) $$ A4
  imodintro
  isplitl [H4]; · iexact H4
  isplitl [H0 H1 H2 H3 Ha1 Ha2 Ha4 Hv3 Hv4 Ha5]
  · isplitl [H0]; · iexact H0
    isplitl [Ha1]; · iexact Ha1
    isplitl [Ha2]; · iexact Ha2
    isplitl [H1]; · iexact H1
    isplitl [Ha4]; · iexact Ha4
    isplitl [H3]; · iexact H3
    isplitl [H2]; · iexact H2
    isplitl [Hv3]; · iexact Hv3
    isplitl [Hv4]; · iexact Hv4
    iexact Ha5
  isplitl [Hp]; · iexact Hp
  unfold Pipeline.Dat.owesAt Pipeline.owesWithin
  icases HO with ⟨%W, -, HO⟩; iexists W; iexact HO

-- a record's fields stated over the pinned configuration unify with the printed one only when unification may unfold
-- plain definitions in a metavariable's type
set_option backward.isDefEq.respectTransparency.types false in
/-- The classifier region, given its body obligation at the mask. -/
def reg0 (hb0 : ∀ c, ((dat0 m c).toRForget fgt).BodyObligation (defs₀ (F := F)) 𝒱₀ () Set.univ) :
    Pipeline.RDat.RegionSeg (pcfgs (F := F)) (adm m) (rdats m fgt) () defs₀ 𝒱₀ Lv lvl 0 where
  win := (launch0 (F := F)).win.to₀
  block_pos := (launch0 (F := F)).block_pos
  stage_whole := (launch0 (F := F)).stage_whole
  K := PEmpty
  osem k := k.elim
  ho := Pipeline.OwnSemFacts.none _
  hbody c := hb0 c
  hwaits := Pipeline.RDat.hwaits_of_owed_zero _ _ _ _ Lv lvl 0 fun _ _ => rfl
  pre c := T1 m c
  post c := T2 m fgt c
  X c := iprop(emp)
  Y c := iprop(emp)
  Z c := Z0 m c
  hentry c := hentry0 m fgt c
  hin c := hin0 m fgt c
  hout c := hout0 m fgt c
  hexit c := hexit0 m fgt c

end Cert.KernelIdeal.Hand

end
-- ==== Proof.KI.Reg1.lean ====
/-
  The center-loss region as one item of the program: entered from the state the classifier region left, left with its
  one-entry result at the pipeline's account of it and everything else as it was. At entry its two arrays (x and the
  result) and the label table are taken out of the held buffers, the center table and the kernel's eight semaphore
  cells go into the invariant, and the rest — the classifier's output among it — bypasses the region; at exit all of it
  is put back.
-/
import proofs.«413297_j40621800685615_1_alg».proof.Proof.KI.Thread

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (fgt : Fin cfg0.W → Bool)

/-- What bypasses the center-loss region: the classifier's output, the six unscoped buffers that are neither the
    region's arrays, its table nor the center table, and the generator register. -/
abbrev Z1 (c : Dev nD) : sProp 𝕄 :=
  iprop(v2Part m fgt c ∗ pv c (V1 m c) main_arg2 ∗ pv c (V1 m c) main_arg3 ∗ pv c (V1 m c) main_arg4
    ∗ pv c (V1 m c) main_v0 ∗ pv c (V1 m c) main_v1 ∗ pv c (V1 m c) main_v4 ∗ ∃ r, prngReg c r)

/-- The label table as the pipeline holds it prefetched is the held buffer `main_arg5`: the two reshapes do not write
    it, and the mesh has one core. -/
theorem pref_eq (c : Dev nD) :
    (Pipeline.prefHeld (pcfgs (F := F) 1).pre c (fun _ => fullShare) (adm m 1).1 : sProp 𝕄) = pv c (V1 m c) main_arg5 := by
  obtain rfl : c = 0 := Subsingleton.elim c 0
  unfold Pipeline.prefHeld
  rw [BI.bigSep_univ_eq_bigSepL [(0 : Fin 1)] (by decide) (by decide)]
  show ((((0 : Dev nD) : Thread nD τ).loc main_arg5) ↦{fullShare} m ((((0 : Dev nD) : Thread nD τ).loc main_arg5)) : sProp 𝕄)
    = pv 0 (V1 m 0) main_arg5
  unfold pv
  rw [V1_of m 0 main_arg5 (by decide)]

/-- The center table and the label table as launched are the held buffers `main_arg1` and `main_arg5`: the two
    reshapes write neither. -/
theorem ctr_eq (c : Dev nD) : (hbPt c ctrM (ctrOf m c) : sProp 𝕄) = pv c (V1 m c) main_arg1 := by
  show ((((c : Dev nD) : Thread nD τ).loc main_arg1) ↦{fullShare} m ((((c : Dev nD) : Thread nD τ).loc main_arg1)) : sProp 𝕄)
    = pv c (V1 m c) main_arg1
  unfold pv
  rw [V1_of m c main_arg1 (by decide)]
theorem lab_eq (c : Dev nD) : (hbPt c labM (labOf m c) : sProp 𝕄) = pv c (V1 m c) main_arg5 := by
  show ((((c : Dev nD) : Thread nD τ).loc main_arg5) ↦{fullShare} m ((((c : Dev nD) : Thread nD τ).loc main_arg5)) : sProp 𝕄)
    = pv c (V1 m c) main_arg5
  unfold pv
  rw [V1_of m c main_arg5 (by decide)]

/-- After the region every held buffer is as before it, but for the result, which holds the pipeline's account of it. -/
theorem V3'_of (c : Dev nD) (r : Ref sig .tc) (h : r ≠ main_v3) : V3' m c r = V1 m c r :=
  Function.update_of_ne (StableHlo.devRef_ne_of_ne h : (Proc.devRef .tc r : DevRef τ sig) ≠ Proc.devRef .tc main_v3) _ _
theorem V3'_v3 (c : Dev nD) : V3' m c main_v3 = (dat1 m c).arrAt 1 (cfgL m).N :=
  Function.update_self _ _ _

/-- ENTRY. -/
theorem hentry1 (c : Dev nD) :
    iprop(T2 m fgt c ∗ Pipeline.ownSems0 (Ix := Unit) (Name := ℕ) (U := UC) (Lvl := ℕ) (Val := Elt F) (τ := τ) osem1 c ∗ levAts Lv lvl)
      ⊢ |={Set.univ}=> iprop((rdats m fgt 1 c).arrays (rdats m fgt 1 c).A
          ∗ Pipeline.prefHeld (pcfgs (F := F) 1).pre c (fun _ => fullShare) (adm m 1).1
          ∗ (rdats m fgt 1 c).owesAt () 0 ∗ XL m c ∗ Z1 m fgt c) := by
  -- the two arrays as whole buffers at the full share, at what the held buffers hold (the reshapes write neither)
  have harr := Pipeline.RDat.arrays_eq (pcfgs (F := F)) (adm m) (rdats m fgt) 1 c (launch1 (F := F)).arr_whole
    ((rdats m fgt 1 c).share_full fun _ => rfl) (rdats m fgt 1 c).A
  have e0 : (rdats m fgt 1 c).A 0 = V1 m c main_arg0 := ((V1_of m c main_arg0 (by decide)).trans rfl).symm
  have e3 : (rdats m fgt 1 c).A 1 = V1 m c main_v3 := ((V1_of m c main_v3 (by decide)).trans rfl).symm
  rw [harr, Gen.bigSep_W1, ownSems01_eq, e0, e3, pref_eq]
  unfold T2 XL Z1
  rw [held_no2_eq, ctr_eq]
  -- both sides are now chains of whole buffers, the eight cells, the register and the debt: match them up
  iintro ⟨⟨Hv2, ⟨H0, H1, H2, H3, H4, Hv0, Hv1, Hv3, Hv4, H5⟩, Hp, HO⟩, Hs, -⟩
  imodintro
  isplitl [H0 Hv3]
  · isplitl [H0]
    · iexact H0
    · iexact Hv3
  isplitl [H5]; · iexact H5
  isplitl [HO]
  · icases HO with ⟨%W, HO⟩; iexists W; isplitr; · ipureintro; exact fun _ _ => Or.inl trivial
    iexact HO
  isplitl [Hs H1]
  · isplitl [Hs]; · iexact Hs
    iexact H1
  isplitl [Hv2]; · iexact Hv2
  isplitl [H2]; · iexact H2
  isplitl [H3]; · iexact H3
  isplitl [H4]; · iexact H4
  isplitl [Hv0]; · iexact Hv0
  isplitl [Hv1]; · iexact Hv1
  isplitl [Hv4]; · iexact Hv4
  iexact Hp

/-- The invariant at the first point, -/
theorem hin1 (c : Dev nD) :
    iprop(XL m c ∗ Pipeline.prefHeld (pcfgs (F := F) 1).pre c (fun _ => fullShare) (adm m 1).1
        ∗ Pipeline.scopedRest (Pipeline.pin (pcfgs (F := F)) (adm m) 1).spec c)
      ⊢ (rdats m fgt 1 c).Φ 0 :=
  ΦL_in m c

/-- and what it gives back at the last. -/
theorem hout1 (c : Dev nD) :
    (rdats m fgt 1 c).Φ (Fin.last (Pipeline.pin (pcfgs (F := F)) (adm m) 1).N)
      ⊢ iprop(YL m c ∗ Pipeline.ownSems0 (Ix := Unit) (Name := ℕ) (U := UC) (Lvl := ℕ) (Val := Elt F) (τ := τ) osem1 c
          ∗ Pipeline.scopedRest (Pipeline.pin (pcfgs (F := F)) (adm m) 1).spec c) :=
  ΦL_out m c

/-- EXIT. -/
theorem hexit1 (c : Dev nD) :
    iprop((rdats m fgt 1 c).arraysAt (Pipeline.pin (pcfgs (F := F)) (adm m) 1).N
        ∗ (rdats m fgt 1 c).owesAt () (Fin.last (Pipeline.pin (pcfgs (F := F)) (adm m) 1).N) ∗ YL m c ∗ Z1 m fgt c)
      ⊢ |={Set.univ}=> T3 m fgt c := by
  -- the arrays after every write-back are at the contents the exact data names: x unchanged (an input), the result at
  -- the pipeline's account of it, which is what the thread state after the region holds it at
  have harr := Pipeline.RDat.arrays_eq (pcfgs (F := F)) (adm m) (rdats m fgt) 1 c (launch1 (F := F)).arr_whole
    ((rdats m fgt 1 c).share_full fun _ => rfl) (fun w => (dat1 m c).arrAt w (cfgL m).N)
  have hA : ((rdats m fgt 1 c).arraysAt (Pipeline.pin (pcfgs (F := F)) (adm m) 1).N : sProp 𝕄) = _ :=
    ((dat1 m c).toR_arraysAt_eq _).trans harr
  have e0 : (dat1 m c).arrAt 0 (cfgL m).N = V1 m c main_arg0 :=
    ((dat1 m c).arrAt_in 0 rfl _).trans ((V1_of m c main_arg0 (by decide)).trans rfl).symm
  rw [hA, Gen.bigSep_W1, e0, ← V3'_v3]
  unfold T3 YL Z1
  rw [held_no2_eq, ctr_eq, lab_eq]
  unfold pv
  rw [V3'_of m c main_arg0 (by decide), V3'_of m c main_arg1 (by decide), V3'_of m c main_arg2 (by decide), V3'_of m c main_arg3 (by decide),
    V3'_of m c main_arg4 (by decide), V3'_of m c main_v0 (by decide), V3'_of m c main_v1 (by decide), V3'_of m c main_v4 (by decide),
    V3'_of m c main_arg5 (by decide)]
  iintro ⟨⟨H0, Hv3⟩, HO, ⟨H1, H5⟩, Hv2, H2, H3, H4, Hv0, Hv1, Hv4, Hp⟩
  imodintro
  isplitl [Hv2]; · iexact Hv2
  isplitr [Hp HO]
  · isplitl [H0]; · iexact H0
    isplitl [H1]; · iexact H1
    isplitl [H2]; · iexact H2
    isplitl [H3]; · iexact H3
    isplitl [H4]; · iexact H4
    isplitl [Hv0]; · iexact Hv0
    isplitl [Hv1]; · iexact Hv1
    isplitl [Hv3]; · iexact Hv3
    isplitl [Hv4]; · iexact Hv4
    iexact H5
  isplitl [Hp]; · iexact Hp
  icases HO with ⟨%W, -, HO⟩; iexists W; iexact HO

-- a record's fields stated over the pinned configuration unify with the printed one only when unification may unfold
-- plain definitions in a metavariable's type
set_option backward.isDefEq.respectTransparency.types false in
/-- The center-loss region, under labels in range. -/
def reg1 (hlab : LabOk m) :
    Pipeline.RDat.RegionSeg (pcfgs (F := F)) (adm m) (rdats m fgt) () defs₀ 𝒱₀ Lv lvl 1 where
  win := (launch1 (F := F)).win.to₀
  block_pos := (launch1 (F := F)).block_pos
  stage_whole := (launch1 (F := F)).stage_whole
  K := Fin 8
  osem := osem1
  ho := ownSemFacts1
  hbody c := (body_obligation1 m hlab c).toR
  hwaits := Pipeline.RDat.hwaits_of_owed_zero _ _ _ _ Lv lvl 1 fun _ _ => rfl
  pre c := T2 m fgt c
  post c := T3 m fgt c
  X c := XL m c
  Y c := YL m c
  Z c := Z1 m fgt c
  hentry c := hentry1 m fgt c
  hin c := hin1 m fgt c
  hout c := hout1 m fgt c
  hexit c := hexit1 m fgt c

end Cert.KernelIdeal.Hand

end
-- ==== Proof.KI.Run.lean ====
/-
  The run of the whole program: the two reshapes, the classifier region, the center-loss region, the last reshape, in
  order, from any memory with zero counters. Every weakly fair execution terminates, nothing faults, the six argument
  arrays end as launched, the scalar result holds the reshape of what the center-loss pipeline leaves in its one-entry
  array, and — when the classifier's output window is not forgotten — the classifier's output holds the pipeline's
  account of it. With the window forgotten the statement holds at every float instance; with it kept, wherever the
  classifier body's obligation can name its output block.
-/
import proofs.«413297_j40621800685615_1_alg».proof.Proof.KI.Reg0
import proofs.«413297_j40621800685615_1_alg».proof.Proof.KI.Reg1

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (ρ : Dev nD → PrngReg) (fgt : Fin cfg0.W → Bool)

/-! ## The two host stretches as segments -/

/-- The two reshapes before the regions, over every unscoped buffer from the launch memory. -/
def segA : Pipeline.HostSeg (Ix := Unit) (Name := ℕ) (U := UC) (Lvl := ℕ) (pcfgs (F := F)) defs₀ 𝒱₀ Lv lvl :=
  seg0 m 𝒱₀ Lv lvl (fun _ c => Rr c)

/-- A reference that is not the classifier's output is among the buffers the last stretch runs within. -/
theorem mem_no2 (b : Ref sig .tc) (h2 : b ≠ main_v2) (h : ¬ (Proc.devRef .tc b : DevRef τ sig).isScoped) :
    Proc.devRef .tc b ∈ (ucNo2 : Finset (DevRef τ sig)) :=
  Finset.mem_erase.mpr ⟨StableHlo.devRef_ne_of_ne h2, Finset.mem_filter.mpr ⟨StableHlo.devRef_mem_tcRefs b, h⟩⟩

/-- The last reshape touches only the center-loss result and the scalar result. -/
theorem hostOps2_no2 : ∀ op ∈ (hostOps2 : List (HloOp τ sig (Elt F))), op.bufs ⊆ (ucNo2 : Finset (DevRef τ sig)) := by
  intro op hop
  simp only [hostOps2, List.mem_cons, List.mem_nil_iff, or_false] at hop
  subst hop
  rw [StableHlo.reshape_bufs]
  intro b hb
  simp only [Finset.mem_insert, Finset.mem_singleton] at hb
  rcases hb with rfl | rfl
  · exact mem_no2 main_v3 (by decide) (by decide)
  · exact mem_no2 main_v4 (by decide) (by decide)

/-- The reshape after the regions, over the unscoped buffers other than the classifier's output, which rides along. -/
def segD : Pipeline.HostSeg (Ix := Unit) (Name := ℕ) (U := UC) (Lvl := ℕ) (pcfgs (F := F)) defs₀ 𝒱₀ Lv lvl :=
  Pipeline.HostSeg.ofOps _ _ _ _ _ ucNo2 hostOps2 hostOps2_no2
    (fun op h => (List.forall_iff_forall_mem.mp hostOps2_fresh) op h) (V3' m) (fun c => iprop(v2Part m fgt c ∗ Rr c))

/-- What the last stretch leaves in the buffers it runs within. -/
abbrev V4' (c : Dev nD) : Valuation τ sig (Elt F) := StableHlo.after hostOps2 (V3' m c)

/-- An argument array reaches the end as launched: no reshape writes it and no region may change it. -/
theorem V4'_arg (c : Dev nD) (r : Ref sig .tc) (h0 : r ∉ hostOps0_W) (h3 : r ≠ main_v3) (h2 : r ∉ hostOps2_W) :
    V4' m c r = m ((c : Thread nD τ).loc r) := by
  have e2 : V4' m c r = V3' m c r := StableHlo.after_of_writes_sub hostOps2 _ hostOps2_writes h2
  have e3 : V3' m c r = V1 m c r :=
    Function.update_of_ne (StableHlo.devRef_ne_of_ne h3 : (Proc.devRef .tc r : DevRef τ sig) ≠ Proc.devRef .tc main_v3) _ _
  exact e2.trans (e3.trans ((V1_of m c r h0).trans rfl))

/-! ## The program as segments, and the launch -/

/-- The four items in order. -/
abbrev segs (hlab : LabOk m) (hb0 : ∀ c, ((dat0 m c).toRForget fgt).BodyObligation (defs₀ (F := F)) 𝒱₀ () Set.univ) : List (Pipeline.RDat.Seg (pcfgs (F := F)) (adm m) (rdats m fgt) () defs₀ 𝒱₀ Lv lvl) :=
  [.host (segA m), .region (reg0 m fgt hb0), .region (reg1 m fgt hlab), .host (segD m fgt)]

/-- The launch element: the pipeline library's at the two pipelines' staging cells; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

/-- What a final memory satisfies on core `c`. -/
def Post (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_v4) = V4' m c main_v4
  ∧ (fgt 4 = false → s.mem ((c.tc : Thread nD τ).loc main_v2) = (dat0 m c).arrAt 4 cfg0.N)

-- the launch theorem's implicit arguments are found by unifying its conclusion with this one, which takes unfolding plain
-- definitions in a metavariable's type
set_option backward.isDefEq.respectTransparency.types false in
/-- THE RUN. -/
theorem run_main (hlab : LabOk m) (hb0 : ∀ c, ((dat0 m c).toRForget fgt).BodyObligation (defs₀ (F := F)) 𝒱₀ () Set.univ) :
    θ_run defs (onTc (τ := τ) (main (F := F))) ⟨m, fun _ => 0, ρ⟩ (fun r => ∀ c : Dev nD, Post m fgt c r.2) :=
  Pipeline.RDat.θ_run_regions_kit (pcfgs (F := F)) (adm m) (rdats m fgt) () (cellOf_inj (adm m)) EP defs₀ 𝒱₀ Lv lvl m ρ main
    (segs m fgt hlab hb0)
    (fun c Q => by
      rewrite [main_chain c, Pipeline.RDat.Seg.run_eq_chain,
        show (segs m fgt hlab hb0).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(v2Part m fgt c ∗ StableHlo.held (c : Thread nD τ) ucNo2 (V4' m c) ∗ ∃ r, prngReg c r))
    (hch := ⟨fun _ => .rfl, fun _ => .rfl, fun _ => .rfl,
      fun c => by
        show T3 m fgt c ⊢ iprop(StableHlo.held (c : Thread nD τ) ucNo2 (V3' m c) ∗ iprop(v2Part m fgt c ∗ Rr c))
        iintro ⟨Hv, Hh, HR⟩
        isplitl [Hh]; · iexact Hh
        isplitl [Hv]; · iexact Hv
        iexact HR,
      fun c => by
        show iprop(StableHlo.held (c : Thread nD τ) ucNo2 (V4' m c) ∗ iprop(v2Part m fgt c ∗ Rr c)) ⊢ _
        iintro ⟨Hh, Hv, Hp, HO⟩
        isplitr [HO]
        · isplitl [Hv]; · iexact Hv
          isplitl [Hh]; · iexact Hh
          iexact Hp
        · iexact HO⟩)
    (hinit := by
      refine Pipeline.initEach Lv lvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => Post m fgt c s)
    (hfin := fun c s' => by
      unfold StableHlo.held v2Part
      iintro ⟨⟨⟨%f2, %hf2, H2⟩, Hh, -⟩, HSI⟩
      icombine HSI H2 gives %h2
      ihave Hr := (pointsTo_read_all (ucNo2 : Finset (DevRef τ sig)) (fun b => ((c : Thread nD τ).1, b)) (V4' m c) s') $$ [Hh HSI]
      · isplitl [Hh] <;> iassumption
      icases Hr with ⟨%h, HSI⟩
      imodintro
      isplitr
      · ipureintro
        exact ⟨(h (Proc.devRef .tc main_arg0) (mem_no2 main_arg0 (by decide) (by decide))).trans (V4'_arg m c main_arg0 (by decide) (by decide) (by decide)),
          (h (Proc.devRef .tc main_arg1) (mem_no2 main_arg1 (by decide) (by decide))).trans (V4'_arg m c main_arg1 (by decide) (by decide) (by decide)),
          (h (Proc.devRef .tc main_arg2) (mem_no2 main_arg2 (by decide) (by decide))).trans (V4'_arg m c main_arg2 (by decide) (by decide) (by decide)),
          (h (Proc.devRef .tc main_arg3) (mem_no2 main_arg3 (by decide) (by decide))).trans (V4'_arg m c main_arg3 (by decide) (by decide) (by decide)),
          (h (Proc.devRef .tc main_arg4) (mem_no2 main_arg4 (by decide) (by decide))).trans (V4'_arg m c main_arg4 (by decide) (by decide) (by decide)),
          (h (Proc.devRef .tc main_arg5) (mem_no2 main_arg5 (by decide) (by decide))).trans (V4'_arg m c main_arg5 (by decide) (by decide) (by decide)),
          h (Proc.devRef .tc main_v4) (mem_no2 main_v4 (by decide) (by decide)),
          fun hf => (Buf.eq_of_forall_mem_univ h2).trans (hf2 hf)⟩
      · iexact HSI)
    (hQ := fun _ h => h)

end Cert.KernelIdeal.Hand

end
-- ==== Proof.KI.FcLoose.lean ====
/-
  At the exact extended reals the classifier body's result block, on the columns inside the output array, does not
  depend on the staging rows of the weight and bias blocks past their arrays' ends: column j of the block is an inner
  product with weight row j plus bias j, and the columns inside the output array are exactly the weight rows and
  biases inside theirs. So the body leaves, on the part the write-back moves, the block the proof data name.
-/
import proofs.«413297_j40621800685615_1_alg».proof.Proof.KI.FcDat
import Idealize.ShloMosaic.PureOps.Ideal.Laws
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ UC ℕ

variable (m : (ℓ : Loc nD τ sig) → Buf (Elt Ideal) ℓ)

/-! ## Column j of the result reads weight row j and bias j only -/

/-- On its second axis the product's right operand is read at the result's column. -/
theorem rhs_fc_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide),
    dif_pos (show (1 : Fin S128x2048.rank) ∈ dot_S512x128_S128x2048_S512x2048_1_0_0_1_n_n.rhsNonContracting by decide)]
  rfl

/-- The transposed weight block, read where the product reads it for column `j`, is an entry of weight row `j`. -/
theorem wT_at (W : Vec Ideal S2048x128 .f32) (r : Fin 512) (j : Fin 2048)
    (q : dot_S512x128_S128x2048_S512x2048_1_0_0_1_n_n.contr.Idx) :
    transpose S128x2048 [1, 0] (truncf .bf16 W bitsLt_bf16_f32 : FVec Ideal S2048x128 .bf16) transposes_S2048x128_p1_0_S128x2048
        (dot_S512x128_S128x2048_S512x2048_1_0_0_1_n_n.rhsIdx (ValueIdx.ix2 r j) q)
      = W (ValueIdx.ix2 j (⟨(dot_S512x128_S128x2048_S512x2048_1_0_0_1_n_n.rhsIdx (ValueIdx.ix2 r j) q 0).val,
          (dot_S512x128_S128x2048_S512x2048_1_0_0_1_n_n.rhsIdx (ValueIdx.ix2 r j) q 0).isLt⟩ : Fin 128)) := by
  rw [transpose_apply [1, 0] _ transposes_S2048x128_p1_0_S128x2048 _
    (ValueIdx.ix2 j (⟨(dot_S512x128_S128x2048_S512x2048_1_0_0_1_n_n.rhsIdx (ValueIdx.ix2 r j) q 0).val,
      (dot_S512x128_S128x2048_S512x2048_1_0_0_1_n_n.rhsIdx (ValueIdx.ix2 r j) q 0).isLt⟩ : Fin 128))
    (fun b => match b with
      | ⟨0, _⟩ => rfl
      | ⟨1, _⟩ => (rhs_fc_1 (ValueIdx.ix2 r j) q).symm)]
  rfl

/-- Entry (r, j) of the result block is a function of the x block, the slope, weight row `j` and bias `j`: two weight
    blocks that agree on row `j` and two bias blocks that agree at `j` give the same entry. -/
theorem fcOut_entry_congr (x : Vec Ideal S512x128 .f32) (a : Vec Ideal S1x1 .f32) (W W' : Vec Ideal S2048x128 .f32)
    (B B' : Vec Ideal S1x2048 .f32) (r : Fin 512) (j : Fin 2048)
    (hW : ∀ k : Fin 128, W (ValueIdx.ix2 j k) = W' (ValueIdx.ix2 j k))
    (hB : B (ValueIdx.ix2 (0 : Fin 1) j) = B' (ValueIdx.ix2 (0 : Fin 1) j)) :
    fcOut x W B a (ValueIdx.ix2 r j) = fcOut x W' B' a (ValueIdx.ix2 r j) := by
  unfold fcOut k0_pay1
  simp only [ValueIdx.addf_apply, Ideal.matmul_constant_zero_apply, shapeCast_self, ValueIdx.broadcastTo_1b_ab_apply, hB]
  congr 1
  refine Finset.sum_congr rfl fun k _ => ?_
  rw [wT_at W r j k, wT_at W' r j k, hW]

/-! ## The three cut windows cut alike -/

/-- The weight's rows, the bias's entries and the result's columns are cut by the same block index against the same
    length: what the transfers move of each is the same leading count; the weight's features and the bias's one row
    are moved whole. -/
theorem xsize_w_rows (i : grid0.Coords) : win0_1.xsize i 0 = win0_4.xsize i 1 := rfl
theorem xsize_w_feat (i : grid0.Coords) : win0_1.xsize i 1 = 128 := rfl
theorem xsize_b_row (i : grid0.Coords) : win0_2.xsize i 0 = 1 := rfl
theorem xsize_b_cols (i : grid0.Coords) : win0_2.xsize i 1 = win0_4.xsize i 1 := rfl

/-- On the columns the write-back moves, the result block does not depend on what fills the weight and bias blocks
    past their arrays' ends. -/
theorem cut_fcOut_fill (i : grid0.Coords) (x : Vec Ideal S512x128 .f32) (a : Vec Ideal S1x1 .f32)
    (d1 d1' : S2048x128.Idx → Elt Ideal .f32) (d2 d2' : S1x2048.Idx → Elt Ideal .f32)
    (wP : (win0_1.xblock i).Idx → Elt Ideal .f32) (bP : (win0_2.xblock i).Idx → Elt Ideal .f32) :
    win0_4.cut i (fcOut x (win0_1.fill i d1 wP) (win0_2.fill i d2 bP) a)
      = win0_4.cut i (fcOut x (win0_1.fill i d1' wP) (win0_2.fill i d2' bP) a) := by
  funext y
  have hy : (y 1).val < win0_4.xsize i 1 := (y 1).isLt
  show fcOut x (win0_1.fill i d1 wP) (win0_2.fill i d2 bP) a (win0_4.xinj i y)
    = fcOut x (win0_1.fill i d1' wP) (win0_2.fill i d2' bP) a (win0_4.xinj i y)
  rw [show win0_4.xinj i y = ValueIdx.ix2 (⟨(y 0).val, (win0_4.xinj i y 0).isLt⟩ : Fin 512) (⟨(y 1).val, (win0_4.xinj i y 1).isLt⟩ : Fin 2048)
    from ValueIdx.eq_ix2 (n0 := 512) (n1 := 2048) (win0_4.xinj i y)]
  apply fcOut_entry_congr
  · intro k
    have hm : win0_1.moved i (ValueIdx.ix2 (⟨(y 1).val, (win0_4.xinj i y 1).isLt⟩ : Fin 2048) k) = true :=
      (win0_1.moved_iff i _).mpr fun ax => match ax with
        | ⟨0, _⟩ => Nat.lt_of_lt_of_eq hy (xsize_w_rows i).symm
        | ⟨1, _⟩ => Nat.lt_of_lt_of_eq k.isLt (xsize_w_feat i).symm
    unfold Window.fill; rw [dif_pos hm, dif_pos hm]
  · have hm : win0_2.moved i (ValueIdx.ix2 (0 : Fin 1) (⟨(y 1).val, (win0_4.xinj i y 1).isLt⟩ : Fin 2048)) = true :=
      (win0_2.moved_iff i _).mpr fun ax => match ax with
        | ⟨0, _⟩ => Nat.lt_of_lt_of_eq Nat.one_pos (xsize_b_row i).symm
        | ⟨1, _⟩ => Nat.lt_of_lt_of_eq hy (xsize_b_cols i).symm
    unfold Window.fill; rw [dif_pos hm, dif_pos hm]

/-! ## The body obligation -/

/-- The block the body stores, whatever filled the weight and bias blocks past their arrays' ends, is the named result
    block on the columns the write-back moves: filling it with the named block's moved part changes nothing. -/
theorem oblk_handback (c : Dev nD) (t : Fin cfg0.N) (d1 : S2048x128.Idx → Elt Ideal .f32) (d2 : S1x2048.Idx → Elt Ideal .f32) :
    win0_4.fill (grid0.coords t)
        (fcOut (xblk m c t) (win0_1.fill (grid0.coords t) d1 (wblkP m c t)) (win0_2.fill (grid0.coords t) d2 (bblkP m c t)) (ablk m c t))
        (win0_4.cut (grid0.coords t) (oblk m c t))
      = fcOut (xblk m c t) (win0_1.fill (grid0.coords t) d1 (wblkP m c t)) (win0_2.fill (grid0.coords t) d2 (bblkP m c t)) (ablk m c t) := by
  have h : win0_4.cut (grid0.coords t)
        (fcOut (xblk m c t) (win0_1.fill (grid0.coords t) d1 (wblkP m c t)) (win0_2.fill (grid0.coords t) d2 (bblkP m c t)) (ablk m c t))
      = win0_4.cut (grid0.coords t) (oblk m c t) := by
    unfold oblk wblk bblk
    exact cut_fcOut_fill _ _ _ _ _ _ _ _ _
  exact win0_4.fill_congr_cut (grid0.coords t) h

/-- What the body is handed at point `t`: the invariant, what the core owes, each window's current buffer at what the
    loop left there; -/
def bodyPreL (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ d, owns (c : Thread nD τ) (st0_4 t) fullShare ((dat0 m c).before 4 t d)))

/-- and what it hands back: the x block and the slope as named; the weight block, the bias block and the result block
    as named on the part their transfers move. -/
def bodyPostL (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ (∃ d, owns (c : Thread nD τ) (st0_1 t) fullShare (win0_1.fill (grid0.coords t) d (win0_1.cut (grid0.coords t) ((dat0 m c).after 1 t))))
    ∗ (∃ d, owns (c : Thread nD τ) (st0_2 t) fullShare (win0_2.fill (grid0.coords t) d (win0_2.cut (grid0.coords t) ((dat0 m c).after 2 t))))
    ∗ owns (c : Thread nD τ) (st0_3 t) fullShare ((dat0 m c).after 3 t)
    ∗ (∃ d, owns (c : Thread nD τ) (st0_4 t) fullShare (win0_4.fill (grid0.coords t) d (win0_4.cut (grid0.coords t) ((dat0 m c).after 4 t)))))

/-- The body at any point: it reads the four input blocks, the weight's and the bias's filled out past their arrays'
    ends with words nothing names, and stores the result block computed from them; on the columns the write-back moves
    that block is the one the proof data name, whatever those words were. -/
theorem sound_bodyL (c : Dev nD) (t : Fin cfg0.N) :
    bodyPreL m c t ⊢ wp frame (wpE (defs₀ (F := Ideal)) Variants.none c none) Set.univ (bodyAt0 t) (fun _ => bodyPostL m c t) := by
  unfold bodyPreL bodyPostL bodyAt0
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_fc c Set.univ (grid0.coords t) _ _ _ _ _ _ _ _ _ _ (xblk m c t) (win0_1.fill (grid0.coords t) d1 (wblkP m c t))
    (win0_2.fill (grid0.coords t) d2 (bblkP m c t)) (ablk m c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    rw [show win0_1.cut (grid0.coords t) ((dat0 m c).after 1 t) = wblkP m c t from win0_1.cut_fill _ _ _]
    iexact H1
  isplitl [H2]
  · iexists d2
    rw [show win0_2.cut (grid0.coords t) ((dat0 m c).after 2 t) = bblkP m c t from win0_2.cut_fill _ _ _]
    iexact H2
  isplitl [H3]; · iexact H3
  -- the buffer's own contents fill out the named block's moved part: the two agree on it
  iexists fcOut (xblk m c t) (win0_1.fill (grid0.coords t) d1 (wblkP m c t)) (win0_2.fill (grid0.coords t) d2 (bblkP m c t)) (ablk m c t)
  rw [dat0_after4, oblk_handback m c t d1 d2]
  iexact H4

/-- The body obligation of the classifier pipeline at the extended reals, nothing forgotten: every buffer handed back
    at what the proof data name on the part its transfers move. -/
theorem body_obligation0_loose (c : Dev nD) :
    BodyObligationLoose (dat0 (F := Ideal) m c) (defs₀ (F := Ideal)) Variants.none () Set.univ := fun t => by
  rw [bigSep_W0, bigSep_W0]
  exact sound_bodyL m c t

end Cert.KernelIdeal.Hand

end
-- ==== Proof.KI.FcValPay.lean ====
/-
  The classifier body's arithmetic read at one entry, on the extended reals. For an x block of 512 rows, a weight block
  of 2048 rows, a bias block and the slope, entry (r, j) of the result block is the inner product over the 128 features of
  PReLU of row r of the x block with row j of the weight block, plus bias j: the change of float format is the identity,
  the transposed weight block read at (k, j) is the weight block at (j, k), the product into the zero block is the bare
  sum over the one contracted axis, and the bias row and the slope are each repeated down (and across) the block.
-/
import proofs.«413297_j40621800685615_1_alg».proof.Proof.KI.FcBody
import proofs.«413297_j40621800685615_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem

/-! ## The layout operations at an entry -/

/-- The bias row repeated down the 512 rows: entry (r, j) is bias j. -/
theorem fc_bias_apply (b0 : Vec Ideal S1x2048 .f32) (r : Fin 512) (j : Fin 2048) :
    broadcastTo S512x2048 (shapeCast S1x2048 b0 shapeCasts_S1x2048_S1x2048) broadcasts_S1x2048_S512x2048 (ValueIdx.ix2 r j)
      = b0 (ValueIdx.ix2 (0 : Fin 1) j) := by
  rw [shapeCast_self]
  exact broadcastTo_apply b0 broadcasts_S1x2048_S512x2048 (ValueIdx.ix2 r j) (ValueIdx.ix2 (0 : Fin 1) j) (fun a => match a with
    | ⟨0, _⟩ => by show 0 = if (1 : Nat) = 1 then 0 else r.val; rw [if_pos rfl]
    | ⟨1, _⟩ => by show j.val = if (2048 : Nat) = 1 then 0 else j.val; rw [if_neg (by decide)])

/-- The one slope repeated over the whole x block: every entry is the slope. -/
theorem fc_slope_apply (a0 : Vec Ideal S1x1 .f32) (r : Fin 512) (k : Fin 128) :
    broadcastTo S512x128 (shapeCast S1x1 a0 shapeCasts_S1x1_S1x1) broadcasts_S1x1_S512x128 (ValueIdx.ix2 r k)
      = a0 (ValueIdx.ix2 (0 : Fin 1) (0 : Fin 1)) := by
  rw [shapeCast_self]
  exact broadcastTo_apply a0 broadcasts_S1x1_S512x128 (ValueIdx.ix2 r k) (ValueIdx.ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else k.val; rw [if_pos rfl])

/-- The transposed weight block at (k, j) is the weight block at (j, k). -/
theorem fc_transpose_apply (y : FVec Ideal S2048x128 .bf16) (k : Fin 128) (j : Fin 2048) :
    transpose S128x2048 [1, 0] y transposes_S2048x128_p1_0_S128x2048 (ValueIdx.ix2 k j) = y (ValueIdx.ix2 j k) :=
  transpose_apply [1, 0] y transposes_S2048x128_p1_0_S128x2048 (ValueIdx.ix2 k j) (ValueIdx.ix2 j k) (fun b => match b with
    | ⟨0, _⟩ => rfl
    | ⟨1, _⟩ => rfl)

/-! ## The product at an entry

The product contracts axis 1 of its left operand with axis 0 of its right one. At output entry i and contraction index q
the left operand is read at (i 0, q) and the right one at (q, i 1): one fact per operand axis. -/

theorem fc_lhs_0 (i : S512x2048.Idx) (q : dot_S512x128_S128x2048_S512x2048_1_0_0_1_n_n.contr.Idx) :
    (dot_S512x128_S128x2048_S512x2048_1_0_0_1_n_n.lhsIdx i q 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem fc_lhs_1 (i : S512x2048.Idx) (q : dot_S512x128_S128x2048_S512x2048_1_0_0_1_n_n.contr.Idx) :
    (dot_S512x128_S128x2048_S512x2048_1_0_0_1_n_n.lhsIdx i q 1).val = (q ⟨0, by decide⟩).val :=
  dot_S512x128_S128x2048_S512x2048_1_0_0_1_n_n.lhsIdx_val_of_single rfl i q
theorem fc_rhs_0 (i : S512x2048.Idx) (q : dot_S512x128_S128x2048_S512x2048_1_0_0_1_n_n.contr.Idx) :
    (dot_S512x128_S128x2048_S512x2048_1_0_0_1_n_n.rhsIdx i q 0).val = (q ⟨0, by decide⟩).val :=
  dot_S512x128_S128x2048_S512x2048_1_0_0_1_n_n.rhsIdx_val_of_single rfl i q
theorem fc_rhs_1 (i : S512x2048.Idx) (q : dot_S512x128_S128x2048_S512x2048_1_0_0_1_n_n.contr.Idx) :
    (dot_S512x128_S128x2048_S512x2048_1_0_0_1_n_n.rhsIdx i q 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- Into the zero block, entry (r, j) of the product is the sum over the 128 features of left (r, k) times right (k, j). -/
theorem fc_matmul_apply (l : FVec Ideal S512x128 .bf16) (t : FVec Ideal S128x2048 .bf16) (r : Fin 512) (j : Fin 2048) :
    matmul dot_S512x128_S128x2048_S512x2048_1_0_0_1_n_n none l t (constant S512x2048 .f32 0x00000000#32) (ValueIdx.ix2 r j)
      = ∑ k : Fin 128, l (ValueIdx.ix2 r k) * t (ValueIdx.ix2 k j) := by
  simp only [matmul]
  rw [Ideal.matmul_constant_zero_apply, ← Equiv.sum_comp (ValueIdx.contrEquiv1 dot_S512x128_S128x2048_S512x2048_1_0_0_1_n_n 128 rfl rfl).symm]
  refine Finset.sum_congr rfl fun k _ => ?_
  have hk := ValueIdx.contrEquiv1_symm_val dot_S512x128_S128x2048_S512x2048_1_0_0_1_n_n 128 rfl rfl k
  have el : dot_S512x128_S128x2048_S512x2048_1_0_0_1_n_n.lhsIdx (ValueIdx.ix2 r j) ((ValueIdx.contrEquiv1 dot_S512x128_S128x2048_S512x2048_1_0_0_1_n_n 128 rfl rfl).symm k) = ValueIdx.ix2 r k := funext fun a => Fin.ext (by
    match a with
    | ⟨0, _⟩ => exact fc_lhs_0 _ _
    | ⟨1, _⟩ => exact (fc_lhs_1 _ _).trans hk)
  have er : dot_S512x128_S128x2048_S512x2048_1_0_0_1_n_n.rhsIdx (ValueIdx.ix2 r j) ((ValueIdx.contrEquiv1 dot_S512x128_S128x2048_S512x2048_1_0_0_1_n_n 128 rfl rfl).symm k) = ValueIdx.ix2 k j := funext fun a => Fin.ext (by
    match a with
    | ⟨0, _⟩ => exact (fc_rhs_0 _ _).trans hk
    | ⟨1, _⟩ => exact fc_rhs_1 _ _)
  rw [el, er]

/-! ## The result block at an entry -/

/-- Entry (r, j) of the block the body stores: the inner product of PReLU of row r of the x block with row j of the
    weight block, plus bias j. -/
theorem fcOut_apply (x0 : Vec Ideal S512x128 .f32) (w0 : Vec Ideal S2048x128 .f32) (b0 : Vec Ideal S1x2048 .f32) (a0 : Vec Ideal S1x1 .f32)
    (r : Fin 512) (j : Fin 2048) :
    fcOut x0 w0 b0 a0 (ValueIdx.ix2 r j)
      = (∑ k : Fin 128, Cert.Proof.Spec.act (a0 (ValueIdx.ix2 (0 : Fin 1) (0 : Fin 1))) (x0 (ValueIdx.ix2 r k)) * w0 (ValueIdx.ix2 j k))
          + b0 (ValueIdx.ix2 (0 : Fin 1) j) := by
  unfold fcOut k0_pay1
  dsimp only
  rw [ValueIdx.addf_apply, fc_matmul_apply, fc_bias_apply]
  refine congrArg (· + b0 (ValueIdx.ix2 (0 : Fin 1) j)) (Finset.sum_congr rfl fun k _ => ?_)
  rw [ValueIdx.truncf_apply, ValueIdx.select_apply, ValueIdx.cmpf_apply, ValueIdx.broadcast_apply, ValueIdx.mulf_apply,
    fc_slope_apply, fc_transpose_apply, ValueIdx.truncf_apply]
  rfl

/-- So if row r of the x block is row R of x, row j of the weight block row J of the weight, bias-block entry j bias J
    and the slope block's entry the slope, entry (r, j) of the result block is the classifier's output at (R, J). -/
theorem fcOut_eq_linOut (x : Cert.Proof.Spec.SX.Idx → EReal) (a : Cert.Proof.Spec.SA.Idx → EReal)
    (w : Cert.Proof.Spec.SC.Idx → EReal) (b : Cert.Proof.Spec.SB.Idx → EReal)
    (x0 : Vec Ideal S512x128 .f32) (w0 : Vec Ideal S2048x128 .f32) (b0 : Vec Ideal S1x2048 .f32) (a0 : Vec Ideal S1x1 .f32)
    (r : Fin 512) (j : Fin 2048) (R : Fin 2048) (J : Fin 100000)
    (hx : ∀ k : Fin 128, x0 (ValueIdx.ix2 r k) = x (ValueIdx.ix2 R k))
    (hw : ∀ k : Fin 128, w0 (ValueIdx.ix2 j k) = w (ValueIdx.ix2 J k))
    (hb : b0 (ValueIdx.ix2 (0 : Fin 1) j) = b (ValueIdx.ix1 J))
    (ha : a0 (ValueIdx.ix2 (0 : Fin 1) (0 : Fin 1)) = a (ValueIdx.ix1 (0 : Fin 1))) :
    fcOut x0 w0 b0 a0 (ValueIdx.ix2 r j) = Cert.Proof.Spec.linOut x a w b R J := by
  rw [fcOut_apply, hb, ha]
  unfold Cert.Proof.Spec.linOut
  exact congrArg (· + b (ValueIdx.ix1 J)) (Finset.sum_congr rfl fun k _ => by rw [hx k, hw k])

end Cert.KernelIdeal.Hand

end
-- ==== Proof.KI.FcValHost.lean ====
/-
  What the classifier region finds in its operands' arrays, in terms of the launch memory. Before the region the host
  reshapes the slope from [1] to [1, 1] and the bias from [100000] to [1, 100000]: entry (0, j) of the reshaped bias is
  bias j and the one entry of the reshaped slope is the slope. Nothing writes x or the weight: they are as launched.
-/
import proofs.«413297_j40621800685615_1_alg».proof.Proof.KI.FcDat
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo

variable {F : FTy → Type} [FloatOps F]
variable (m : (ℓ : Loc nD τ sig) → Buf (Elt F) ℓ)

/-- x reaches the region as launched. -/
theorem Ve0_x (c : Dev nD) : Ve0 m c main_arg0 = m ((c : Thread nD τ).loc main_arg0) :=
  (V1_of m c main_arg0 (by decide)).trans rfl

/-- The weight reaches the region as launched. -/
theorem Ve0_w (c : Dev nD) : Ve0 m c main_arg3 = m ((c : Thread nD τ).loc main_arg3) :=
  (V1_of m c main_arg3 (by decide)).trans rfl

/-- The bias window's array is the launch bias reshaped to one row. -/
theorem Ve0_b_eq (c : Dev nD) :
    (Ve0 m c main_v1 : S1x100000.Idx → Elt F .f32)
      = shapeCast S1x100000 (m ((c : Thread nD τ).loc main_arg4)) shapeCasts_S100000_S1x100000 := by
  dsimp only [Ve0, V1, hostOps0]; after_results; rfl

/-- The slope window's array is the launch slope reshaped to one row of one entry. -/
theorem Ve0_a_eq (c : Dev nD) :
    (Ve0 m c main_v0 : S1x1.Idx → Elt F .f32)
      = shapeCast S1x1 (m ((c : Thread nD τ).loc main_arg2)) shapeCasts_S1_S1x1 := by
  dsimp only [Ve0, V1, hostOps0]; after_results; rfl

/-- Entry (0, j) of the bias window's array is bias j. -/
theorem Ve0_b_apply (c : Dev nD) (j : Fin 100000) :
    (Ve0 m c main_v1 : S1x100000.Idx → Elt F .f32) (ValueIdx.ix2 (0 : Fin 1) j)
      = (m ((c : Thread nD τ).loc main_arg4) : S100000.Idx → Elt F .f32) (ValueIdx.ix1 j) := by
  rw [Ve0_b_eq]
  exact shapeCast_apply _ shapeCasts_S100000_S1x100000 (ValueIdx.ix2 (0 : Fin 1) j) (ValueIdx.ix1 j) (by
    rw [Shape.rowMajor_val_one, Shape.rowMajor_val_two]
    show j.val = 0 * 100000 + j.val
    omega)

/-- The one entry of the slope window's array is the slope. -/
theorem Ve0_a_apply (c : Dev nD) :
    (Ve0 m c main_v0 : S1x1.Idx → Elt F .f32) (ValueIdx.ix2 (0 : Fin 1) (0 : Fin 1))
      = (m ((c : Thread nD τ).loc main_arg2) : S1.Idx → Elt F .f32) (ValueIdx.ix1 (0 : Fin 1)) := by
  rw [Ve0_a_eq]
  exact shapeCast_apply _ shapeCasts_S1_S1x1 (ValueIdx.ix2 (0 : Fin 1) (0 : Fin 1)) (ValueIdx.ix1 (0 : Fin 1)) (by
    rw [Shape.rowMajor_val_one, Shape.rowMajor_val_two]
    rfl)

end Cert.KernelIdeal.Hand

end
-- ==== Proof.KI.FcValBlk.lean ====
/-
  The classifier pipeline's input blocks read at an entry, at any grid point t = 49·p + q. The x block is rows
  512·p … of x; the weight block rows 2048·q … of the weight and the bias block entries 2048·q … of the bias, each
  cut where the array ends (q = 48: 1696 rows, the staging rows past them filled with zeros); the slope block is the
  slope. The output block sits at block (p, q) and is cut on its columns exactly as the weight block is on its rows,
  so a column of the output block that lies inside the output names a weight row and a bias entry inside their arrays.
-/
import proofs.«413297_j40621800685615_1_alg».proof.Proof.KI.FcValHost

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-! ## The index maps over the grid -/

/-- Each input window's block index in terms of the output's: x moves with the output's rows, the weight and the bias
    with its columns, the slope not at all. -/
theorem fc_idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = 0 :=
  (by decide +kernel : ∀ t : Fin grid0.N, _)

/-- How the blocks are cut: the weight's rows and the bias's entries as the output's columns; nothing else is cut. -/
theorem fc_cut_facts : ∀ t : Fin cfg0.N,
    win0_1.xsize (grid0.coords t) (0 : Fin 2) = win0_4.xsize (grid0.coords t) (1 : Fin 2)
    ∧ win0_1.xsize (grid0.coords t) (1 : Fin 2) = 128
    ∧ win0_2.xsize (grid0.coords t) (0 : Fin 2) = 1
    ∧ win0_2.xsize (grid0.coords t) (1 : Fin 2) = win0_4.xsize (grid0.coords t) (1 : Fin 2)
    ∧ win0_4.xsize (grid0.coords t) (0 : Fin 2) = 512 :=
  (by decide +kernel : ∀ t : Fin grid0.N, _)

/-- The output's block at point t is block (t / 49, t mod 49); it lies inside the output's 2048 rows, and its columns
    inside the array are all 2048 or reach exactly to column 100000. -/
theorem fc_out_facts : ∀ t : Fin cfg0.N,
    win0_4.index t (0 : Fin 2) = t.val / 49 ∧ win0_4.index t (1 : Fin 2) = t.val % 49
    ∧ win0_4.index t (1 : Fin 2) * 2048 + win0_4.xsize (grid0.coords t) (1 : Fin 2) ≤ 100000
    ∧ (win0_4.xsize (grid0.coords t) (1 : Fin 2) = 2048
        ∨ win0_4.index t (1 : Fin 2) * 2048 + win0_4.xsize (grid0.coords t) (1 : Fin 2) = 100000) :=
  (by decide +kernel : ∀ t : Fin grid0.N, _)

variable {F : FTy → Type} [FloatOps F]
variable (m : (ℓ : Loc nD τ sig) → Buf (Elt F) ℓ)

/-! ## The blocks at an entry -/

/-- Row r of the x block is row 512·p + r of x. -/
theorem xblk_apply (c : Dev nD) (t : Fin cfg0.N) (r : Fin 512) (k : Fin 128) (R : Fin 2048)
    (hR : R.val = win0_0.index t (0 : Fin 2) * 512 + r.val) (h1 : win0_0.index t (1 : Fin 2) = 0) :
    xblk m c t (ValueIdx.ix2 r k) = (m ((c : Thread nD τ).loc main_arg0) : S2048x128.Idx → Elt F .f32) (ValueIdx.ix2 R k) := by
  show Ve0 m c main_arg0 (((cfg0.win 0).blk t).view.emb (ValueIdx.ix2 r k)) = _
  rw [Ve0_x]
  refine congrArg _ (funext fun a => Fin.ext ?_)
  match a with
  | ⟨0, _⟩ => show win0_0.index t (0 : Fin 2) * 512 + 1 * r.val = R.val; omega
  | ⟨1, _⟩ => show win0_0.index t (1 : Fin 2) * 128 + 1 * k.val = k.val; omega

/-- Row j of the weight block, when it is among the rows the fetch moves, is row 2048·q + j of the weight. -/
theorem wblk_apply (c : Dev nD) (t : Fin cfg0.N) (j : Fin 2048) (k : Fin 128) (J : Fin 100000)
    (hj : j.val < win0_1.xsize (grid0.coords t) (0 : Fin 2)) (hk : win0_1.xsize (grid0.coords t) (1 : Fin 2) = 128)
    (hJ : J.val = win0_1.index t (0 : Fin 2) * 2048 + j.val) (h1 : win0_1.index t (1 : Fin 2) = 0) :
    wblk m c t (ValueIdx.ix2 j k) = (m ((c : Thread nD τ).loc main_arg3) : S100000x128.Idx → Elt F .f32) (ValueIdx.ix2 J k) := by
  have hm : win0_1.moved (grid0.coords t) (ValueIdx.ix2 j k) = true :=
    (win0_1.moved_iff _ _).mpr fun a => match a with
      | ⟨0, _⟩ => hj
      | ⟨1, _⟩ => by show k.val < win0_1.xsize (grid0.coords t) (1 : Fin 2); rw [hk]; exact k.isLt
  unfold wblk Window.fill
  rw [dif_pos hm]
  show Ve0 m c main_arg3 (((cfg0.win 1).blk t).view.emb _) = _
  rw [Ve0_w]
  refine congrArg _ (funext fun a => Fin.ext ?_)
  match a with
  | ⟨0, _⟩ => show win0_1.index t (0 : Fin 2) * 2048 + 1 * j.val = J.val; omega
  | ⟨1, _⟩ => show win0_1.index t (1 : Fin 2) * 128 + 1 * k.val = k.val; omega

/-- Entry j of the bias block, when it is among the entries the fetch moves, is bias 2048·q + j. -/
theorem bblk_apply (c : Dev nD) (t : Fin cfg0.N) (j : Fin 2048) (J : Fin 100000)
    (h0 : win0_2.xsize (grid0.coords t) (0 : Fin 2) = 1) (hj : j.val < win0_2.xsize (grid0.coords t) (1 : Fin 2))
    (hi0 : win0_2.index t (0 : Fin 2) = 0) (hJ : J.val = win0_2.index t (1 : Fin 2) * 2048 + j.val) :
    bblk m c t (ValueIdx.ix2 (0 : Fin 1) j) = (m ((c : Thread nD τ).loc main_arg4) : S100000.Idx → Elt F .f32) (ValueIdx.ix1 J) := by
  have hm : win0_2.moved (grid0.coords t) (ValueIdx.ix2 (0 : Fin 1) j) = true :=
    (win0_2.moved_iff _ _).mpr fun a => match a with
      | ⟨0, _⟩ => by show 0 < win0_2.xsize (grid0.coords t) (0 : Fin 2); rw [h0]; exact Nat.one_pos
      | ⟨1, _⟩ => hj
  unfold bblk Window.fill
  rw [dif_pos hm]
  show Ve0 m c main_v1 (((cfg0.win 2).blk t).view.emb _) = _
  rw [← Ve0_b_apply m c J]
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * j.val = J.val; omega

/-- The slope block's one entry is the slope. -/
theorem ablk_apply (c : Dev nD) (t : Fin cfg0.N)
    (h0 : win0_3.index t (0 : Fin 2) = 0) (h1 : win0_3.index t (1 : Fin 2) = 0) :
    ablk m c t (ValueIdx.ix2 (0 : Fin 1) (0 : Fin 1)) = (m ((c : Thread nD τ).loc main_arg2) : S1.Idx → Elt F .f32) (ValueIdx.ix1 (0 : Fin 1)) := by
  show Ve0 m c main_v0 (((cfg0.win 3).blk t).view.emb (ValueIdx.ix2 (0 : Fin 1) (0 : Fin 1))) = _
  rw [← Ve0_a_apply m c]
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

end Cert.KernelIdeal.Hand

end
-- ==== Proof.KI.FcValue.lean ====
/-
  The classifier's output array after all 196 write-backs, at the extended reals: entry (r, j) is the inner product of
  PReLU of row r of x with row j of the weight, plus bias j. Each point writes back the part of its 512 × 2048 block
  that lies inside the array; the 4 × 49 blocks cover the 2048 × 100000 array.
-/
import proofs.«413297_j40621800685615_1_alg».proof.Proof.KI.FcDat
import proofs.«413297_j40621800685615_1_alg».proof.Proof.KI.FcValPay
import proofs.«413297_j40621800685615_1_alg».proof.Proof.KI.FcValBlk
import proofs.«413297_j40621800685615_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ)

/-- The classifier's whole output as one function of the launch memory's x, slope, weight and bias. -/
abbrev fcG (c : Dev nD) : S2048x100000.Idx → EReal := fun i =>
  Cert.Proof.Spec.linOut (m ((c : Thread nD τ).loc main_arg0)) (m ((c : Thread nD τ).loc main_arg2))
    (m ((c : Thread nD τ).loc main_arg3)) (m ((c : Thread nD τ).loc main_arg4)) (i 0) (i 1)

/-! ## What a point writes back -/

/-- Entry (r, j) of the result block at point t, for a column j inside the output, is the classifier's output at row
    512·p + r and column 2048·q + j: the column names a weight row and a bias entry inside their arrays, so the blocks
    hold the arrays' words there and not the filler. -/
theorem fc_entry (c : Dev nD) (t : Fin cfg0.N) (r : Fin 512) (j : Fin 2048) (R : Fin 2048) (J : Fin 100000)
    (hj : j.val < win0_4.xsize (grid0.coords t) (1 : Fin 2))
    (hR : R.val = win0_4.index t (0 : Fin 2) * 512 + r.val)
    (hJ : J.val = win0_4.index t (1 : Fin 2) * 2048 + j.val) :
    oblk m c t (ValueIdx.ix2 r j)
      = Cert.Proof.Spec.linOut (m ((c : Thread nD τ).loc main_arg0)) (m ((c : Thread nD τ).loc main_arg2))
          (m ((c : Thread nD τ).loc main_arg3)) (m ((c : Thread nD τ).loc main_arg4)) R J := by
  obtain ⟨i0, i0', i1, i1', i2, i2', i3, i3'⟩ := fc_idx_facts t
  obtain ⟨c1, c1', c2, c2', c4⟩ := fc_cut_facts t
  unfold oblk
  exact fcOut_eq_linOut _ _ _ _ (xblk m c t) (wblk m c t) (bblk m c t) (ablk m c t) r j R J
    (fun k => xblk_apply m c t r k R (by omega) i0')
    (fun k => wblk_apply m c t j k J (by omega) c1' (by omega) i1')
    (bblk_apply m c t j J c2 (by omega) i2 (by omega))
    (ablk_apply m c t i3 i3')

/-- What point t writes back is the output function read through the point's block cut at the array's end. -/
theorem fc_flushed_eq (c : Dev nD) (t : Fin cfg0.N) :
    (dat0 m c).flushed 4 t = ((cfg0.win 4).blk t).view.read (Elt Ideal) (fcG m c) := by
  show (cfg0.win 4).cut (grid0.coords t) ((dat0 m c).after 4 t) = _
  rw [dat0_after4]
  funext y
  obtain ⟨-, -, -, -, c4⟩ := fc_cut_facts t
  obtain ⟨o0, o1, ob, -⟩ := fc_out_facts t
  have hy0 : (y 0).val < win0_4.xsize (grid0.coords t) (0 : Fin 2) := (y 0).isLt
  have hy1 : (y 1).val < win0_4.xsize (grid0.coords t) (1 : Fin 2) := (y 1).isLt
  have hx1 : win0_4.xsize (grid0.coords t) (1 : Fin 2) ≤ 2048 := win0_4.xsize_le (grid0.coords t) (1 : Fin 2)
  have ht : t.val < 196 := t.isLt
  have hr : (y 0).val < 512 := by omega
  have hj : (y 1).val < 2048 := by omega
  have hR : win0_4.index t (0 : Fin 2) * 512 + (y 0).val < 2048 := by omega
  have hJ : win0_4.index t (1 : Fin 2) * 2048 + (y 1).val < 100000 := by omega
  have hl : win0_4.xinj (grid0.coords t) y = ValueIdx.ix2 (⟨(y 0).val, hr⟩ : Fin 512) (⟨(y 1).val, hj⟩ : Fin 2048) :=
    funext fun a => match a with
      | ⟨0, _⟩ => rfl
      | ⟨1, _⟩ => rfl
  have h0 : ((cfg0.win 4).blk t).view.emb y 0 = (⟨win0_4.index t (0 : Fin 2) * 512 + (y 0).val, hR⟩ : Fin 2048) :=
    Fin.ext (by show win0_4.index t (0 : Fin 2) * 512 + 1 * (y 0).val = win0_4.index t (0 : Fin 2) * 512 + (y 0).val; omega)
  have h1 : ((cfg0.win 4).blk t).view.emb y 1 = (⟨win0_4.index t (1 : Fin 2) * 2048 + (y 1).val, hJ⟩ : Fin 100000) :=
    Fin.ext (by show win0_4.index t (1 : Fin 2) * 2048 + 1 * (y 1).val = win0_4.index t (1 : Fin 2) * 2048 + (y 1).val; omega)
  show oblk m c t (win0_4.xinj (grid0.coords t) y)
    = Cert.Proof.Spec.linOut (m ((c : Thread nD τ).loc main_arg0)) (m ((c : Thread nD τ).loc main_arg2))
        (m ((c : Thread nD τ).loc main_arg3)) (m ((c : Thread nD τ).loc main_arg4))
        (((cfg0.win 4).blk t).view.emb y 0) (((cfg0.win 4).blk t).view.emb y 1)
  rw [hl, h0, h1]
  exact fc_entry m c t ⟨_, hr⟩ ⟨_, hj⟩ ⟨_, hR⟩ ⟨_, hJ⟩ hy1 rfl rfl

/-! ## The blocks cover the output -/

/-- An entry of the output is in point t's block iff each coordinate is in the block's range, cut at the array's end. -/
theorem fc_mem_blk (t : Fin cfg0.N) (i : S2048x100000.Idx) :
    i ∈ ((cfg0.win 4).blk t).view.set
      ↔ ∀ a : Fin 2, win0_4.index t a * S512x2048.size a ≤ (i a).val
          ∧ (i a).val < win0_4.index t a * S512x2048.size a + win0_4.xsize (grid0.coords t) a := by
  show i ∈ ((View.whole main_v2).slice (win0_4.rect t)).set ↔ _
  rw [View.set_slice_whole, Rect.mem_set_unit]
  exact Iff.rfl

/-- Entry (r, j) of the output lies in the block of point 49·(r / 512) + j / 2048, which is written back. -/
theorem fc_cover (i : S2048x100000.Idx) :
    ∃ t : Fin cfg0.N, (cfg0.win 4).flush t = true ∧ i ∈ ((cfg0.win 4).blk t).view.set := by
  have h0 : (i 0).val < 2048 := (i 0).isLt
  have h1 : (i 1).val < 100000 := (i 1).isLt
  have hN : 49 * ((i 0).val / 512) + (i 1).val / 2048 < cfg0.N := by show _ < 196; omega
  obtain ⟨t, htv⟩ : ∃ t : Fin cfg0.N, t.val = 49 * ((i 0).val / 512) + (i 1).val / 2048 := ⟨⟨_, hN⟩, rfl⟩
  obtain ⟨-, -, -, -, c4⟩ := fc_cut_facts t
  obtain ⟨o0, o1, ob, oc⟩ := fc_out_facts t
  refine ⟨t, flush0_4 t, ?_⟩
  rw [fc_mem_blk]
  intro a
  match a with
  | ⟨0, _⟩ =>
    show win0_4.index t (0 : Fin 2) * 512 ≤ (i 0).val
      ∧ (i 0).val < win0_4.index t (0 : Fin 2) * 512 + win0_4.xsize (grid0.coords t) (0 : Fin 2)
    omega
  | ⟨1, _⟩ =>
    show win0_4.index t (1 : Fin 2) * 2048 ≤ (i 1).val
      ∧ (i 1).val < win0_4.index t (1 : Fin 2) * 2048 + win0_4.xsize (grid0.coords t) (1 : Fin 2)
    omega

/-! ## The array after the run -/

/-- What the classifier pipeline leaves in its output array is the specification's classifier output of the launch
    memory's x, slope, weight and bias. -/
theorem fc_final (c : Dev nD) :
    (dat0 (F := Ideal) m c).arrAt 4 cfg0.N
      = (fun i => Cert.Proof.Spec.linOut (m ((c : Thread nD τ).loc main_arg0)) (m ((c : Thread nD τ).loc main_arg2))
          (m ((c : Thread nD τ).loc main_arg3)) (m ((c : Thread nD τ).loc main_arg4)) (i 0) (i 1)) :=
  (dat0 m c).arrAt_eq_of_cover 4 (fcG m c) (fun t _ => fc_flushed_eq m c t) fc_cover

end Cert.KernelIdeal.Hand

end
-- ==== Proof.KI.LossValue.lean ====
/-
  At the extended reals, what the center-loss kernel's last point stores is the mean clamped squared distance: the
  running sum after the 256 points is the sum over all 2048 samples (eight per point, in any grouping: addition of
  extended reals is commutative and associative), each sample's term the clamp of the sum over the 128 features of
  (x − center)², and the last point multiplies by the word 2⁻¹¹, which is 1/2048.
-/
import proofs.«413297_j40621800685615_1_alg».proof.Proof.KI.LossDat
import proofs.«413297_j40621800685615_1_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

/-! ## One point: the payloads read at their one index -/

/-- The sum over the 128 lanes of an 8 × 128 block, read at row r. -/
theorem laneSum_apply (v : FVec Ideal S8x128 .f32) (h : S8x128.Reduces [1] S8) (hφ : FKind.Formats .f32)
    (hacc : (0x00000000#32 : BitVec 32) = 0x00000000#32) (r : Fin 8) :
    multiReduction (F := Ideal) .add [1] S8 v 0x00000000#32 h hφ hacc (ValueIdx.ix1 r)
      = ∑ d : Fin 128, v (ValueIdx.ix2 r d) := by
  refine (Ideal.multiReduction_add_single v 0x00000000#32 h hφ hacc (ValueIdx.ix1 r)).trans ?_
  refine Finset.sum_congr rfl fun d _ => congrArg v ?_
  funext a
  match a with
  | ⟨0, _⟩ => rfl
  | ⟨1, _⟩ => rfl

/-- The sum over the 8 rows of an 8 × 1 column, read at its one entry. -/
theorem colSum_apply (v : FVec Ideal S8x1 .f32) (h : S8x1.Reduces [0] S1) (hφ : FKind.Formats .f32)
    (hacc : (0x00000000#32 : BitVec 32) = 0x00000000#32) (u : Fin 1) :
    multiReduction (F := Ideal) .add [0] S1 v 0x00000000#32 h hφ hacc (ValueIdx.ix1 u)
      = ∑ r : Fin 8, v (ValueIdx.ix2 r (0 : Fin 1)) := by
  refine (Ideal.multiReduction_add_single v 0x00000000#32 h hφ hacc (ValueIdx.ix1 u)).trans ?_
  refine Finset.sum_congr rfl fun r _ => congrArg v ?_
  funext a
  match a with
  | ⟨0, _⟩ => rfl
  | ⟨1, _⟩ => exact Fin.ext (by show (u : ℕ) = 0; omega)

/-- An [8] vector cast to an [8, 1] column reads, at (r, u), the vector at r. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The one index of a 1 × 1 block. -/
theorem idx11 (j : S1x1.Idx) : j = ValueIdx.ix2 (0 : Fin 1) (0 : Fin 1) := by
  funext a
  match a with
  | ⟨0, _⟩ => exact Fin.ext (by have := (j 0).isLt; show (j 0 : ℕ) = 0; change (j 0 : ℕ) < 1 at this; omega)
  | ⟨1, _⟩ => exact Fin.ext (by have := (j 1).isLt; show (j 1 : ℕ) = 0; change (j 1 : ℕ) < 1 at this; omega)

/-- ONE POINT. What a point leaves in the running sum: what it found there plus, for each of the block's eight rows,
    the clamp of the sum over the 128 features of the squared difference between the block and the gathered rows. -/
theorem k1_pay1_apply (X G : Vec Ideal S8x128 .f32) (a : Vec Ideal S1x1 .f32) :
    k1_pay1 (F := Ideal) X G a = fun _ => a (ValueIdx.ix2 (0 : Fin 1) (0 : Fin 1))
      + ∑ r : Fin 8, Cert.Proof.Spec.clipD (∑ d : Fin 128,
          (X (ValueIdx.ix2 r d) - G (ValueIdx.ix2 r d)) * (X (ValueIdx.ix2 r d) - G (ValueIdx.ix2 r d))) := by
  funext j
  rw [idx11 j]
  unfold k1_pay1
  -- the last cast keeps the shape
  refine (congrFun (shapeCast_self _ shapeCasts_S1x1_S1x1) _).trans ?_
  -- the addition, entry by entry
  refine (ValueIdx.addf_apply _ _ _).trans (congrArg (a (ValueIdx.ix2 (0 : Fin 1) (0 : Fin 1)) + ·) ?_)
  -- the one-entry vector as a 1 × 1 block, then the sum over the eight rows
  refine (ValueIdx.shapeCast_a_1a_apply _ shapeCasts_S1_S1x1 (0 : Fin 1) (0 : Fin 1)).trans ?_
  refine (colSum_apply _ reduces_S8x1_S1 _ _ (0 : Fin 1)).trans ?_
  refine Finset.sum_congr rfl fun r _ => ?_
  -- the two clamps at row r, then the row's lane sum seen through the column cast
  show min (Ideal.ofBits .f32 0x5368D4A5#32) (max (Ideal.ofBits .f32 0x2B8CBCCC#32) _) = Cert.Proof.Spec.clipD _
  unfold Cert.Proof.Spec.clipD
  refine congrArg (fun s => min Cert.Proof.Spec.hiF (max Cert.Proof.Spec.loF s)) ?_
  refine (shapeCast_a_a1_apply _ shapeCasts_S8_S8x1 r (0 : Fin 1)).trans ?_
  refine (laneSum_apply _ reduces_S8x128_S8 _ _ r).trans ?_
  rfl

/-- The word 0x3A000000 is 2⁻¹¹, that is 1/2048. -/
theorem ofBits_inv2048 : Ideal.ofBits .f32 0x3A000000#32 = ((1 / 2048 : ℝ) : EReal) := by
  simp [Ideal.ofBits, Ideal.ieee, -EReal.coe_mul]; norm_num

/-- The block the first point starts its running sum from: zero. -/
theorem k1_pay3_eq : k1_pay3 (F := Ideal) = fun _ => (0 : EReal) := by
  funext j
  unfold k1_pay3
  refine (congrFun (shapeCast_self _ shapeCasts_S1x1_S1x1) _).trans ?_
  exact Ideal.ofBits_zero_f32

/-- What the last point stores: the running sum's entry times 1/2048. -/
theorem k1_pay2_apply (v : Vec Ideal S1x1 .f32) :
    k1_pay2 (F := Ideal) v = fun _ => v (ValueIdx.ix2 (0 : Fin 1) (0 : Fin 1)) * ((1 / 2048 : ℝ) : EReal) := by
  funext j
  rw [idx11 j]
  unfold k1_pay2
  refine (ValueIdx.mulf_apply _ _ _).trans ?_
  exact congrArg (v (ValueIdx.ix2 (0 : Fin 1) (0 : Fin 1)) * ·) ofBits_inv2048

/-! ## The blocks a point reads -/

/-- The index map of the window on x, decided over the grid: point t takes block (t, 0); and point t's one grid
    coordinate is t. -/
theorem idx_facts1 : ∀ t : Fin grid1.N, cc1_transform_0 (grid1.coords t) (0 : Fin 2) = t.val
    ∧ cc1_transform_0 (grid1.coords t) (1 : Fin 2) = 0 ∧ (grid1.coords t 0).val = t.val := by
  decide +kernel

variable (m : (ℓ : Loc nD τ sig) → Buf (Elt Ideal) ℓ)

/-- THE BLOCK OF x. The block staged at point t, at (r, d), is x at (8·t + r, d). -/
theorem xb1_apply (c : Dev nD) (t : Fin (cfgL m).N) (r : Fin 8) (d : Fin 128) (h : 8 * t.val + r.val < 2048) :
    xb1 (F := Ideal) m c t (ValueIdx.ix2 r d)
      = m ((c : Thread nD τ).loc main_arg0) (ValueIdx.ix2 (⟨8 * t.val + r.val, h⟩ : Fin 2048) d) := by
  unfold xb1
  show m ((c : Thread nD τ).loc main_arg0) ((((cfgL m).win 0).blk t).view.emb (ValueIdx.ix2 r d)) = _
  obtain ⟨e0, e1, e2⟩ := idx_facts1 t
  refine congrArg (m ((c : Thread nD τ).loc main_arg0)) ?_
  funext a; apply Fin.ext
  match a with
  | ⟨0, _⟩ =>
    show cc1_transform_0 (grid1.coords t) (0 : Fin 2) * 8 + 1 * r.val = 8 * t.val + r.val
    omega
  | ⟨1, _⟩ =>
    show cc1_transform_0 (grid1.coords t) (1 : Fin 2) * 128 + 1 * d.val = d.val
    omega

/-- THE GATHERED ROWS. At (r, d) the rows gathered at point t hold the center row that sample 8·t + r's label names, at d. -/
theorem g1_apply (c : Dev nD) (t : Fin (cfgL m).N) (r : Fin 8) (d : Fin 128) (h : 8 * t.val + r.val < 2048) :
    g1 (F := Ideal) m c t (ValueIdx.ix2 r d)
      = m ((c : Thread nD τ).loc main_arg1) (ValueIdx.ix2
          (Cert.Proof.Spec.rowOf (m ((c : Thread nD τ).loc main_arg5) (ValueIdx.ix1 (⟨8 * t.val + r.val, h⟩ : Fin 2048)))) d) := by
  obtain ⟨e0, e1, e2⟩ := idx_facts1 t
  have e2' : (grid1.coords t (0 : Fin 1)).val = t.val := e2
  have hs : (⟨(8 * (grid1.coords t (0 : Fin 1)).val + r.val) % 2048, Nat.mod_lt _ (by decide)⟩ : Fin 2048) = ⟨8 * t.val + r.val, h⟩ :=
    Fin.ext (by show (8 * (grid1.coords t (0 : Fin 1)).val + r.val) % 2048 = 8 * t.val + r.val; rw [e2']; exact Nat.mod_eq_of_lt h)
  have hd : (⟨d.val % 128, Nat.mod_lt _ (by decide)⟩ : Fin 128) = d := Fin.ext (Nat.mod_eq_of_lt d.isLt)
  unfold g1 gathRows
  show m ((c : Thread nD τ).loc main_arg1) (ValueIdx.ix2 (Cert.Proof.Spec.rowOf (m ((c : Thread nD τ).loc main_arg5)
      (ValueIdx.ix1 (⟨(8 * (grid1.coords t (0 : Fin 1)).val + r.val) % 2048, Nat.mod_lt _ (by decide)⟩ : Fin 2048))))
      (⟨d.val % 128, Nat.mod_lt _ (by decide)⟩ : Fin 128)) = _
  rw [hs, hd]

/-! ## The running sum, and the sum over all samples -/

/-- Sample s's term of the loss sum: its clamped squared distance (zero past the last sample, where it is never read). -/
def sampT (x : Cert.Proof.Spec.SX.Idx → EReal) (ctr : Cert.Proof.Spec.SC.Idx → EReal) (lab : Cert.Proof.Spec.SL.Idx → BitVec 32)
    (s : ℕ) : EReal :=
  if h : s < 2048 then Cert.Proof.Spec.clipD (Cert.Proof.Spec.rowDist x ctr lab ⟨s, h⟩) else 0

/-- ONE POINT OVER THE SAMPLES. Point t adds to the running sum the terms of its eight samples 8·t, …, 8·t + 7. -/
theorem point_eq (c : Dev nD) (t : Fin (cfgL m).N) (a : Vec Ideal S1x1 .f32) :
    k1_pay1 (F := Ideal) (xb1 (F := Ideal) m c t) (g1 (F := Ideal) m c t) a
      = fun _ => a (ValueIdx.ix2 (0 : Fin 1) (0 : Fin 1))
          + ∑ r : Fin 8, sampT (m ((c : Thread nD τ).loc main_arg0)) (m ((c : Thread nD τ).loc main_arg1))
              (m ((c : Thread nD τ).loc main_arg5)) (8 * t.val + r.val) := by
  have ht : t.val < 256 := (cfgL_N m) ▸ t.isLt
  rw [k1_pay1_apply]
  funext _
  refine congrArg (a (ValueIdx.ix2 (0 : Fin 1) (0 : Fin 1)) + ·) (Finset.sum_congr rfl fun r _ => ?_)
  have h : 8 * t.val + r.val < 2048 := by have := r.isLt; omega
  unfold sampT
  rw [dif_pos h]
  refine congrArg Cert.Proof.Spec.clipD ?_
  unfold Cert.Proof.Spec.rowDist
  refine Finset.sum_congr rfl fun d _ => ?_
  rw [xb1_apply m c t r d h, g1_apply m c t r d h]

/-- THE RUNNING SUM. After point k it is the sum of the terms of the samples of points 0, …, k. -/
theorem accA_eq (c : Dev nD) : ∀ (k : ℕ) (hk : k < (cfgL m).N),
    accA (F := Ideal) m c k hk = fun _ => ∑ t ∈ Finset.range (k + 1), ∑ r : Fin 8,
      sampT (m ((c : Thread nD τ).loc main_arg0)) (m ((c : Thread nD τ).loc main_arg1))
        (m ((c : Thread nD τ).loc main_arg5)) (8 * t + r.val)
  | 0, hk => by
    show accFirst (xb1 (F := Ideal) m c ⟨0, hk⟩) (g1 (F := Ideal) m c ⟨0, hk⟩) = _
    unfold accFirst
    rw [point_eq m c ⟨0, hk⟩, k1_pay3_eq]
    funext _
    rw [Finset.sum_range_one, zero_add]
  | k + 1, hk => by
    show accStep (xb1 (F := Ideal) m c ⟨k + 1, hk⟩) (g1 (F := Ideal) m c ⟨k + 1, hk⟩) (accA (F := Ideal) m c k (Nat.lt_of_succ_lt hk)) = _
    unfold accStep
    rw [point_eq m c ⟨k + 1, hk⟩, accA_eq c k (Nat.lt_of_succ_lt hk)]
    funext _
    rw [Finset.sum_range_succ _ (k + 1)]

/-- THE REGROUPING. Eight at a time or one at a time, the first 8·n terms have the same sum: only the order of the
    additions changes, and addition of extended reals is commutative and associative. -/
theorem sum_blocks (f : ℕ → EReal) : ∀ n : ℕ,
    ∑ t ∈ Finset.range n, ∑ r : Fin 8, f (8 * t + r.val) = ∑ s ∈ Finset.range (8 * n), f s
  | 0 => by simp
  | n + 1 => by
    rw [Finset.sum_range_succ, sum_blocks f n, show 8 * (n + 1) = 8 * n + 8 from by ring, Finset.sum_range_add,
      Fin.sum_univ_eq_sum_range (fun r => f (8 * n + r)) 8]

/-- Under labels in range, the block the last point stores holds the specification's loss of the launch memory's x,
    center table and labels. -/
theorem loss_final (hlab : LabOk (F := Ideal) m) (c : Dev nD) :
    outAt (F := Ideal) m c (tLast m)
      = (fun _ => Cert.Proof.Spec.loss (m ((c : Thread nD τ).loc main_arg0)) (m ((c : Thread nD τ).loc main_arg1))
          (m ((c : Thread nD τ).loc main_arg5))) := by
  have h254 : 254 < (cfgL m).N := by rw [cfgL_N]; decide
  -- the last point is not the first: it stores the running sum after it, times the word 2⁻¹¹
  have hout : outAt (F := Ideal) m c (tLast m)
      = outLast (xb1 (F := Ideal) m c (tLast m)) (g1 (F := Ideal) m c (tLast m)) (accA (F := Ideal) m c 254 h254) := by
    unfold outAt
    rw [dif_neg (show ¬ (tLast m).val = 0 from (by decide : ¬ (255 : ℕ) = 0))]
    rfl
  rw [hout]
  unfold outLast
  rw [point_eq m c (tLast m), accA_eq m c 254 h254, k1_pay2_apply]
  funext _
  unfold Cert.Proof.Spec.loss Cert.Proof.Spec.lossSum
  refine congrArg (· * ((1 / 2048 : ℝ) : EReal)) ?_
  -- the sum after the 256 points, regrouped sample by sample
  show (∑ t ∈ Finset.range (254 + 1), ∑ r : Fin 8, sampT _ _ _ (8 * t + r.val)) + (∑ r : Fin 8, sampT _ _ _ (8 * 255 + r.val)) = _
  rw [← Finset.sum_range_succ (fun t => ∑ r : Fin 8, sampT (m ((c : Thread nD τ).loc main_arg0)) (m ((c : Thread nD τ).loc main_arg1))
      (m ((c : Thread nD τ).loc main_arg5)) (8 * t + r.val)) (254 + 1), sum_blocks, Finset.sum_range]
  refine Finset.sum_congr rfl fun s _ => ?_
  unfold sampT
  rw [dif_pos s.isLt]

end Cert.KernelIdeal.Hand

end
-- ==== Proof.KI.Final.lean ====
/-
  The idealized kernel's run with its two results named: under labels in range it ends with the mean clamped squared
  distance in its scalar result (the last reshape of the center-loss pipeline's one-entry array), the classifier's
  output in its second result (what the classifier pipeline's write-backs leave), and its arguments as launched.
-/
import proofs.«413297_j40621800685615_1_alg».proof.Proof.KI.Run
import proofs.«413297_j40621800685615_1_alg».proof.Proof.KI.FcLoose
import proofs.«413297_j40621800685615_1_alg».proof.Proof.KI.FcValue
import proofs.«413297_j40621800685615_1_alg».proof.Proof.KI.LossValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The scalar result after the last reshape is the specification's loss. -/
theorem v4_final (hlab : LabOk (F := Ideal) m) (c : Dev nD) :
    V4' (F := Ideal) m c main_v4
      = (fun _ => Cert.Proof.Spec.loss (m ((c : Thread nD τ).loc main_arg0)) (m ((c : Thread nD τ).loc main_arg1))
          (m ((c : Thread nD τ).loc main_arg5))) := by
  have e : V3' m c (Proc.devRef .tc main_v3)
      = (fun _ => Cert.Proof.Spec.loss (m ((c : Thread nD τ).loc main_arg0)) (m ((c : Thread nD τ).loc main_arg1))
          (m ((c : Thread nD τ).loc main_arg5))) := by
    rw [show V3' m c (Proc.devRef .tc main_v3) = (dat1 m c).arrAt 1 (cfgL m).N from Function.update_self _ _ _,
      loss_arrAt, loss_final m hlab c]
    rfl
  dsimp only [V4', hostOps2]
  after_results
  rw [e]
  rfl

/-- The idealized kernel's run, its results at the specification's functions of the launch memory. -/
theorem ker_run (hlab : LabOk (F := Ideal) m) :
    θ_run (defs (F := Ideal)) (onTc (τ := τ) (main (F := Ideal))) ⟨m, fun _ => 0, ρ⟩ (fun r => ∀ c : Dev nD,
      r.2.mem ((c.tc : Thread nD τ).loc main_v4)
          = (fun _ => Cert.Proof.Spec.loss (m ((c.tc : Thread nD τ).loc main_arg0)) (m ((c.tc : Thread nD τ).loc main_arg1)) (m ((c.tc : Thread nD τ).loc main_arg5)))
      ∧ r.2.mem ((c.tc : Thread nD τ).loc main_v2)
          = (fun i => Cert.Proof.Spec.linOut (m ((c.tc : Thread nD τ).loc main_arg0)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => by
      obtain ⟨h0, h1, h2, h3, h4, h5, hv4, hv2⟩ := h c
      exact ⟨hv4.trans (v4_final m hlab c), (hv2 rfl).trans (fc_final m c), h0, h1, h2, h3, h4, h5⟩)
    (run_main (F := Ideal) m ρ (fun _ => false) hlab (fun c => (body_obligation0_loose m c).toRForget))

end Cert.KernelIdeal.Hand

end
-- ==== Proof.K.Common.lean ====
/-
  Names shared by the modules about the two kernels of this program: how a whole buffer is held, the center table
  held as one read share per transfer, the center-loss kernel's eight semaphore cells, the kinds of its grid points
  (the first zeroes the running sum, the last writes the mean out), and that a label below 100000 names a row of the
  center table.
-/
import proofs.«413297_j40621800685615_1_alg».proof.Proof.Gen.Kernel
import proofs.«413297_j40621800685615_1_alg».proof.Proof.Gen.Kernel.Skeleton
import proofs.«413297_j40621800685615_1_alg».proof.Proof.Gen.Kernel.Launch
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: the pipeline library's rounds copy beside the counters the kernel's own transfers draw on. -/
abbrev UC : Type := Pipeline.UD sig nD τ

local notation "𝕄" => MT nD τ sig Unit (Elt F) ℕ UC ℕ

/-- The contents type of memref `M`'s buffer on core `c`, and that buffer held whole at `f` at the full share. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The operands the center-loss kernel is passed beside its windows: the label table, the center table, its row
    scratch, and its running sum. -/
abbrev labM : Memref sig .tc .smem S2048 .i32 := Memref.whole main_arg5
abbrev ctrM : Memref sig .tc .hbm S100000x128 .f32 := Memref.whole main_arg1
abbrev rowsM : Memref sig .tc .vmem S8x128 .f32 := Memref.whole cc1_scratch0
abbrev accM : Memref sig .tc .vmem S1x1 .f32 := Memref.whole cc1_scratch2

/-- The center table held under the read share of cell `j`: eight rows are copied out of it at once, one copy per
    cell, and each copy borrows its own share. -/
abbrev tokPt (c : Dev nD) (j : ℕ) (f : HbBuf (F := F) c ctrM) : sProp 𝕄 :=
  ctrM.view.loc (c : Thread nD τ) ↦{Transfers.shareTokN fullShare j} f

/-- The eight read shares the copies borrow (cells 12 to 19). -/
abbrev toks (c : Dev nD) (f : HbBuf (F := F) c ctrM) : sProp 𝕄 :=
  iprop(tokPt c 12 f ∗ tokPt c 13 f ∗ tokPt c 14 f ∗ tokPt c 15 f ∗ tokPt c 16 f ∗ tokPt c 17 f ∗ tokPt c 18 f ∗ tokPt c 19 f)

/-- The kernel's own semaphore cells, and all eight counters at zero. -/
abbrev osem1 : Fin 8 → SemLoc sig := fun j =>
  (![SemLoc.dma 12, SemLoc.dma 13, SemLoc.dma 14, SemLoc.dma 15, SemLoc.dma 16, SemLoc.dma 17, SemLoc.dma 18, SemLoc.dma 19] : Fin 8 → SemLoc sig) j
abbrev sems0 (c : Dev nD) : sProp 𝕄 :=
  iprop(semVal ((c : Thread nD τ), SemLoc.dma 12) 0 ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0 ∗ semVal ((c : Thread nD τ), SemLoc.dma 17) 0
    ∗ semVal ((c : Thread nD τ), SemLoc.dma 18) 0 ∗ semVal ((c : Thread nD τ), SemLoc.dma 19) 0)

theorem ownSemFacts1 : Pipeline.OwnSemFacts spec1 osem1 := by decide

theorem ownSems01_eq (c : Dev nD) :
    (Pipeline.ownSems0 (Ix := Unit) (Name := ℕ) (U := UC) (Lvl := ℕ) (Val := Elt F) (τ := τ) osem1 c : sProp 𝕄) = sems0 c := by
  rw [Pipeline.ownSems0_eq_of_list c osem1 [0, 1, 2, 3, 4, 5, 6, 7] (by decide) (by decide)]; rfl

/-- The two conditions the center-loss kernel branches on, at grid coordinates `i`: "this is point 0" as the body
    computes it, "this is point 255" as the printed program names it. -/
abbrev IsFirst (i : grid1.Coords) : Prop := Scalar.cmpi .ne (Scalar.extui (Scalar.cmpi .eq (BitVec.ofNat 32 (i 0).val) 0#32)) 0#32 = 1#1
abbrev IsLast (i : grid1.Coords) : Prop := k1_cond2 i = 1#1

/-- A label word below 100000 names a whole row of the center table: the fact each of the sixteen label reads assumes. -/
theorem chk_of {v : BitVec 32} (h : v.toNat < 100000) :
    ∀ a : Fin 2, (![v.toNat, 0] : Fin 2 → Nat) a + S1x128.size a ≤ S100000x128.size a := by
  intro a
  match a with
  | ⟨0, _⟩ => show v.toNat + 1 ≤ 100000; omega
  | ⟨1, _⟩ => show 0 + 128 ≤ 128; omega

end Cert.Kernel.Hand

end
-- ==== Proof.K.FcBody.lean ====
/-
  The classifier kernel's body at one grid point: it loads its four staged blocks (512 rows of x, 2048 rows of the
  weight, 2048 biases, the one slope), computes PReLU(x) · wᵀ + b on the block, and stores the 512 × 2048 result block
  whole. What the result's staging buffer holds afterwards is the body's arithmetic of the four blocks as it finds them.
-/
import proofs.«413297_j40621800685615_1_alg».proof.Proof.K.Common
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The result block from the x block, the weight block, the bias block and the slope. -/
def fcOut (x0 : Vec F S512x128 .f32) (w0 : Vec F S2048x128 .f32) (b0 : Vec F S1x2048 .f32) (a0 : Vec F S1x1 .f32) : Vec F S512x2048 .f32 :=
  k0_pay1 x0 a0 w0 b0

/-- Every access of the body starts at the origin of its buffer: the offset vector `![0, 0]` is the zero function. -/
theorem fcBody_offsets_zero : (![0, 0] : Fin 2 → Nat) = fun _ => 0 :=
  funext fun a => match a with
    | ⟨0, _⟩ => rfl
    | ⟨1, _⟩ => rfl

set_option maxHeartbeats 1000000 in
/-- On whole staging memrefs, the four inputs at what they hold and the result's at anything, the body runs to the
    continuation with the inputs as they were and the result's buffer at `fcOut` of them. -/
theorem sound_fc (c : Dev nD) (E : Set ℕ) (i : grid0.Coords)
    (arg2 : Memref sig .tc .vmem S512x128 .f32) (harg2 : arg2.IsWhole) (arg3 : Memref sig .tc .vmem S2048x128 .f32) (harg3 : arg3.IsWhole)
    (arg4 : Memref sig .tc .vmem S1x2048 .f32) (harg4 : arg4.IsWhole) (arg5 : Memref sig .tc .vmem S1x1 .f32) (harg5 : arg5.IsWhole)
    (arg6 : Memref sig .tc .vmem S512x2048 .f32) (harg6 : arg6.IsWhole)
    (x0 : Vec F S512x128 .f32) (w0 : Vec F S2048x128 .f32) (b0 : Vec F S1x2048 .f32) (a0 : Vec F S1x1 .f32) (K : PUnit → sProp 𝕄) :
    iprop(owns (c : Thread nD τ) arg2 fullShare x0 ∗ owns (c : Thread nD τ) arg3 fullShare w0 ∗ owns (c : Thread nD τ) arg4 fullShare b0
        ∗ owns (c : Thread nD τ) arg5 fullShare a0 ∗ (∃ d, owns (c : Thread nD τ) arg6 fullShare d)
        ∗ (iprop(owns (c : Thread nD τ) arg2 fullShare x0 ∗ owns (c : Thread nD τ) arg3 fullShare w0 ∗ owns (c : Thread nD τ) arg4 fullShare b0
            ∗ owns (c : Thread nD τ) arg5 fullShare a0 ∗ owns (c : Thread nD τ) arg6 fullShare (fcOut x0 w0 b0 a0)) -∗ K ⟨⟩))
      ⊢ wp frame (wpE (defs₀ (F := F)) Variants.none c none) E (cc0__prelu_fc_kernel i arg2 harg2 arg3 harg3 arg4 harg4 arg5 harg5 arg6 harg6) K := by
  simp only [cc0__prelu_fc_kernel_eq_skeleton]; unfold cc0__prelu_fc_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec
  sl_step
  -- the four input buffers were only read: each is handed back with the contents it came with
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the result's buffer holds one write over its whole rectangle; what it then reads is that write's payload,
  -- and each load through a whole rectangle at the origin read its block unchanged
  iexists _; isplitr
  swap; · iexact H6
  ipureintro
  rw [View.read_writes_eq_canon _ _ _ (fun y => View.cover_of_tiled [⟨_, _⟩] S512x2048.size (by rfl) y),
    View.canon_unit_zero fcBody_offsets_zero]
  simp only [View.readAt_eq_ld]
  rw [View.ld_unit_zero (S := S512x128) fcBody_offsets_zero, View.ld_unit_zero (S := S1x1) fcBody_offsets_zero,
    View.ld_unit_zero (S := S2048x128) fcBody_offsets_zero, View.ld_unit_zero (S := S1x2048) fcBody_offsets_zero]
  unfold fcOut
  rfl

end Cert.Kernel.Hand

end
-- ==== Proof.K.FcDat.lean ====
/-
  The classifier pipeline's proof data: what each window's staging buffer holds after the body at each of the 196 grid
  points. Point t = 49·p + q works on rows 512·p … of x and on rows 2048·q … of the weight and of the bias; the last
  weight and bias blocks (q = 48) overhang their arrays by 352 rows, so their fetch is cut and the staging rows past
  the array's end hold words nothing names: the data are stated on the rows inside the array, filled out with zeros.
-/
import proofs.«413297_j40621800685615_1_alg».proof.Proof.K.FcBody
import proofs.«413297_j40621800685615_1_alg».proof.Proof.Gen.Kernel.Regions
import proofs.«413297_j40621800685615_1_alg».proof.Proof.Gen.Kernel.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UC ℕ

variable (m : (ℓ : Loc nD τ sig) → Buf (Elt F) ℓ)

/-- Core `c`'s buffers when the classifier region is entered: the launch memory after the two reshapes. -/
abbrev Ve0 (c : Dev nD) (b : Ref sig .tc) : Buf (Elt F) ((c : Thread nD τ).loc b) := V1 m c b

/-- Each input window's block at point `t`, its part inside the array, -/
def xblkP (c : Dev nD) (t : Fin cfg0.N) : (win0_0.xblock (grid0.coords t)).Idx → Elt F .f32 :=
  (win0_0.blk t).view.read (Elt F) (Ve0 m c main_arg0)
def wblkP (c : Dev nD) (t : Fin cfg0.N) : (win0_1.xblock (grid0.coords t)).Idx → Elt F .f32 :=
  (win0_1.blk t).view.read (Elt F) (Ve0 m c main_arg3)
def bblkP (c : Dev nD) (t : Fin cfg0.N) : (win0_2.xblock (grid0.coords t)).Idx → Elt F .f32 :=
  (win0_2.blk t).view.read (Elt F) (Ve0 m c main_v1)
def ablkP (c : Dev nD) (t : Fin cfg0.N) : (win0_3.xblock (grid0.coords t)).Idx → Elt F .f32 :=
  (win0_3.blk t).view.read (Elt F) (Ve0 m c main_v0)

/-- and filled out to the whole block with the zero word where the block overhangs its array. -/
def xblk (c : Dev nD) (t : Fin cfg0.N) : S512x128.Idx → Elt F .f32 :=
  win0_0.fill (grid0.coords t) (fun _ => Scalar.ofBits .f32 0#32) (xblkP m c t)
def wblk (c : Dev nD) (t : Fin cfg0.N) : S2048x128.Idx → Elt F .f32 :=
  win0_1.fill (grid0.coords t) (fun _ => Scalar.ofBits .f32 0#32) (wblkP m c t)
def bblk (c : Dev nD) (t : Fin cfg0.N) : S1x2048.Idx → Elt F .f32 :=
  win0_2.fill (grid0.coords t) (fun _ => Scalar.ofBits .f32 0#32) (bblkP m c t)
def ablk (c : Dev nD) (t : Fin cfg0.N) : S1x1.Idx → Elt F .f32 :=
  win0_3.fill (grid0.coords t) (fun _ => Scalar.ofBits .f32 0#32) (ablkP m c t)

/-- The result block the body stores at point `t`, from those four. -/
def oblk (c : Dev nD) (t : Fin cfg0.N) : S512x2048.Idx → Elt F .f32 :=
  fcOut (xblk m c t) (wblk m c t) (bblk m c t) (ablk m c t)

/-- The classifier pipeline's proof data on core `c`: the arrays as the region finds them; after the body each input's
    buffer at its block and the result's at `oblk`; the invariant the scoped buffers no window stages; nothing owed; full shares. -/
def dat0 (c : Dev nD) : Dat τ (Elt F) Unit ℕ UC ℕ cfg0 c where
  A w := Ve0 m c (Pipeline.arrRef spec0 w)
  after w t := match w with
    | ⟨0, _⟩ => xblk m c t
    | ⟨1, _⟩ => wblk m c t
    | ⟨2, _⟩ => bblk m c t
    | ⟨3, _⟩ => ablk m c t
    | ⟨4, _⟩ => oblk m c t
  Φ _ := Pipeline.scopedRest (Ix := Unit) (Name := ℕ) (U := UC) (Lvl := ℕ) (Val := Elt F) spec0 c
  q _ := fullShare
  owed _ := 0

theorem dat0_A (c : Dev nD) (w : Fin cfg0.W) : (dat0 m c).A w = Ve0 m c (Pipeline.arrRef spec0 w) := by dsimp only [dat0]
theorem dat0_after4 (c : Dev nD) (t : Fin cfg0.N) : (dat0 m c).after 4 t = oblk m c t := by dsimp only [dat0]

/-- The weight's and the bias's blocks are fetched at every point: the body finds the block just fetched on the rows
    inside the array, and `d` on the rows past its end. -/
theorem before0_1 (c : Dev nD) (t : Fin cfg0.N) (d) :
    (dat0 m c).before (1 : Fin 5) t d = win0_1.fill (grid0.coords t) d (wblkP m c t) := by
  unfold Dat.before; rw [if_pos (fetch0_1 t)]; rfl
theorem before0_2 (c : Dev nD) (t : Fin cfg0.N) (d) :
    (dat0 m c).before (2 : Fin 5) t d = win0_2.fill (grid0.coords t) d (bblkP m c t) := by
  unfold Dat.before; rw [if_pos (fetch0_2 t)]; rfl

/-- The x block and the slope tile their arrays and the body leaves them in place: at a point that does not fetch them
    the block index has not moved, so the buffer holds the point's block all the same. -/
theorem before0_0 (c : Dev nD) (t : Fin cfg0.N) (d) : (dat0 m c).before (0 : Fin 5) t d = xblk m c t :=
  ((dat0 m c).before_in_eq_fetched 0 rfl (fun _ => rfl) (fun _ _ _ => rfl)
    (fun t => win0_0.cut_fill (grid0.coords t) (fun _ => Scalar.ofBits .f32 0#32) (xblkP m c t)) t d).trans (by unfold Dat.fetched Dat.blockOf xblk; rfl)
theorem before0_3 (c : Dev nD) (t : Fin cfg0.N) (d) : (dat0 m c).before (3 : Fin 5) t d = ablk m c t :=
  ((dat0 m c).before_in_eq_fetched 3 rfl (fun _ => rfl) (fun _ _ _ => rfl)
    (fun t => win0_3.cut_fill (grid0.coords t) (fun _ => Scalar.ofBits .f32 0#32) (ablkP m c t)) t d).trans (by unfold Dat.fetched Dat.blockOf ablk; rfl)

/-- Which windows a claim that does not read the classifier's output forgets: the output's. -/
abbrev fgt0 : Fin cfg0.W → Bool := fun w => decide (w = 4)

/-- What the body is handed at point `t` when the output window is forgotten: the invariant, what the core owes, each
    input's current buffer at what the loop left there, the output's at anything; -/
def bodyPreF (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d))
    ∗ (∃ X, owns (c : Thread nD τ) (st0_4 t) fullShare X))

/-- and what it hands back: the x block and the slope as named, the weight and the bias blocks as named on the rows
    inside their arrays, the output's buffer at anything. -/
def bodyPostF (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ (∃ d, owns (c : Thread nD τ) (st0_1 t) fullShare (win0_1.fill (grid0.coords t) d (win0_1.cut (grid0.coords t) ((dat0 m c).after 1 t))))
    ∗ (∃ d, owns (c : Thread nD τ) (st0_2 t) fullShare (win0_2.fill (grid0.coords t) d (win0_2.cut (grid0.coords t) ((dat0 m c).after 2 t))))
    ∗ owns (c : Thread nD τ) (st0_3 t) fullShare ((dat0 m c).after 3 t)
    ∗ (∃ X, owns (c : Thread nD τ) (st0_4 t) fullShare X))

/-- The body at any point, the output forgotten: the four inputs' buffers hold their blocks (the weight's and the
    bias's filled out past the array's end with words nothing names), the body only reads them, and the invariant and
    what the core owes pass through unread. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  rw [show (dat0 m c).Φ t.succ = (dat0 m c).Φ t.castSucc from rfl,
    show (dat0 m c).owesAt () t.succ = (dat0 m c).owesAt () t.castSucc from rfl]
  iintro ⟨HΦ, Ho, ⟨%d0, H0⟩, ⟨%d1, H1⟩, ⟨%d2, H2⟩, ⟨%d3, H3⟩, H4⟩
  rw [before0_0 m c t d0, before0_1 m c t d1, before0_2 m c t d2, before0_3 m c t d3]
  iapply (sound_fc c Set.univ (grid0.coords t) _ _ _ _ _ _ _ _ _ _ (xblk m c t) (win0_1.fill (grid0.coords t) d1 (wblkP m c t))
    (win0_2.fill (grid0.coords t) d2 (bblkP m c t)) (ablk m c t) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]
  · iexists d1
    rw [show win0_1.cut (grid0.coords t) ((dat0 m c).after 1 t) = wblkP m c t from win0_1.cut_fill _ _ _]
    iexact H1
  isplitl [H2]
  · iexists d2
    rw [show win0_2.cut (grid0.coords t) ((dat0 m c).after 2 t) = bblkP m c t from win0_2.cut_fill _ _ _]
    iexact H2
  isplitl [H3]; · iexact H3
  iexists _; iexact H4

/-- The body obligation with the output window forgotten, at any float instance: the inputs are handed back as found
    (on the rows inside their arrays), the output's buffer at whatever the body stored. -/
theorem body_obligation0_fgt (c : Dev nD) :
    BodyObligationLoose (dat0 (F := F) m c) (defs₀ (F := F)) Variants.none () Set.univ fgt0 := fun t => by
  rw [bigSep_W0, bigSep_W0]
  exact sound_bodyF m c t

end Cert.Kernel.Hand

end
-- ==== Proof.K.LossBody.lean ====
/-
  The center-loss kernel's body at one grid point, by the point's kind.

  At a point the body reads eight labels, copies the eight rows of the center table they name into its row scratch
  (one copy per semaphore cell, all eight started before any is waited for, each waited for before the scratch is
  read), and adds to its running sum the eight clamped squared distances between the staged block of x and those rows.
  The first point zeroes the running sum before adding; the last also writes the sum times 1/2048 into the result's
  staging buffer. What the running sum and the result's buffer hold afterwards is stated as a function of the staged
  block, the label table, the center table and the running sum before.

  The one piece of content is the rows identity (`rows_eq`): a write through row j of the scratch changes row j and
  no other, so after the eight writes row r holds the r-th payload; that payload is row (label 8·i + r) of the center
  table, the label offsets being 8·i + r exactly (i < 256, so the 32-bit arithmetic does not wrap) and every label
  being below 100000. The rest is reading whole one-cell buffers back: a load of a whole buffer at offset zero reads
  its contents, and a store through the whole cell leaves its payload.
-/
import proofs.«413297_j40621800685615_1_alg».proof.Proof.K.Common
import proofs.«413297_j40621800685615_1_alg».proof.Proof.Spec
import Idealize.ShloMosaic.Lib.Writes
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UC ℕ

/-- The eight rows of the center table that the labels of block `i` name, as one 8 × 128 block: row r is the
    center row of label 8·i + r. -/
def gathRows (lab : S2048.Idx → BitVec 32) (ctr : S100000x128.Idx → Elt F .f32) (i : grid1.Coords) : Vec F S8x128 .f32 :=
  fun j => ctr (ValueIdx.ix2 (Cert.Proof.Spec.rowOf (lab (ValueIdx.ix1 (⟨(8 * (i 0).val + (j 0).val) % 2048, Nat.mod_lt _ (by decide)⟩ : Fin 2048))))
    (⟨(j 1).val % 128, Nat.mod_lt _ (by decide)⟩ : Fin 128))

/-- The running sum after a point that found it at `a`: `a` plus the eight clamped squared distances of the
    block `x0` to the rows `g`. -/
def accStep (x0 g : Vec F S8x128 .f32) (a : Vec F S1x1 .f32) : Vec F S1x1 .f32 := k1_pay1 x0 g a
/-- After the first point: the same from zero. -/
def accFirst (x0 g : Vec F S8x128 .f32) : Vec F S1x1 .f32 := k1_pay1 x0 g k1_pay3
/-- What the last point stores into the result's staging buffer: the final sum times the word 2⁻¹¹. -/
def outLast (x0 g : Vec F S8x128 .f32) (a : Vec F S1x1 .f32) : Vec F S1x1 .f32 := k1_pay2 (k1_pay1 x0 g a)

section Generic
variable {sg : RefSig} {κ : Kind} {sp : Space} {e : EltTy} {Val : EltTy → Type}

/-- The 128-vector index matched with position (0, d) of a 1 × 128 row is d. -/
theorem unsqueeze_row (h : S128.numel = (⟨2, S1x128.size⟩ : Shape).numel) (d : Fin 128) :
    (Shape.reshapeEquiv h).symm (ValueIdx.ix2 (⟨0, Nat.one_pos⟩ : Fin 1) d) = ValueIdx.ix1 d := by
  rw [Equiv.symm_apply_eq]
  exact (Shape.reshapeEquiv_eq_of_rowMajor h (by
    rw [Shape.rowMajor_val_two, Shape.rowMajor_val_one]
    show 0 * 128 + d.val = d.val
    omega)).symm

/-- Reading an 8 × 128 buffer after one unmasked write through row j, squeezed to a 128-vector: row j reads the payload, every other row what was there. -/
theorem read_write_row (M : Memref sg κ sp S8x128 e) (j : ℕ) (inb : ∀ a, (![j, 0] : Fin 2 → ℕ) a + S1x128.size a ≤ S8x128.size a)
    (hr : ∀ a, (Rect.unit (s := S8x128) ![j, 0] S1x128.size inb).stride a = 1) (hq : (Rect.unit (s := S8x128) ![j, 0] S1x128.size inb).shape.Squeezes S128)
    (f : M.view.ty.Contents Val) (w : S128.Idx → Val e) (y : S8x128.Idx) :
    M.view.read Val (((M.slice (Rect.unit (s := S8x128) ![j, 0] S1x128.size inb) hr).squeeze S128 hq).view.write Val f w Finset.univ) y
      = if (y 0).val = j then w (ValueIdx.ix1 (y 1)) else M.view.read Val f y := by
  show M.view.read Val (((M.view.slice (Rect.unit (s := S8x128) ![j, 0] S1x128.size inb)).reshape S128 hq.numel_eq).write Val f w Finset.univ) y = _
  rw [View.write_reshape_univ, ← View.writes_singleton]
  by_cases h : (y 0).val = j
  · rw [if_pos h]
    refine (View.read_writes_cons_rows_of_mem M.view f inb _ [] y (ValueIdx.ix2 (⟨0, Nat.one_pos⟩ : Fin 1) (y 1)) rfl ?_ rfl).trans ?_
    · show (y 0).val = j + 0
      omega
    · exact congrArg w (unsqueeze_row _ (y 1))
  · rw [if_neg h]
    exact View.read_writes_cons_rows_of_not_mem (W := 1) M.view f inb _ [] y rfl rfl (by omega)
end Generic

section Words
variable (c : Dev nD)

/-- A label read: the one-word load of the label table at offset n reads entry n. -/
theorem labWord_eq (lab : HbBuf (F := F) c labM) {off : Fin 1 → ℕ} (n : ℕ) (hn : n < 2048) (ho : off = ![n])
    (inb : ∀ a, off a + S1.size a ≤ S2048.size a) (x : (Rect.unit (s := S2048) off S1.size inb).toLoadRect.shape.Idx) :
    View.readAt (Elt F) labM.view (Rect.unit (s := S2048) off S1.size inb).toLoadRect lab x = lab (ValueIdx.ix1 (⟨n, hn⟩ : Fin 2048)) := by
  subst ho
  show lab _ = lab _
  congr 1
  funext a
  match a with
  | ⟨0, _⟩ =>
    apply Fin.ext
    have hx : (x 0).val < 1 := (x 0).isLt
    show n + 1 * (x 0).val = n
    omega

/-- A source row: the center table read through row w, squeezed to a 128-vector, at d is entry (w, d). -/
theorem srcRow_apply (ctr : HbBuf (F := F) c ctrM) (w : BitVec 32) (hw : w.toNat < 100000) {off : Fin 2 → ℕ} (ho : off = ![w.toNat, 0])
    (p : ∀ a, off a + S1x128.size a ≤ S100000x128.size a)
    (hr : ∀ a, (Rect.unit (s := S100000x128) off S1x128.size p).stride a = 1) (hq : (Rect.unit (s := S100000x128) off S1x128.size p).shape.Squeezes S128)
    (d : Fin 128) :
    View.read (Elt F) ((ctrM.slice (Rect.unit (s := S100000x128) off S1x128.size p) hr).squeeze S128 hq).view ctr (ValueIdx.ix1 d)
      = ctr (ValueIdx.ix2 (⟨w.toNat, hw⟩ : Fin 100000) d) := by
  subst ho
  show ctr ((Rect.unit (s := S100000x128) ![w.toNat, 0] S1x128.size p).emb (Shape.reshapeEquiv hq.numel_eq (ValueIdx.ix1 d))) = ctr _
  have hd := unsqueeze_row hq.numel_eq d
  rw [Equiv.symm_apply_eq] at hd
  rw [← hd]
  congr 1
  funext a
  match a with
  | ⟨0, _⟩ => exact Fin.ext (by show w.toNat + 1 * 0 = w.toNat; omega)
  | ⟨1, _⟩ => exact Fin.ext (by show 0 + 1 * d.val = d.val; omega)
end Words

section Landed
variable {sg : RefSig} {κ : Kind} {sp : Space} {e : EltTy} {Val : EltTy → Type}

/-- Eight rows written in turn, each through its own row of the buffer: row r of the result reads the r-th payload. -/
theorem read_landed (M : Memref sg κ sp S8x128 e) (f : M.view.ty.Contents Val) (p0 p1 p2 p3 p4 p5 p6 p7 : S128.Idx → Val e)
    (i0 : ∀ a, (![0, 0] : Fin 2 → ℕ) a + S1x128.size a ≤ S8x128.size a) (r0 : ∀ a, (Rect.unit (s := S8x128) ![0, 0] S1x128.size i0).stride a = 1) (q0 : (Rect.unit (s := S8x128) ![0, 0] S1x128.size i0).shape.Squeezes S128)
    (i1 : ∀ a, (![1, 0] : Fin 2 → ℕ) a + S1x128.size a ≤ S8x128.size a) (r1 : ∀ a, (Rect.unit (s := S8x128) ![1, 0] S1x128.size i1).stride a = 1) (q1 : (Rect.unit (s := S8x128) ![1, 0] S1x128.size i1).shape.Squeezes S128)
    (i2 : ∀ a, (![2, 0] : Fin 2 → ℕ) a + S1x128.size a ≤ S8x128.size a) (r2 : ∀ a, (Rect.unit (s := S8x128) ![2, 0] S1x128.size i2).stride a = 1) (q2 : (Rect.unit (s := S8x128) ![2, 0] S1x128.size i2).shape.Squeezes S128)
    (i3 : ∀ a, (![3, 0] : Fin 2 → ℕ) a + S1x128.size a ≤ S8x128.size a) (r3 : ∀ a, (Rect.unit (s := S8x128) ![3, 0] S1x128.size i3).stride a = 1) (q3 : (Rect.unit (s := S8x128) ![3, 0] S1x128.size i3).shape.Squeezes S128)
    (i4 : ∀ a, (![4, 0] : Fin 2 → ℕ) a + S1x128.size a ≤ S8x128.size a) (r4 : ∀ a, (Rect.unit (s := S8x128) ![4, 0] S1x128.size i4).stride a = 1) (q4 : (Rect.unit (s := S8x128) ![4, 0] S1x128.size i4).shape.Squeezes S128)
    (i5 : ∀ a, (![5, 0] : Fin 2 → ℕ) a + S1x128.size a ≤ S8x128.size a) (r5 : ∀ a, (Rect.unit (s := S8x128) ![5, 0] S1x128.size i5).stride a = 1) (q5 : (Rect.unit (s := S8x128) ![5, 0] S1x128.size i5).shape.Squeezes S128)
    (i6 : ∀ a, (![6, 0] : Fin 2 → ℕ) a + S1x128.size a ≤ S8x128.size a) (r6 : ∀ a, (Rect.unit (s := S8x128) ![6, 0] S1x128.size i6).stride a = 1) (q6 : (Rect.unit (s := S8x128) ![6, 0] S1x128.size i6).shape.Squeezes S128)
    (i7 : ∀ a, (![7, 0] : Fin 2 → ℕ) a + S1x128.size a ≤ S8x128.size a) (r7 : ∀ a, (Rect.unit (s := S8x128) ![7, 0] S1x128.size i7).stride a = 1) (q7 : (Rect.unit (s := S8x128) ![7, 0] S1x128.size i7).shape.Squeezes S128)
    (r : Fin 8) (d : Fin 128) :
    M.view.read Val
      (View.write Val ((M.slice (Rect.unit (s := S8x128) ![7, 0] S1x128.size i7) r7).squeeze S128 q7).view
      (View.write Val ((M.slice (Rect.unit (s := S8x128) ![6, 0] S1x128.size i6) r6).squeeze S128 q6).view
      (View.write Val ((M.slice (Rect.unit (s := S8x128) ![5, 0] S1x128.size i5) r5).squeeze S128 q5).view
      (View.write Val ((M.slice (Rect.unit (s := S8x128) ![4, 0] S1x128.size i4) r4).squeeze S128 q4).view
      (View.write Val ((M.slice (Rect.unit (s := S8x128) ![3, 0] S1x128.size i3) r3).squeeze S128 q3).view
      (View.write Val ((M.slice (Rect.unit (s := S8x128) ![2, 0] S1x128.size i2) r2).squeeze S128 q2).view
      (View.write Val ((M.slice (Rect.unit (s := S8x128) ![1, 0] S1x128.size i1) r1).squeeze S128 q1).view
      (View.write Val ((M.slice (Rect.unit (s := S8x128) ![0, 0] S1x128.size i0) r0).squeeze S128 q0).view
      f p0 Finset.univ) p1 Finset.univ) p2 Finset.univ) p3 Finset.univ) p4 Finset.univ) p5 Finset.univ) p6 Finset.univ) p7 Finset.univ) (ValueIdx.ix2 r d)
    = (![p0, p1, p2, p3, p4, p5, p6, p7] : Fin 8 → S128.Idx → Val e) r (ValueIdx.ix1 d) := by
  rw [read_write_row, read_write_row, read_write_row, read_write_row, read_write_row, read_write_row, read_write_row, read_write_row]
  fin_cases r <;> rfl
end Landed

section Rows
variable (c : Dev nD) (i : grid1.Coords) (lab : HbBuf (F := F) c labM) (ctr : HbBuf (F := F) c ctrM)

/-- The label word the body reads at offset `off` of the label table. -/
abbrev labRd (off : Fin 1 → ℕ) (inb : ∀ a, off a + S1.size a ≤ S2048.size a) : Elt F .i32 :=
  View.readAt (Elt F) labM.view (Rect.unit (s := S2048) off S1.size inb).toLoadRect lab (Shape.Idx.first (numel1_S1.symm ▸ Nat.one_pos))

/-- What a copy of the center row that word `w` names moves: that row as a 128-vector. -/
abbrev rowPay (w : BitVec 32) (h : w.toNat < 100000) : S128.Idx → Elt F .f32 :=
  (ReadAs.same : ReadAs (Elt F) S128 .f32 S128 .f32).apply
    (View.read (Elt F) ((ctrM.slice (Rect.unit (s := S100000x128) ![w.toNat, 0] S1x128.size (chk_of h)) (fun _ => rfl)).squeeze S128 squeezes_S1x128_S128).view ctr)

variable (hl : ∀ k, (lab k).toNat < 100000)
include hl

/-- Every label word read is an entry of the table, so below 100000. -/
theorem labRd_lt (off : Fin 1 → ℕ) (inb : ∀ a, off a + S1.size a ≤ S2048.size a) : (labRd c lab off inb).toNat < 100000 := hl _

/-- Row r of the gathered block: the copy of the row named by label 8·i + r moves, at d, the center table's entry
    (that label, d). -/
theorem row_entry (r : Fin 8) (w : BitVec 32) (h : w.toNat < 100000) (hn : 8 * (i 0).val + r.val < 2048)
    (hw : w = lab (ValueIdx.ix1 (⟨8 * (i 0).val + r.val, hn⟩ : Fin 2048))) (d : Fin 128) :
    rowPay c ctr w h (ValueIdx.ix1 d) = gathRows lab ctr i (ValueIdx.ix2 r d) := by
  refine (srcRow_apply c ctr w h rfl (chk_of h) (fun _ => rfl) squeezes_S1x128_S128 d).trans ?_
  unfold gathRows
  have e1 : (⟨(8 * (i 0).val + ((ValueIdx.ix2 r d) 0).val) % 2048, Nat.mod_lt _ (by decide)⟩ : Fin 2048) = ⟨8 * (i 0).val + r.val, hn⟩ :=
    Fin.ext (Nat.mod_eq_of_lt hn)
  have e2 : (⟨((ValueIdx.ix2 r d) 1).val % 128, Nat.mod_lt _ (by decide)⟩ : Fin 128) = d := Fin.ext (Nat.mod_eq_of_lt d.isLt)
  rw [e1, e2, ← hw]
  congr 1
  funext a
  match a with
  | ⟨0, _⟩ => exact Fin.ext (Cert.Proof.Spec.rowOf_val h).symm
  | ⟨1, _⟩ => rfl

/-- THE ROWS IDENTITY. After the eight copies have landed in the row scratch, each in its own row, the load of the
    whole scratch reads the gathered block: row r is the center row of label 8·i + r, whatever the scratch held before. -/
theorem rows_eq (fs0 : BufTy.Contents (Elt F) rowsM.view.ty) :
    View.readAt (Elt F) rowsM.view (Rect.unit (s := S8x128) ![0, 0] S8x128.size inb_S8x128_S8x128_0_0).toLoadRect
      (View.write (Elt F) ((rowsM.slice (Rect.unit (s := S8x128) ![7, 0] S1x128.size inb_S8x128_S1x128_7_0) (fun _ => rfl)).squeeze S128 squeezes_S1x128_S128).view
      (View.write (Elt F) ((rowsM.slice (Rect.unit (s := S8x128) ![6, 0] S1x128.size inb_S8x128_S1x128_6_0) (fun _ => rfl)).squeeze S128 squeezes_S1x128_S128).view
      (View.write (Elt F) ((rowsM.slice (Rect.unit (s := S8x128) ![5, 0] S1x128.size inb_S8x128_S1x128_5_0) (fun _ => rfl)).squeeze S128 squeezes_S1x128_S128).view
      (View.write (Elt F) ((rowsM.slice (Rect.unit (s := S8x128) ![4, 0] S1x128.size inb_S8x128_S1x128_4_0) (fun _ => rfl)).squeeze S128 squeezes_S1x128_S128).view
      (View.write (Elt F) ((rowsM.slice (Rect.unit (s := S8x128) ![3, 0] S1x128.size inb_S8x128_S1x128_3_0) (fun _ => rfl)).squeeze S128 squeezes_S1x128_S128).view
      (View.write (Elt F) ((rowsM.slice (Rect.unit (s := S8x128) ![2, 0] S1x128.size inb_S8x128_S1x128_2_0) (fun _ => rfl)).squeeze S128 squeezes_S1x128_S128).view
      (View.write (Elt F) ((rowsM.slice (Rect.unit (s := S8x128) ![1, 0] S1x128.size inb_S8x128_S1x128_1_0) (fun _ => rfl)).squeeze S128 squeezes_S1x128_S128).view
      (View.write (Elt F) ((rowsM.slice (Rect.unit (s := S8x128) ![0, 0] S1x128.size inb_S8x128_S1x128_0_0) (fun _ => rfl)).squeeze S128 squeezes_S1x128_S128).view
      fs0 (rowPay c ctr (labRd c lab (k1_off1 i) (k1_off1_inb i)) (labRd_lt c lab hl _ _)) Finset.univ) (rowPay c ctr (labRd c lab (k1_off3 i) (k1_off3_inb i)) (labRd_lt c lab hl _ _)) Finset.univ) (rowPay c ctr (labRd c lab (k1_off5 i) (k1_off5_inb i)) (labRd_lt c lab hl _ _)) Finset.univ) (rowPay c ctr (labRd c lab (k1_off7 i) (k1_off7_inb i)) (labRd_lt c lab hl _ _)) Finset.univ) (rowPay c ctr (labRd c lab (k1_off9 i) (k1_off9_inb i)) (labRd_lt c lab hl _ _)) Finset.univ) (rowPay c ctr (labRd c lab (k1_off11 i) (k1_off11_inb i)) (labRd_lt c lab hl _ _)) Finset.univ) (rowPay c ctr (labRd c lab (k1_off13 i) (k1_off13_inb i)) (labRd_lt c lab hl _ _)) Finset.univ) (rowPay c ctr (labRd c lab (k1_off15 i) (k1_off15_inb i)) (labRd_lt c lab hl _ _)) Finset.univ)
      = gathRows lab ctr i := by
  have hz : (![0, 0] : Fin 2 → ℕ) = fun _ => 0 := by funext a; match a with | ⟨0, _⟩ => rfl | ⟨1, _⟩ => rfl
  have hi : (i 0).val < 256 := (i 0).isLt
  rw [View.readAt_eq_ld, View.ld_unit_zero (S := S8x128) hz]
  funext y
  obtain ⟨r, d, rfl⟩ : ∃ (r : Fin 8) (d : Fin 128), y = ValueIdx.ix2 r d := ⟨y 0, y 1, ValueIdx.eq_ix2 y⟩
  rw [read_landed]
  fin_cases r
  · show rowPay c ctr (labRd c lab (k1_off1 i) (k1_off1_inb i)) (labRd_lt c lab hl _ _) (ValueIdx.ix1 d) = gathRows lab ctr i (ValueIdx.ix2 (0 : Fin 8) d)
    exact row_entry c i lab ctr hl 0 (labRd c lab (k1_off1 i) (k1_off1_inb i)) (labRd_lt c lab hl _ _) (by show 8 * (i 0).val + 0 < 2048; omega)
      (labWord_eq c lab _ _ (k1_off1_eq i) _ _) d
  · show rowPay c ctr (labRd c lab (k1_off3 i) (k1_off3_inb i)) (labRd_lt c lab hl _ _) (ValueIdx.ix1 d) = gathRows lab ctr i (ValueIdx.ix2 (1 : Fin 8) d)
    exact row_entry c i lab ctr hl 1 (labRd c lab (k1_off3 i) (k1_off3_inb i)) (labRd_lt c lab hl _ _) (by show 8 * (i 0).val + 1 < 2048; omega)
      (labWord_eq c lab _ _ (k1_off3_eq i) _ _) d
  · show rowPay c ctr (labRd c lab (k1_off5 i) (k1_off5_inb i)) (labRd_lt c lab hl _ _) (ValueIdx.ix1 d) = gathRows lab ctr i (ValueIdx.ix2 (2 : Fin 8) d)
    exact row_entry c i lab ctr hl 2 (labRd c lab (k1_off5 i) (k1_off5_inb i)) (labRd_lt c lab hl _ _) (by show 8 * (i 0).val + 2 < 2048; omega)
      (labWord_eq c lab _ _ (k1_off5_eq i) _ _) d
  · show rowPay c ctr (labRd c lab (k1_off7 i) (k1_off7_inb i)) (labRd_lt c lab hl _ _) (ValueIdx.ix1 d) = gathRows lab ctr i (ValueIdx.ix2 (3 : Fin 8) d)
    exact row_entry c i lab ctr hl 3 (labRd c lab (k1_off7 i) (k1_off7_inb i)) (labRd_lt c lab hl _ _) (by show 8 * (i 0).val + 3 < 2048; omega)
      (labWord_eq c lab _ _ (k1_off7_eq i) _ _) d
  · show rowPay c ctr (labRd c lab (k1_off9 i) (k1_off9_inb i)) (labRd_lt c lab hl _ _) (ValueIdx.ix1 d) = gathRows lab ctr i (ValueIdx.ix2 (4 : Fin 8) d)
    exact row_entry c i lab ctr hl 4 (labRd c lab (k1_off9 i) (k1_off9_inb i)) (labRd_lt c lab hl _ _) (by show 8 * (i 0).val + 4 < 2048; omega)
      (labWord_eq c lab _ _ (k1_off9_eq i) _ _) d
  · show rowPay c ctr (labRd c lab (k1_off11 i) (k1_off11_inb i)) (labRd_lt c lab hl _ _) (ValueIdx.ix1 d) = gathRows lab ctr i (ValueIdx.ix2 (5 : Fin 8) d)
    exact row_entry c i lab ctr hl 5 (labRd c lab (k1_off11 i) (k1_off11_inb i)) (labRd_lt c lab hl _ _) (by show 8 * (i 0).val + 5 < 2048; omega)
      (labWord_eq c lab _ _ (k1_off11_eq i) _ _) d
  · show rowPay c ctr (labRd c lab (k1_off13 i) (k1_off13_inb i)) (labRd_lt c lab hl _ _) (ValueIdx.ix1 d) = gathRows lab ctr i (ValueIdx.ix2 (6 : Fin 8) d)
    exact row_entry c i lab ctr hl 6 (labRd c lab (k1_off13 i) (k1_off13_inb i)) (labRd_lt c lab hl _ _) (by show 8 * (i 0).val + 6 < 2048; omega)
      (labWord_eq c lab _ _ (k1_off13_eq i) _ _) d
  · show rowPay c ctr (labRd c lab (k1_off15 i) (k1_off15_inb i)) (labRd_lt c lab hl _ _) (ValueIdx.ix1 d) = gathRows lab ctr i (ValueIdx.ix2 (7 : Fin 8) d)
    exact row_entry c i lab ctr hl 7 (labRd c lab (k1_off15 i) (k1_off15_inb i)) (labRd_lt c lab hl _ _) (by show 8 * (i 0).val + 7 < 2048; omega)
      (labWord_eq c lab _ _ (k1_off15_eq i) _ _) d
end Rows

section Covers
omit [FloatOps F] in
/-- The running sum's one cell is all of its buffer: a store through it covers every index; -/
theorem cover_acc1 (p : Vec F S1x1 .f32) (y : S1x1.Idx) :
    ∃ pc ∈ ([⟨Rect.unit (s := S1x1) ![0, 0] S1x1.size inb_S1x1_S1x1_0_0, p⟩] : List (View.Piece (Elt F) S1x1 .f32)), y ∈ pc.1.set :=
  View.cover_of_tiled _ S1x1.size (by rfl) y
omit [FloatOps F] in
/-- so do two in turn. -/
theorem cover_acc2 (p q : Vec F S1x1 .f32) (y : S1x1.Idx) :
    ∃ pc ∈ ([⟨Rect.unit (s := S1x1) ![0, 0] S1x1.size inb_S1x1_S1x1_0_0, p⟩, ⟨Rect.unit (s := S1x1) ![0, 0] S1x1.size inb_S1x1_S1x1_0_0, q⟩] :
      List (View.Piece (Elt F) S1x1 .f32)), y ∈ pc.1.set :=
  View.cover_of_tiled _ S1x1.size (by rfl) y

theorem zero2 : (![0, 0] : Fin 2 → ℕ) = fun _ => 0 := by
  funext a; match a with | ⟨0, _⟩ => rfl | ⟨1, _⟩ => rfl
end Covers

section Runs

variable (c : Dev nD) (i : grid1.Coords) (arg2 : Memref sig .tc .vmem S8x128 .f32) (harg2 : arg2.IsWhole)
  (arg4 : Memref sig .tc .vmem S1x1 .f32) (harg4 : arg4.IsWhole)
  (x0 : Vec F S8x128 .f32) (lab : HbBuf (F := F) c labM) (ctr : HbBuf (F := F) c ctrM)
  (hl : ∀ k, (lab k).toNat < 100000)
include hl

local notation "BODY" => cc1__center_loss_kernel i labM (Memref.isWhole_whole _) arg2 harg2 ctrM (Memref.isWhole_whole _) arg4 harg4
  rowsM (Memref.isWhole_whole _) cc1_scratch1 accM (Memref.isWhole_whole _)

set_option sl_exec.dmaWindow true in
set_option sl_exec.dmaWindowSet true in
set_option maxHeartbeats 4000000 in
/-- The first point: the running sum, whatever it held, ends at `accFirst`; the result's buffer (`O`) is untouched. -/
theorem run_first (hF : IsFirst i) (hL : ¬ IsLast i) (O : sProp 𝕄) (W : Waits sig Unit) (K : PUnit → sProp 𝕄) :
    iprop(owns (c : Thread nD τ) arg2 fullShare x0 ∗ O ∗ (∃ d, owns (c : Thread nD τ) rowsM fullShare d) ∗ (∃ a, owns (c : Thread nD τ) accM fullShare a)
        ∗ sems0 c ∗ toks c ctr ∗ hbPt c labM lab ∗ owes (c : Thread nD τ) 0 W
        ∗ (iprop(owns (c : Thread nD τ) arg2 fullShare x0 ∗ O ∗ (∃ d, owns (c : Thread nD τ) rowsM fullShare d)
            ∗ owns (c : Thread nD τ) accM fullShare (accFirst x0 (gathRows lab ctr i))
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, HO, ⟨%ds0, %fs0, -, HS0⟩, ⟨%a', %fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [HO]; · iexact HO
  isplitl [HS0]; · iexists _; iexists _; isplitr; swap; (· iexact HS0); ipureintro; rfl
  isplitl [Ha]
  · iexists _; isplitr; swap; (· iexact Ha); ipureintro
    have e2 : run_first.sl.v149 c i lab ctr hl fs0 = gathRows lab ctr i := rows_eq c i lab ctr hl fs0
    rw [e2]
    sl_unfold_run_names
    rw [View.read_writes_eq_canon _ _ _ (cover_acc2 _ _), View.canon_cons_unit_zero (S := S1x1) zero2, View.readCov_unit_zero (S := S1x1) _ zero2,
      View.readAt_eq_ld, harg2.read_unread, View.ld_unit_zero (S := S8x128) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

set_option sl_exec.dmaWindow true in
set_option sl_exec.dmaWindowSet true in
set_option maxHeartbeats 4000000 in
/-- A middle point: the running sum at `a` ends at `accStep … a`; the result's buffer (`O`) is untouched. -/
theorem run_mid (hF : ¬ IsFirst i) (hL : ¬ IsLast i) (a : Vec F S1x1 .f32) (O : sProp 𝕄) (W : Waits sig Unit) (K : PUnit → sProp 𝕄) :
    iprop(owns (c : Thread nD τ) arg2 fullShare x0 ∗ O ∗ (∃ d, owns (c : Thread nD τ) rowsM fullShare d) ∗ owns (c : Thread nD τ) accM fullShare a
        ∗ sems0 c ∗ toks c ctr ∗ hbPt c labM lab ∗ owes (c : Thread nD τ) 0 W
        ∗ (iprop(owns (c : Thread nD τ) arg2 fullShare x0 ∗ O ∗ (∃ d, owns (c : Thread nD τ) rowsM fullShare d)
            ∗ owns (c : Thread nD τ) accM fullShare (accStep x0 (gathRows lab ctr i) a)
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, HO, ⟨%ds0, %fs0, -, HS0⟩, ⟨%fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [HO]; · iexact HO
  isplitl [HS0]; · iexists _; iexists _; isplitr; swap; (· iexact HS0); ipureintro; rfl
  isplitl [Ha]
  · iexists _; isplitr; swap; (· iexact Ha); ipureintro
    have e2 : run_mid.sl.v149 c i lab ctr hl fs0 = gathRows lab ctr i := rows_eq c i lab ctr hl fs0
    rw [View.read_writes_eq_canon _ _ _ (cover_acc1 _), View.canon_unit_zero (S := S1x1) zero2, e2]
    sl_unfold_run_names
    rw [View.readAt_eq_ld, View.readAt_eq_ld, harg2.read_unread, hfa, View.ld_unit_zero (S := S8x128) zero2, View.ld_unit_zero (S := S1x1) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

set_option sl_exec.dmaWindow true in
set_option sl_exec.dmaWindowSet true in
set_option maxHeartbeats 4000000 in
/-- The last point: the running sum at `a` ends at `accStep … a` and the result's staging buffer at `outLast … a`. -/
theorem run_last (hF : ¬ IsFirst i) (hL : IsLast i) (a : Vec F S1x1 .f32) (W : Waits sig Unit) (K : PUnit → sProp 𝕄) :
    iprop(owns (c : Thread nD τ) arg2 fullShare x0 ∗ (∃ d, owns (c : Thread nD τ) arg4 fullShare d) ∗ (∃ d, owns (c : Thread nD τ) rowsM fullShare d)
        ∗ owns (c : Thread nD τ) accM fullShare a
        ∗ sems0 c ∗ toks c ctr ∗ hbPt c labM lab ∗ owes (c : Thread nD τ) 0 W
        ∗ (iprop(owns (c : Thread nD τ) arg2 fullShare x0 ∗ owns (c : Thread nD τ) arg4 fullShare (outLast x0 (gathRows lab ctr i) a)
            ∗ (∃ d, owns (c : Thread nD τ) rowsM fullShare d)
            ∗ owns (c : Thread nD τ) accM fullShare (accStep x0 (gathRows lab ctr i) a)
            ∗ sems0 c ∗ toks c ctr ∗ hbPt c labM lab ∗ ∃ W', owes (c : Thread nD τ) 0 W') -∗ K ⟨⟩))
      ⊢ wp frame (wpE (defs₀ (F := F)) Variants.none c none) Set.univ BODY K := by
  simp only [cc1__center_loss_kernel_eq_skeleton]; unfold cc1__center_loss_kernel_skel
  unfold owns
  iintro ⟨⟨%f0, %hf0, H0⟩, ⟨%d4, %f4, %hf4, H4⟩, ⟨%ds0, %fs0, -, HS0⟩, ⟨%fa, %hfa, Ha⟩, ⟨Hq0, Hq1, Hq2, Hq3, Hq4, Hq5, Hq6, Hq7⟩, ⟨Ht0, Ht1, Ht2, Ht3, Ht4, Ht5, Ht6, Ht7⟩, Hlab, HW, Hk⟩
  obtain rfl := harg2.eq_unread hf0
  sl_exec (disch := first | assumption | (refine chk_of ?_; exact hl _))
  sl_step
  iapply Hk
  isplitl [H0]; · iexists _; isplitr; (· ipureintro; exact hf0); iexact H0
  isplitl [H4]
  · iexists _; isplitr; swap; (· iexact H4); ipureintro
    have e2 : run_last.sl.v149 c i lab ctr hl fs0 = gathRows lab ctr i := rows_eq c i lab ctr hl fs0
    unfold run_last.sl.v168 run_last.sl.Ha_1
    rw [e2, View.read_writes_eq_canon _ _ _ (cover_acc1 _), View.canon_unit_zero (S := S1x1) zero2, View.readCov_unit_zero (S := S1x1) _ zero2]
    sl_unfold_run_names
    rw [View.readAt_eq_ld, View.readAt_eq_ld, harg2.read_unread, hfa, View.ld_unit_zero (S := S8x128) zero2, View.ld_unit_zero (S := S1x1) zero2]
    rfl
  isplitl [HS0]; · iexists _; iexists _; isplitr; swap; (· iexact HS0); ipureintro; rfl
  isplitl [Ha]
  · iexists _; isplitr; swap; (· iexact Ha); ipureintro
    have e2 : run_last.sl.v149 c i lab ctr hl fs0 = gathRows lab ctr i := rows_eq c i lab ctr hl fs0
    unfold run_last.sl.Ha_1
    rw [e2, View.read_writes_eq_canon _ _ _ (cover_acc1 _), View.canon_unit_zero (S := S1x1) zero2]
    sl_unfold_run_names
    rw [View.readAt_eq_ld, View.readAt_eq_ld, harg2.read_unread, hfa, View.ld_unit_zero (S := S8x128) zero2, View.ld_unit_zero (S := S1x1) zero2]
    rfl
  isplitl [Hq0 Hq1 Hq2 Hq3 Hq4 Hq5 Hq6 Hq7]
  · isplitl [Hq0]; (· iexact Hq0); isplitl [Hq1]; (· iexact Hq1); isplitl [Hq2]; (· iexact Hq2); isplitl [Hq3]; (· iexact Hq3)
    isplitl [Hq4]; (· iexact Hq4); isplitl [Hq5]; (· iexact Hq5); isplitl [Hq6]; (· iexact Hq6); iexact Hq7
  isplitl [Ht0 Ht1 Ht2 Ht3 Ht4 Ht5 Ht6 Ht7]
  · isplitl [Ht0]; (· iexact Ht0); isplitl [Ht1]; (· iexact Ht1); isplitl [Ht2]; (· iexact Ht2); isplitl [Ht3]; (· iexact Ht3)
    isplitl [Ht4]; (· iexact Ht4); isplitl [Ht5]; (· iexact Ht5); isplitl [Ht6]; (· iexact Ht6); iexact Ht7
  isplitl [Hlab]; · iexact Hlab
  iexists _; iexact HW

end Runs

end Cert.Kernel.Hand

end
-- ==== Proof.K.LossDat.lean ====
/-
  The center-loss pipeline's proof data. Its 256 grid points each take eight samples; the kernel carries a running sum
  of clamped squared distances in a scratch cell across the points, so the invariant before point k names that cell's
  contents: anything before point 0 (which zeroes it), else the sum over the points below k. The result's window is
  idle at every point but the last, where the body stores the sum times 1/2048 and the pipeline writes it back.
  Beside the running sum the invariant carries what the body uses and hands back unchanged: its row scratch, its eight
  semaphore cells at zero, the center table (left in HBM, read by the body's own copies) and the label table.
-/
import proofs.«413297_j40621800685615_1_alg».proof.Proof.K.LossBody
import proofs.«413297_j40621800685615_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UC ℕ

variable (m : (ℓ : Loc nD τ sig) → Buf (Elt F) ℓ)

/-- The label table and the center table as launched on core `c`. -/
abbrev labOf (c : Dev nD) : HbBuf (F := F) c labM := m ((c : Thread nD τ).loc main_arg5)
abbrev ctrOf (c : Dev nD) : HbBuf (F := F) c ctrM := m ((c : Thread nD τ).loc main_arg1)

/-- The prefetched table's contents the pipeline is pinned at: the labels as launched (the mesh has one device). -/
def adm1 : (pcfg1 (F := F)).Adm :=
  ⟨fun | 0 => m (((0 : Dev nD) : Thread nD τ).loc main_arg5) | ⟨_ + 1, h⟩ => absurd h (Nat.not_lt.2 (Nat.le_add_left _ _)), trivial⟩

/-- The center-loss pipeline at those contents. -/
abbrev cfgL : Pipeline.Cfg sig Λ₀ := cfg1 (adm1 m)

/-- The block of x staged at point `t` (rows 8·t … 8·t + 7), and the center rows its eight labels name. -/
def xb1 (c : Dev nD) (t : Fin (cfgL m).N) : Vec F S8x128 .f32 :=
  (((cfgL m).win 0).blk t).view.read (Elt F) (m ((c : Thread nD τ).loc main_arg0))
def g1 (c : Dev nD) (t : Fin (cfgL m).N) : Vec F S8x128 .f32 :=
  gathRows (labOf m c) (ctrOf m c) ((cfgL m).grid.coords t)

/-- The running sum after point `k`: from zero at point 0, then one `accStep` per point. -/
def accA (c : Dev nD) : (k : ℕ) → k < (cfgL m).N → Vec F S1x1 .f32
  | 0, hk => accFirst (xb1 m c ⟨0, hk⟩) (g1 m c ⟨0, hk⟩)
  | k + 1, hk => accStep (xb1 m c ⟨k + 1, hk⟩) (g1 m c ⟨k + 1, hk⟩) (accA c k (Nat.lt_of_succ_lt hk))

/-- The running sum's cell before point `k`: anything before point 0, else what the point before left. -/
def accPart (c : Dev nD) (k : Fin ((cfgL m).N + 1)) : sProp 𝕄 :=
  if h : k.val = 0 then iprop(∃ a, owns (c : Thread nD τ) accM fullShare a)
  else iprop(owns (c : Thread nD τ) accM fullShare (accA m c (k.val - 1) (by have := k.isLt; omega)))

/-- The scoped buffers of the core that are neither this pipeline's staging buffers nor its two scratch buffers:
    the classifier pipeline's nine staging buffers, each at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The invariant before point `k`. -/
def ΦL (c : Dev nD) (k : Fin ((cfgL m).N + 1)) : sProp 𝕄 :=
  iprop(accPart m c k ∗ (∃ d, owns (c : Thread nD τ) rowsM fullShare d) ∗ sems0 c
    ∗ hbPt c ctrM (ctrOf m c) ∗ hbPt c labM (labOf m c) ∗ otherStaging c)

/-- What the last point stores into the result's staging buffer; at the other points the window is idle and this is
    not read. -/
def outAt (c : Dev nD) (t : Fin (cfgL m).N) : Vec F S1x1 .f32 :=
  if h : t.val = 0 then k1_pay3
  else outLast (xb1 m c t) (g1 m c t) (accA m c (t.val - 1) (by have := t.isLt; omega))

/-- The center-loss pipeline's proof data on core `c`. -/
def dat1 (c : Dev nD) : Dat τ (Elt F) Unit ℕ UC ℕ (cfgL m) c where
  A w := m ((c : Thread nD τ).loc (Pipeline.arrRef spec1 w))
  after w t := match w with
    | ⟨0, _⟩ => xb1 m c t
    | ⟨1, _⟩ => outAt m c t
  Φ k := ΦL m c k
  q _ := fullShare
  owed _ := 0

theorem dat1_A (c : Dev nD) (w : Fin (cfgL m).W) : (dat1 m c).A w = m ((c : Thread nD τ).loc (Pipeline.arrRef spec1 w)) := by
  dsimp only [dat1]

/-- Every label of the launch memory is below 100000: the hypothesis the body's sixteen label reads need. -/
abbrev LabOk : Prop := ∀ (c : Dev nD) (k : S2048.Idx), (labOf m c k).toNat < 100000

/-! ## The kinds of point, and the schedule, over the 256 points -/

theorem isFirstL_iff : ∀ t : Fin grid1.N, IsFirst (grid1.coords t) ↔ t.val = 0 :=
  (by decide +kernel : ∀ t : Fin grid1.N, (Scalar.cmpi .ne (Scalar.extui (Scalar.cmpi .eq (BitVec.ofNat 32 ((grid1.coords t) 0).val) 0#32)) 0#32 = 1#1) ↔ t.val = 0)
theorem isLastL_iff : ∀ t : Fin grid1.N, IsLast (grid1.coords t) ↔ t.val = 255 :=
  (by decide +kernel : ∀ t : Fin grid1.N, k1_cond2 (grid1.coords t) = 1#1 ↔ t.val = 255)

section Sched
variable (a : (pcfg1 (F := F)).Adm)

/-- The block of x moves at every point: it is fetched at every point. -/
theorem fetchL_0 : ∀ t : Fin (cfg1 a).N, ((cfg1 a).win 0).fetch t = true :=
  (by decide +kernel : ∀ t : Fin grid1.N,
    (!false && (decide (t.val = 0) || decide (∃ h : 0 < t.val, cc1_transform_0 (grid1.coords t) ≠ cc1_transform_0 (grid1.coords ⟨t.val - 1, by omega⟩)))) = true)

/-- The result's one block never moves: it is written back at the last point only. -/
theorem flushL_1 : ∀ t : Fin (cfg1 a).N, ((cfg1 a).win 1).flush t = true ↔ t.val = 255 :=
  (by decide +kernel : ∀ t : Fin grid1.N,
    (true && (decide (t.val + 1 = grid1.N) || decide (∃ h : t.val + 1 < grid1.N, cc1_transform_2 (grid1.coords ⟨t.val + 1, h⟩) ≠ cc1_transform_2 (grid1.coords t)))) = true ↔ t.val = 255)

end Sched

/-! ## The center table as eight read shares and a remainder -/

/-- What of the center table the eight copies do not borrow: the remainder after twenty read shares are split off,
    and shares 0 to 11. It rides along a point untouched. -/
def ctrRest (c : Dev nD) (f : HbBuf (F := F) c ctrM) : sProp 𝕄 :=
  iprop((ctrM.view.loc (c : Thread nD τ) ↦{Transfers.shareDrop fullShare 20} f)
    ∗ tokPt c 0 f ∗ tokPt c 1 f ∗ tokPt c 2 f ∗ tokPt c 3 f ∗ tokPt c 4 f ∗ tokPt c 5 f ∗ tokPt c 6 f ∗ tokPt c 7 f ∗ tokPt c 8 f ∗ tokPt c 9 f ∗ tokPt c 10 f ∗ tokPt c 11 f)

/-- The twenty read shares one by one. -/
theorem ctrTok_chain (c : Dev nD) (f : HbBuf (F := F) c ctrM) :
    BI.bigSep (Finset.range 20) (fun i => (ctrM.view.loc (c : Thread nD τ) ↦{Transfers.shareTokN fullShare i} f : sProp 𝕄))
      = iprop(tokPt c 0 f ∗ tokPt c 1 f ∗ tokPt c 2 f ∗ tokPt c 3 f ∗ tokPt c 4 f ∗ tokPt c 5 f ∗ tokPt c 6 f ∗ tokPt c 7 f ∗ tokPt c 8 f ∗ tokPt c 9 f ∗ tokPt c 10 f ∗ tokPt c 11 f ∗ tokPt c 12 f ∗ tokPt c 13 f ∗ tokPt c 14 f ∗ tokPt c 15 f ∗ tokPt c 16 f ∗ tokPt c 17 f ∗ tokPt c 18 f ∗ tokPt c 19 f) :=
  BI.bigSep_eq_bigSepL_of_eq [0, 1, 2, 3, 4, 5, 6, 7, 8, 9, 10, 11, 12, 13, 14, 15, 16, 17, 18, 19] (by decide) (by decide) _

/-- The table held whole splits into the remainder and the eight shares, -/
theorem ctrL_split (c : Dev nD) (f : HbBuf (F := F) c ctrM) : hbPt c ctrM f ⊢ iprop(ctrRest c f ∗ toks c f) := by
  refine (Transfers.pointsTo_toks_range fullShare 20).1.trans ?_
  rw [ctrTok_chain]; unfold ctrRest toks
  iintro ⟨Hd, H0, H1, H2, H3, H4, H5, H6, H7, H8, H9, H10, H11, H12, H13, H14, H15, H16, H17, H18, H19⟩
  isplitl [Hd H0 H1 H2 H3 H4 H5 H6 H7 H8 H9 H10 H11]
  · iframe
  · iframe

/-- and these join back into the table held whole. -/
theorem ctrL_join (c : Dev nD) (f : HbBuf (F := F) c ctrM) : iprop(ctrRest c f ∗ toks c f) ⊢ hbPt c ctrM f := by
  refine BIBase.Entails.trans ?_ (Transfers.pointsTo_toks_range fullShare 20).2
  rw [ctrTok_chain]; unfold ctrRest toks
  iintro ⟨⟨Hd, H0, H1, H2, H3, H4, H5, H6, H7, H8, H9, H10, H11⟩, H12, H13, H14, H15, H16, H17, H18, H19⟩
  iframe

/-! ## The windows at a point -/

/-- The result's window is idle except at the last point, and written back exactly there; x's window is never idle. -/
theorem idleL_of_last (t : Fin (cfgL m).N) (h : IsLast (grid1.coords t)) : (cfgL m).idle (1 : Fin 2) ((cfgL m).grid.coords t) = false := by
  show (!(k1_cond2 (grid1.coords t) == 1#1)) = false; rw [show (k1_cond2 (grid1.coords t) == 1#1) = true from beq_iff_eq.mpr h]; rfl
theorem idleL_of_not_last (t : Fin (cfgL m).N) (h : ¬ IsLast (grid1.coords t)) : (cfgL m).idle (1 : Fin 2) ((cfgL m).grid.coords t) = true := by
  show (!(k1_cond2 (grid1.coords t) == 1#1)) = true; rw [show (k1_cond2 (grid1.coords t) == 1#1) = false from beq_eq_false_iff_ne.mpr h]; rfl
theorem idleL_0 (t : Fin (cfgL m).N) : (cfgL m).idle (0 : Fin 2) ((cfgL m).grid.coords t) = false := rfl
theorem flushL_of_last (t : Fin (cfgL m).N) (h : IsLast (grid1.coords t)) : ((cfgL m).win (1 : Fin 2)).flush t = true :=
  (flushL_1 (adm1 m) t).mpr ((isLastL_iff t).mp h)
theorem flushL_of_not_last (t : Fin (cfgL m).N) (h : ¬ IsLast (grid1.coords t)) : ((cfgL m).win (1 : Fin 2)).flush t = false :=
  Bool.eq_false_iff.mpr fun hf => h ((isLastL_iff t).mpr ((flushL_1 (adm1 m) t).mp hf))

/-- What x's staging buffer holds at a point (its block, just fetched) and what the body leaves in each buffer. -/
theorem beforeL_0 (c : Dev nD) (t : Fin (cfgL m).N) (d) : (dat1 m c).before (0 : Fin 2) t d = xb1 m c t := by
  rw [(dat1 m c).before_fetched (0 : Fin 2) t (fetchL_0 (adm1 m) t)]; unfold Dat.fetched Dat.blockOf; dsimp only [dat1]; rfl
theorem afterL_0 (c : Dev nD) (t : Fin (cfgL m).N) : (dat1 m c).after (0 : Fin 2) t = xb1 m c t := by dsimp only [dat1]
theorem afterL_1 (c : Dev nD) (t : Fin (cfgL m).N) : (dat1 m c).after (1 : Fin 2) t = outAt m c t := by dsimp only [dat1]

/-! ## The running sum, point by point -/

theorem accA_first (c : Dev nD) (t : Fin (cfgL m).N) (h : t.val = 0) : accA m c t.val t.isLt = accFirst (xb1 m c t) (g1 m c t) := by
  obtain ⟨k, hk⟩ := t
  cases k with
  | zero => rfl
  | succ k => exact absurd h (Nat.succ_ne_zero k)

theorem accA_step (c : Dev nD) (t : Fin (cfgL m).N) (h : t.val ≠ 0) (hp : t.val - 1 < (cfgL m).N) :
    accA m c t.val t.isLt = accStep (xb1 m c t) (g1 m c t) (accA m c (t.val - 1) hp) := by
  obtain ⟨k, hk⟩ := t
  cases k with
  | zero => exact absurd rfl h
  | succ k => rfl

/-- The running sum before a point that is not the first: what the point before left. -/
abbrev accB (c : Dev nD) (t : Fin (cfgL m).N) : Vec F S1x1 .f32 :=
  accA m c (t.val - 1) (by have := t.isLt; omega)

/-! ## The invariant before and after a point -/

/-- What the invariant holds beside the running sum. -/
abbrev restL (c : Dev nD) : sProp 𝕄 :=
  iprop((∃ d, owns (c : Thread nD τ) rowsM fullShare d) ∗ sems0 c ∗ hbPt c ctrM (ctrOf m c) ∗ hbPt c labM (labOf m c) ∗ otherStaging c)

theorem ΦL_pre_first (c : Dev nD) (t : Fin (cfgL m).N) (h : t.val = 0) :
    (dat1 m c).Φ t.castSucc = iprop((∃ a, owns (c : Thread nD τ) accM fullShare a) ∗ restL m c) := by
  show ΦL m c _ = _; unfold ΦL accPart; rw [dif_pos (by exact h)]
theorem ΦL_pre_other (c : Dev nD) (t : Fin (cfgL m).N) (h : t.val ≠ 0) :
    (dat1 m c).Φ t.castSucc = iprop(owns (c : Thread nD τ) accM fullShare (accB m c t) ∗ restL m c) := by
  show ΦL m c _ = _; unfold ΦL accPart; rw [dif_neg (by exact h)]; rfl
theorem ΦL_post (c : Dev nD) (t : Fin (cfgL m).N) :
    (dat1 m c).Φ t.succ = iprop(owns (c : Thread nD τ) accM fullShare (accA m c t.val t.isLt) ∗ restL m c) := by
  show ΦL m c _ = _; unfold ΦL accPart; rw [dif_neg (by show ¬ (t.val + 1 = 0); omega)]; rfl

theorem owesAtL_intro (c : Dev nD) (t : Fin ((cfgL m).N + 1)) (W' : Waits sig Unit) :
    owes (c : Thread nD τ) 0 W' ⊢ ((dat1 m c).owesAt () t : sProp 𝕄) := by
  unfold Dat.owesAt Pipeline.owesWithin
  rw [show (dat1 m c).owed t = 0 from rfl]
  iintro HO; iexists W'; isplitr; · ipureintro; exact fun _ _ => Or.inl trivial
  iexact HO

/-! ## The body obligation -/

/-- The body obligation at every point, under labels in range: by the point's kind, the run of that kind between the
    invariant's two forms, the center table lent to it as eight read shares and joined back after; the result's staging
    buffer passed through at a point that leaves it alone, at what the body stored at the last point. -/
theorem body_obligation1 (hlab : LabOk m) (c : Dev nD) :
    BodyObligation (dat1 (F := F) m c) (defs₀ (F := F)) Variants.none () Set.univ := fun t => by
  rw [bigSep_W1, bigSep_W1]
  unfold Dat.owesAt Pipeline.owesWithin
  rw [show (dat1 m c).owed t.castSucc = 0 from rfl]
  have hN : (cfgL m).N = 256 := N_1
  by_cases hL : IsLast (grid1.coords t)
  · -- the last point: not the first
    have h255 : t.val = 255 := (isLastL_iff t).mp hL
    have hF : ¬ IsFirst (grid1.coords t) := fun h => by have := (isFirstL_iff t).mp h; omega
    rw [idleL_of_last m t hL]
    simp only [idleL_0, beforeL_0, afterL_0, afterL_1]
    rw [ΦL_pre_other m c t (by omega), ΦL_post m c t, accA_step m c t (by omega) (by have := t.isLt; omega),
      show outAt m c t = outLast (xb1 m c t) (g1 m c t) (accB m c t) from dif_neg (by omega)]
    iintro ⟨⟨Ha, Hrows, Hsems, Hctr, Hlab, Hoth⟩, ⟨%Wt, %hW, HO⟩, ⟨%d0, H0⟩, ⟨%d1, H1⟩⟩
    ihave Hc := (ctrL_split c (ctrOf m c)) $$ Hctr
    icases Hc with ⟨Hrest, Htoks⟩
    iapply (run_last c (grid1.coords t) (spec1_0.stage ((cfgL m).slots t 0)) (hstage1_0 (((cfgL m).slots t 0).cast nbuf1_0))
      (spec1_1.stage ((cfgL m).slots t 1)) (hstage1_1 (((cfgL m).slots t 1).cast nbuf1_1)) (xb1 m c t) (labOf m c) (ctrOf m c) (hlab c) hF hL (accB m c t) Wt _)
    isplitl [H0]; · iexact H0
    isplitl [H1]; · iexists _; iexact H1
    isplitl [Hrows]; · iexact Hrows
    isplitl [Ha]; · iexact Ha
    isplitl [Hsems]; · iexact Hsems
    isplitl [Htoks]; · iexact Htoks
    isplitl [Hlab]; · iexact Hlab
    isplitl [HO]; · iexact HO
    iintro ⟨H0, H1, Hrows, Ha, Hsems, Htoks, Hlab, ⟨%W', HO⟩⟩
    ihave Hctr := (ctrL_join c (ctrOf m c)) $$ [Hrest Htoks]
    · isplitl [Hrest]; · iexact Hrest
      iexact Htoks
    isplitl [Ha Hrows Hsems Hctr Hlab Hoth]
    · isplitl [Ha]; · iexact Ha
      isplitl [Hrows]; · iexact Hrows
      isplitl [Hsems]; · iexact Hsems
      isplitl [Hctr]; · iexact Hctr
      isplitl [Hlab]; · iexact Hlab
      iexact Hoth
    isplitl [HO]; · iapply (owesAtL_intro m c); iexact HO
    isplitl [H0]; · iexact H0
    iexact H1
  · rw [idleL_of_not_last m t hL, flushL_of_not_last m t hL]
    simp only [idleL_0, beforeL_0, afterL_0]
    have hn255 : t.val ≠ 255 := fun h => hL ((isLastL_iff t).mpr h)
    by_cases hF : IsFirst (grid1.coords t)
    · -- the first point
      have h0 : t.val = 0 := (isFirstL_iff t).mp hF
      rw [ΦL_pre_first m c t h0, ΦL_post m c t, accA_first m c t h0]
      iintro ⟨⟨Ha, Hrows, Hsems, Hctr, Hlab, Hoth⟩, ⟨%Wt, %hW, HO⟩, ⟨%d0, H0⟩, H1⟩
      ihave Hc := (ctrL_split c (ctrOf m c)) $$ Hctr
      icases Hc with ⟨Hrest, Htoks⟩
      iapply (run_first c (grid1.coords t) (spec1_0.stage ((cfgL m).slots t 0)) (hstage1_0 (((cfgL m).slots t 0).cast nbuf1_0))
        (spec1_1.stage ((cfgL m).slots t 1)) (hstage1_1 (((cfgL m).slots t 1).cast nbuf1_1)) (xb1 m c t) (labOf m c) (ctrOf m c) (hlab c) hF hL _ Wt _)
      isplitl [H0]; · iexact H0
      isplitl [H1]; · iexact H1
      isplitl [Hrows]; · iexact Hrows
      isplitl [Ha]; · iexact Ha
      isplitl [Hsems]; · iexact Hsems
      isplitl [Htoks]; · iexact Htoks
      isplitl [Hlab]; · iexact Hlab
      isplitl [HO]; · iexact HO
      iintro ⟨H0, H1, Hrows, Ha, Hsems, Htoks, Hlab, ⟨%W', HO⟩⟩
      ihave Hctr := (ctrL_join c (ctrOf m c)) $$ [Hrest Htoks]
      · isplitl [Hrest]; · iexact Hrest
        iexact Htoks
      isplitl [Ha Hrows Hsems Hctr Hlab Hoth]
      · isplitl [Ha]; · iexact Ha
        isplitl [Hrows]; · iexact Hrows
        isplitl [Hsems]; · iexact Hsems
        isplitl [Hctr]; · iexact Hctr
        isplitl [Hlab]; · iexact Hlab
        iexact Hoth
      isplitl [HO]; · iapply (owesAtL_intro m c); iexact HO
      isplitl [H0]; · iexact H0
      iexact H1
    · -- a middle point
      have h0 : t.val ≠ 0 := fun h => hF ((isFirstL_iff t).mpr h)
      rw [ΦL_pre_other m c t h0, ΦL_post m c t, accA_step m c t h0 (by have := t.isLt; omega)]
      iintro ⟨⟨Ha, Hrows, Hsems, Hctr, Hlab, Hoth⟩, ⟨%Wt, %hW, HO⟩, ⟨%d0, H0⟩, H1⟩
      ihave Hc := (ctrL_split c (ctrOf m c)) $$ Hctr
      icases Hc with ⟨Hrest, Htoks⟩
      iapply (run_mid c (grid1.coords t) (spec1_0.stage ((cfgL m).slots t 0)) (hstage1_0 (((cfgL m).slots t 0).cast nbuf1_0))
        (spec1_1.stage ((cfgL m).slots t 1)) (hstage1_1 (((cfgL m).slots t 1).cast nbuf1_1)) (xb1 m c t) (labOf m c) (ctrOf m c) (hlab c) hF hL (accB m c t) _ Wt _)
      isplitl [H0]; · iexact H0
      isplitl [H1]; · iexact H1
      isplitl [Hrows]; · iexact Hrows
      isplitl [Ha]; · iexact Ha
      isplitl [Hsems]; · iexact Hsems
      isplitl [Htoks]; · iexact Htoks
      isplitl [Hlab]; · iexact Hlab
      isplitl [HO]; · iexact HO
      iintro ⟨H0, H1, Hrows, Ha, Hsems, Htoks, Hlab, ⟨%W', HO⟩⟩
      ihave Hctr := (ctrL_join c (ctrOf m c)) $$ [Hrest Htoks]
      · isplitl [Hrest]; · iexact Hrest
        iexact Htoks
      isplitl [Ha Hrows Hsems Hctr Hlab Hoth]
      · isplitl [Ha]; · iexact Ha
        isplitl [Hrows]; · iexact Hrows
        isplitl [Hsems]; · iexact Hsems
        isplitl [Hctr]; · iexact Hctr
        isplitl [Hlab]; · iexact Hlab
        iexact Hoth
      isplitl [HO]; · iapply (owesAtL_intro m c); iexact HO
      isplitl [H0]; · iexact H0
      iexact H1

/-- What enters the invariant at the first point beside the tables and the scoped buffers: the eight cells at zero
    and the center table; -/
abbrev XL (c : Dev nD) : sProp 𝕄 := iprop(sems0 c ∗ hbPt c ctrM (ctrOf m c))
/-- and what the invariant gives back at the end beside the cells and the scoped buffers: the center table and the
    label table. -/
abbrev YL (c : Dev nD) : sProp 𝕄 := iprop(hbPt c ctrM (ctrOf m c) ∗ hbPt c labM (labOf m c))

/-! ## Into the invariant at the first point, and out of it after the last -/

theorem accPart_zero (c : Dev nD) : accPart m c 0 = iprop(∃ a, owns (c : Thread nD τ) accM fullShare a) := by
  unfold accPart; exact dif_pos rfl

omit m in
/-- A whole buffer owned at some contents is its points-to at some contents. -/
theorem wholeL_forget (c : Dev nD) (b : Ref sig .tc) (d : b.ty.Contents (Elt F)) :
    (owns (c : Thread nD τ) (Memref.whole b) fullShare d : sProp 𝕄)
      ⊢ iprop(∃ f : Buf (Elt F) ((c : Thread nD τ).loc b), ((c : Thread nD τ).loc b) ↦{fullShare} f) := by
  rw [owns_whole]; iintro H; iexists _; iexact H

/-- Whatever the point, the running sum's cell is held whole at some contents. -/
theorem accPart_forget (c : Dev nD) (k : Fin ((cfgL m).N + 1)) :
    accPart m c k ⊢ iprop(∃ f : Buf (Elt F) ((c : Thread nD τ).loc cc1_scratch2), ((c : Thread nD τ).loc cc1_scratch2) ↦{fullShare} f) := by
  unfold accPart; split
  · iintro ⟨%a, H⟩; iapply (wholeL_forget c cc1_scratch2 a); iexact H
  · exact wholeL_forget c cc1_scratch2 _

/-- The one prefetched table, listed. -/
theorem prefHeldL_eq (c : Dev nD) (V : pre1.Contents (Elt F)) :
    (Pipeline.prefHeld (Ix := Unit) (Name := ℕ) (U := UC) (Lvl := ℕ) pre1 c (fun _ => fullShare) V : sProp 𝕄)
      = (((c : Thread nD τ).loc (pre1.ref 0)) ↦{fullShare} V 0) := by
  unfold Pipeline.prefHeld
  exact bigSep_univ_eq_bigSepL [(0 : Fin 1)] (by decide) (by decide) _

theorem ΦL_in (c : Dev nD) :
    iprop(XL m c ∗ Pipeline.prefHeld (Ix := Unit) (Name := ℕ) (U := UC) (Lvl := ℕ) pre1 c (fun _ => fullShare) (adm1 m).1
        ∗ Pipeline.scopedRest (Ix := Unit) (Name := ℕ) (U := UC) (Lvl := ℕ) (Val := Elt F) spec1 c)
      ⊢ (dat1 m c).Φ 0 := by
  obtain rfl : c = 0 := Subsingleton.elim _ _
  rw [prefHeldL_eq, scopedRest1_eq, show (dat1 m 0).Φ 0 = ΦL m 0 0 from rfl]
  unfold ΦL otherStaging; rw [accPart_zero]
  iintro ⟨⟨Hsems, Hctr⟩, Hlab, S1, S2, S3, S4, S5, S6, S7, S8, S9, ⟨%f0, Hr0⟩, ⟨%f2, Hr2⟩⟩
  isplitl [Hr2]
  · iexists f2; rw [owns_whole]; iexact Hr2
  isplitl [Hr0]
  · iexists f0; rw [owns_whole]; iexact Hr0
  isplitl [Hsems]; · iexact Hsems
  isplitl [Hctr]; · iexact Hctr
  isplitl [Hlab]; · iexact Hlab
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

theorem ΦL_out (c : Dev nD) :
    (dat1 m c).Φ (Fin.last (cfgL m).N)
      ⊢ iprop(YL m c ∗ Pipeline.ownSems0 (Ix := Unit) (Name := ℕ) (U := UC) (Lvl := ℕ) (Val := Elt F) (τ := τ) osem1 c
          ∗ Pipeline.scopedRest (Ix := Unit) (Name := ℕ) (U := UC) (Lvl := ℕ) (Val := Elt F) spec1 c) := by
  rw [ownSems01_eq, scopedRest1_eq, show (dat1 m c).Φ (Fin.last (cfgL m).N) = ΦL m c (Fin.last (cfgL m).N) from rfl]
  unfold ΦL otherStaging
  iintro ⟨Ha, ⟨%d, Hrows⟩, Hsems, Hctr, Hlab, S1, S2, S3, S4, S5, S6, S7, S8, S9⟩
  ihave Ha' := (accPart_forget m c _) $$ Ha
  isplitl [Hctr Hlab]
  · isplitl [Hctr]; · iexact Hctr
    iexact Hlab
  isplitl [Hsems]; · iexact Hsems
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [Hrows]; · iapply (wholeL_forget c cc1_scratch0 d); iexact Hrows
  iexact Ha'

/-- The grid has 256 points; the last is point 255. -/
theorem cfgL_N : (cfgL m).N = 256 := N_1
def tLast : Fin (cfgL m).N := ⟨255, by rw [cfgL_N]; decide⟩

/-- An array of one entry has one index. -/
theorem idxL11_eq (x y : S1x1.Idx) : x = y := funext fun a => Fin.ext <| by
  match a with
  | ⟨0, _⟩ => have h1 : (x 0).val < 1 := (x 0).isLt; have h2 : (y 0).val < 1 := (y 0).isLt; show (x 0).val = (y 0).val; omega
  | ⟨1, _⟩ => have h1 : (x 1).val < 1 := (x 1).isLt; have h2 : (y 1).val < 1 := (y 1).isLt; show (x 1).val = (y 1).val; omega

/-- The result array (one entry) after the run holds what the last point stored. -/
theorem loss_arrAt (c : Dev nD) : (dat1 m c).arrAt 1 (cfgL m).N = outAt m c (tLast m) := by
  refine (dat1 m c).arrAt_eq_of_cover (1 : Fin 2) (outAt m c (tLast m)) (fun t hf => ?_) (fun i => ?_)
  · -- the one point that writes the block back is the last, and its block is the whole array
    have ht : t = tLast m := Fin.ext ((flushL_1 (adm1 m) t).mp hf)
    subst ht
    show ((cfgL m).win (1 : Fin 2)).cut ((cfgL m).grid.coords (tLast m)) ((dat1 m c).after (1 : Fin 2) (tLast m)) = _
    rw [afterL_1]
    funext y
    exact congrArg (outAt m c (tLast m)) (idxL11_eq _ _)
  · refine ⟨tLast m, (flushL_1 (adm1 m) (tLast m)).mpr rfl, ?_⟩
    show i ∈ ((View.whole main_v3).slice (((cfgL m).win (1 : Fin 2)).rect (tLast m))).set
    rw [View.set_slice_whole, Rect.mem_set_unit]
    intro a
    match a with
    | ⟨0, _⟩ => have h1 : (i 0).val < 1 := (i 0).isLt; show 0 * 1 ≤ (i 0).val ∧ (i 0).val < 0 * 1 + 1; omega
    | ⟨1, _⟩ => have h1 : (i 1).val < 1 := (i 1).isLt; show 0 * 1 ≤ (i 1).val ∧ (i 1).val < 0 * 1 + 1; omega

end Cert.Kernel.Hand

end
-- ==== Proof.K.Thread.lean ====
/-
  What the core holds between the items of the program: two reshapes, the classifier region, the center-loss region,
  one reshape. Before the classifier region every unscoped buffer is held at its contents after the two reshapes.
  After it the classifier's output is held apart, at contents that are named only when a claim wants them (the mask
  `fgt` says whether its window is forgotten), and every other unscoped buffer as before; the center-loss region then
  changes only its one-entry result. Beside the buffers ride the generator register and the core's empty debt.
-/
import proofs.«413297_j40621800685615_1_alg».proof.Proof.K.FcDat
import proofs.«413297_j40621800685615_1_alg».proof.Proof.K.LossDat
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

/-- The pipeline library's algebra is the left component of the certificate's. -/
abbrev EP : Emb (UR sig nD τ) (MT nD τ sig Unit (Elt F) ℕ UC ℕ) := embL

variable (m : (ℓ : Loc nD τ sig) → Buf (Elt F) ℓ) (fgt : Fin cfg0.W → Bool)

/-- The two pipelines' table contents: the classifier has no table, the center-loss pipeline the labels as launched. -/
def adm : (p : Fin 2) → (pcfgs (F := F) p).Adm
  | ⟨0, _⟩ => cfg0.toPCfg_adm
  | ⟨1, _⟩ => adm1 m

/-- The two pipelines' proof data, read relationally: the classifier's with the windows `fgt` marks forgotten, the
    center-loss pipeline's exact. -/
def rdats : (p : Fin 2) → (c : Dev nD) → RDat τ (Elt F) Unit ℕ UC ℕ (Pipeline.pin (pcfgs (F := F)) (adm m) p) c
  | ⟨0, _⟩ => fun c => (dat0 m c).toRForget fgt
  | ⟨1, _⟩ => fun c => (dat1 m c).toR

abbrev 𝒱₀ : Variants := Variants.none
/-- No core owes another anything: no level is assigned. -/
abbrev Lv : GSem nD τ sig → Finset Unit := fun _ => ∅
abbrev lvl : GSem nD τ sig → Unit → ℕ := fun _ _ => 0

/-- What rides beside the buffers through every item: the generator register at some state, the core owing nothing. -/
abbrev Rr (c : Dev nD) : sProp 𝕄 := iprop((∃ r, prngReg c r) ∗ ∃ W, owes (c : Thread nD τ) (0 : CellTallies nD τ sig Unit) W)

/-- The unscoped buffers other than the classifier's output. -/
def ucNo2 : Finset (DevRef τ sig) := (Pipeline.ucRefs τ sig).erase (Proc.devRef .tc main_v2)

/-- The classifier's output after its region: at some contents, which are the pipeline's account of the array when
    its window is not forgotten. -/
def v2Part (c : Dev nD) : sProp 𝕄 :=
  iprop(∃ f2 : Buf (Elt F) ((c : Thread nD τ).loc main_v2),
    ⌜fgt 4 = false → f2 = (dat0 m c).arrAt 4 cfg0.N⌝ ∗ ((c : Thread nD τ).loc main_v2) ↦{fullShare} f2)

/-- The other unscoped buffers after the center-loss region: its result at the pipeline's account of it. -/
abbrev V3' (c : Dev nD) : Valuation τ sig (Elt F) :=
  Function.update (V1 m c) main_v3 ((dat1 m c).arrAt 1 (cfgL m).N)

/-- One unscoped buffer of core `c` held whole at the valuation's contents. -/
abbrev pv (c : Dev nD) (V : Valuation τ sig (Elt F)) (r : Ref sig .tc) : sProp 𝕄 := ((c : Thread nD τ).loc r) ↦{fullShare} V r

/-- The eleven unscoped buffers of a core, one by one; -/
theorem held_uc_eq (c : Dev nD) (V : Valuation τ sig (Elt F)) :
    (StableHlo.held (c : Thread nD τ) (Pipeline.ucRefs τ sig) V : sProp 𝕄)
      = iprop(pv c V main_arg0 ∗ pv c V main_arg1 ∗ pv c V main_arg2 ∗ pv c V main_arg3 ∗ pv c V main_arg4 ∗ pv c V main_v0 ∗ pv c V main_v1
          ∗ pv c V main_v2 ∗ pv c V main_v3 ∗ pv c V main_v4 ∗ pv c V main_arg5) := by
  unfold StableHlo.held
  rw [BI.bigSep_eq_bigSepL_of_eq [Proc.devRef .tc main_arg0, Proc.devRef .tc main_arg1, Proc.devRef .tc main_arg2, Proc.devRef .tc main_arg3, Proc.devRef .tc main_arg4,
    Proc.devRef .tc main_v0, Proc.devRef .tc main_v1, Proc.devRef .tc main_v2, Proc.devRef .tc main_v3, Proc.devRef .tc main_v4, Proc.devRef .tc main_arg5] (by decide) (by decide)]
  rfl

/-- and the ten other than the classifier's output. -/
theorem held_no2_eq (c : Dev nD) (V : Valuation τ sig (Elt F)) :
    (StableHlo.held (c : Thread nD τ) ucNo2 V : sProp 𝕄)
      = iprop(pv c V main_arg0 ∗ pv c V main_arg1 ∗ pv c V main_arg2 ∗ pv c V main_arg3 ∗ pv c V main_arg4 ∗ pv c V main_v0 ∗ pv c V main_v1
          ∗ pv c V main_v3 ∗ pv c V main_v4 ∗ pv c V main_arg5) := by
  unfold StableHlo.held ucNo2
  rw [BI.bigSep_eq_bigSepL_of_eq [Proc.devRef .tc main_arg0, Proc.devRef .tc main_arg1, Proc.devRef .tc main_arg2, Proc.devRef .tc main_arg3, Proc.devRef .tc main_arg4,
    Proc.devRef .tc main_v0, Proc.devRef .tc main_v1, Proc.devRef .tc main_v3, Proc.devRef .tc main_v4, Proc.devRef .tc main_arg5] (by decide) (by decide)]
  rfl

/-- Before the classifier region, after it, and after the center-loss region. -/
abbrev T1 (c : Dev nD) : sProp 𝕄 := iprop(StableHlo.held (c : Thread nD τ) (Pipeline.ucRefs τ sig) (V1 m c) ∗ Rr c)
abbrev T2 (c : Dev nD) : sProp 𝕄 := iprop(v2Part m fgt c ∗ StableHlo.held (c : Thread nD τ) ucNo2 (V1 m c) ∗ Rr c)
abbrev T3 (c : Dev nD) : sProp 𝕄 := iprop(v2Part m fgt c ∗ StableHlo.held (c : Thread nD τ) ucNo2 (V3' m c) ∗ Rr c)

end Cert.Kernel.Hand

end
-- ==== Proof.K.Reg0.lean ====
/-
  The classifier region as one item of the program: entered from every unscoped buffer held after the two reshapes,
  left with the classifier's output held apart (at contents named only when its window is not forgotten) and every
  other unscoped buffer as it was. Its five arrays are split out of the unscoped buffers at entry and put back at
  exit; it has no semaphore of its own, and its invariant is just the scoped buffers it does not stage.
-/
import proofs.«413297_j40621800685615_1_alg».proof.Proof.K.Thread

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (fgt : Fin cfg0.W → Bool)

/-- What bypasses the classifier region: the unscoped buffers that are none of its arrays, and what rides along. -/
abbrev Z0 (c : Dev nD) : sProp 𝕄 :=
  iprop(Pipeline.unscopedRest (Ix := Unit) (Name := ℕ) (U := UC) (Lvl := ℕ) spec0 c (Ve0 m c) ∗ ∃ r, prngReg c r)

/-- ENTRY: the five arrays at the proof data's entry contents, no table, the core's empty debt, and the bypass, out of
    every unscoped buffer held after the reshapes. -/
theorem hentry0 (c : Dev nD) :
    iprop(T1 m c ∗ Pipeline.ownSems0 (Ix := Unit) (Name := ℕ) (U := UC) (Lvl := ℕ) (Val := Elt F) (τ := τ) (fun k : PEmpty => k.elim) c
        ∗ levAts Lv lvl)
      ⊢ |={Set.univ}=> iprop((rdats m fgt 0 c).arrays (rdats m fgt 0 c).A
          ∗ Pipeline.prefHeld (pcfgs (F := F) 0).pre c (fun _ => fullShare) (adm m 0).1
          ∗ (rdats m fgt 0 c).owesAt () 0 ∗ (iprop(emp) : sProp 𝕄) ∗ Z0 m c) := by
  rw [Pipeline.ownSems0_none]
  have hsplit := Pipeline.RDat.arrays_of_unscopedBufs (p := 0) (pcfgs (F := F)) (adm m) (rdats m fgt) (launch0 (F := F)).win
    (launch0 (F := F)).arr_whole c ((rdats m fgt 0 c).share_full fun _ => rfl) (fun b => V1 m c b) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · rw [show (rdats m fgt 0 c).owesAt () 0 = (dat0 m c).owesAt () 0 from rfl]
    unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact Hp

/-- The invariant at the first point is the scoped buffers the pipeline does not stage. -/
theorem hin0 (c : Dev nD) :
    iprop((iprop(emp) : sProp 𝕄) ∗ Pipeline.prefHeld (pcfgs (F := F) 0).pre c (fun _ => fullShare) (adm m 0).1
        ∗ Pipeline.scopedRest (Pipeline.pin (pcfgs (F := F)) (adm m) 0).spec c)
      ⊢ (rdats m fgt 0 c).Φ 0 := by
  rw [show (rdats m fgt 0 c).Φ 0
    = Pipeline.scopedRest (Ix := Unit) (Name := ℕ) (U := UC) (Lvl := ℕ) (Val := Elt F) spec0 c from rfl]
  iintro ⟨-, -, Hr⟩
  iexact Hr

/-- and at the last point gives them back. -/
theorem hout0 (c : Dev nD) :
    (rdats m fgt 0 c).Φ (Fin.last (Pipeline.pin (pcfgs (F := F)) (adm m) 0).N)
      ⊢ iprop((iprop(emp) : sProp 𝕄)
          ∗ Pipeline.ownSems0 (Ix := Unit) (Name := ℕ) (U := UC) (Lvl := ℕ) (Val := Elt F) (τ := τ) (fun k : PEmpty => k.elim) c
          ∗ Pipeline.scopedRest (Pipeline.pin (pcfgs (F := F)) (adm m) 0).spec c) := by
  rw [Pipeline.ownSems0_none, show (rdats m fgt 0 c).Φ (Fin.last (Pipeline.pin (pcfgs (F := F)) (adm m) 0).N)
    = Pipeline.scopedRest (Ix := Unit) (Name := ℕ) (U := UC) (Lvl := ℕ) (Val := Elt F) spec0 c from rfl]
  iintro Hr
  isplitr; · iempintro
  isplitr; · iempintro
  iexact Hr

/-- A window's array is a whole buffer held at the full share: its points-to is that of the buffer behind it. -/
theorem arr_pv (c : Dev nD) (w : Fin cfg0.W) (G : Buf (Elt F) ((cfg0.win w).arr.view.loc (c : Thread nD τ))) :
    ((cfg0.win w).arr.view.loc (c : Thread nD τ) ↦[(cfg0.win w).arr.view.set]{((dat0 m c).toRForget fgt).share w} G : sProp 𝕄)
      = (((c : Thread nD τ).loc (Pipeline.arrRef spec0 w)) ↦{fullShare} G) := by
  rw [(arr_whole0 w).set_eq_univ, ((dat0 m c).toRForget fgt).share_full (fun _ => rfl) w]

/-- An input window's array is never written back: after every write-back it is the buffer behind it as the region
    found it. -/
theorem arr_in_pv (c : Dev nD) (w : Fin cfg0.W) (hin : (cfg0.win w).isOut = false) :
    iprop(∃ G, ⌜((dat0 m c).toRForget fgt).ArrAt w cfg0.N G⌝
        ∗ (cfg0.win w).arr.view.loc (c : Thread nD τ) ↦[(cfg0.win w).arr.view.set]{((dat0 m c).toRForget fgt).share w} G)
      ⊢ pv c (V1 m c) (Pipeline.arrRef spec0 w) := by
  iintro ⟨%G, %h, H⟩
  rw [RDat.ArrAt_in ((dat0 m c).toRForget fgt) w hin] at h
  subst h
  ihave H' := (Entails.of_eq (arr_pv m fgt c w _)) $$ H
  iexact H'

/-- The output window's array after every write-back is the classifier's output held apart: at some contents, which
    are the exact account of the array when the window is not forgotten. -/
theorem arr_out_pv (c : Dev nD) :
    iprop(∃ G, ⌜((dat0 m c).toRForget fgt).ArrAt 4 cfg0.N G⌝
        ∗ (cfg0.win 4).arr.view.loc (c : Thread nD τ) ↦[(cfg0.win 4).arr.view.set]{((dat0 m c).toRForget fgt).share 4} G)
      ⊢ v2Part m fgt c := by
  unfold v2Part
  iintro ⟨%F4, %h4, H4⟩
  ihave H4' := (Entails.of_eq (arr_pv m fgt c 4 F4)) $$ H4
  iexists F4; isplitr
  · ipureintro; exact fun h => ((dat0 m c).toRForget_arrAt_iff h cfg0.N F4).mp h4
  iexact H4'

/-- EXIT: the arrays at what they may hold after every write-back (the four inputs as entered; the output at some
    contents, the exact account of it when its window is not forgotten), the debt and the bypass make the state after
    the region. -/
theorem hexit0 (c : Dev nD) :
    iprop((rdats m fgt 0 c).arraysAt (Pipeline.pin (pcfgs (F := F)) (adm m) 0).N
        ∗ (rdats m fgt 0 c).owesAt () (Fin.last (Pipeline.pin (pcfgs (F := F)) (adm m) 0).N) ∗ (iprop(emp) : sProp 𝕄) ∗ Z0 m c)
      ⊢ |={Set.univ}=> T2 m fgt c := by
  show iprop(((dat0 m c).toRForget fgt).arraysAt cfg0.N ∗ (dat0 m c).owesAt () (Fin.last cfg0.N) ∗ (iprop(emp) : sProp 𝕄)
      ∗ Pipeline.unscopedRest (Ix := Unit) (Name := ℕ) (U := UC) (Lvl := ℕ) spec0 c (Ve0 m c) ∗ ∃ r, prngReg c r)
    ⊢ |={Set.univ}=> iprop(v2Part m fgt c ∗ StableHlo.held (c : Thread nD τ) ucNo2 (V1 m c) ∗ Rr c)
  -- the four input arrays are the buffers main_arg0, main_arg3, main_v1, main_v0
  have p0 : _ ⊢ pv c (V1 m c) main_arg0 := arr_in_pv m fgt c 0 rfl
  have p1 : _ ⊢ pv c (V1 m c) main_arg3 := arr_in_pv m fgt c 1 rfl
  have p2 : _ ⊢ pv c (V1 m c) main_v1 := arr_in_pv m fgt c 2 rfl
  have p3 : _ ⊢ pv c (V1 m c) main_v0 := arr_in_pv m fgt c 3 rfl
  unfold RDat.arraysAt
  rw [bigSep_W0, held_no2_eq, unscopedRest0_eq]
  iintro ⟨⟨A0, A1, A2, A3, A4⟩, HO, -, ⟨Ha1, Ha2, Ha4, Hv3, Hv4, Ha5⟩, Hp⟩
  ihave H0 := p0 $$ A0
  ihave H1 := p1 $$ A1
  ihave H2 := p2 $$ A2
  ihave H3 := p3 $$ A3
  ihave H4 := (arr_out_pv m fgt c) $$ A4
  imodintro
  isplitl [H4]; · iexact H4
  isplitl [H0 H1 H2 H3 Ha1 Ha2 Ha4 Hv3 Hv4 Ha5]
  · isplitl [H0]; · iexact H0
    isplitl [Ha1]; · iexact Ha1
    isplitl [Ha2]; · iexact Ha2
    isplitl [H1]; · iexact H1
    isplitl [Ha4]; · iexact Ha4
    isplitl [H3]; · iexact H3
    isplitl [H2]; · iexact H2
    isplitl [Hv3]; · iexact Hv3
    isplitl [Hv4]; · iexact Hv4
    iexact Ha5
  isplitl [Hp]; · iexact Hp
  unfold Pipeline.Dat.owesAt Pipeline.owesWithin
  icases HO with ⟨%W, -, HO⟩; iexists W; iexact HO

-- a record's fields stated over the pinned configuration unify with the printed one only when unification may unfold
-- plain definitions in a metavariable's type
set_option backward.isDefEq.respectTransparency.types false in
/-- The classifier region, given its body obligation at the mask. -/
def reg0 (hb0 : ∀ c, ((dat0 m c).toRForget fgt).BodyObligation (defs₀ (F := F)) 𝒱₀ () Set.univ) :
    Pipeline.RDat.RegionSeg (pcfgs (F := F)) (adm m) (rdats m fgt) () defs₀ 𝒱₀ Lv lvl 0 where
  win := (launch0 (F := F)).win.to₀
  block_pos := (launch0 (F := F)).block_pos
  stage_whole := (launch0 (F := F)).stage_whole
  K := PEmpty
  osem k := k.elim
  ho := Pipeline.OwnSemFacts.none _
  hbody c := hb0 c
  hwaits := Pipeline.RDat.hwaits_of_owed_zero _ _ _ _ Lv lvl 0 fun _ _ => rfl
  pre c := T1 m c
  post c := T2 m fgt c
  X c := iprop(emp)
  Y c := iprop(emp)
  Z c := Z0 m c
  hentry c := hentry0 m fgt c
  hin c := hin0 m fgt c
  hout c := hout0 m fgt c
  hexit c := hexit0 m fgt c

end Cert.Kernel.Hand

end
-- ==== Proof.K.Reg1.lean ====
/-
  The center-loss region as one item of the program: entered from the state the classifier region left, left with its
  one-entry result at the pipeline's account of it and everything else as it was. At entry its two arrays (x and the
  result) and the label table are taken out of the held buffers, the center table and the kernel's eight semaphore
  cells go into the invariant, and the rest — the classifier's output among it — bypasses the region; at exit all of it
  is put back.
-/
import proofs.«413297_j40621800685615_1_alg».proof.Proof.K.Thread

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (fgt : Fin cfg0.W → Bool)

/-- What bypasses the center-loss region: the classifier's output, the six unscoped buffers that are neither the
    region's arrays, its table nor the center table, and the generator register. -/
abbrev Z1 (c : Dev nD) : sProp 𝕄 :=
  iprop(v2Part m fgt c ∗ pv c (V1 m c) main_arg2 ∗ pv c (V1 m c) main_arg3 ∗ pv c (V1 m c) main_arg4
    ∗ pv c (V1 m c) main_v0 ∗ pv c (V1 m c) main_v1 ∗ pv c (V1 m c) main_v4 ∗ ∃ r, prngReg c r)

/-- The label table as the pipeline holds it prefetched is the held buffer `main_arg5`: the two reshapes do not write
    it, and the mesh has one core. -/
theorem pref_eq (c : Dev nD) :
    (Pipeline.prefHeld (pcfgs (F := F) 1).pre c (fun _ => fullShare) (adm m 1).1 : sProp 𝕄) = pv c (V1 m c) main_arg5 := by
  obtain rfl : c = 0 := Subsingleton.elim c 0
  unfold Pipeline.prefHeld
  rw [BI.bigSep_univ_eq_bigSepL [(0 : Fin 1)] (by decide) (by decide)]
  show ((((0 : Dev nD) : Thread nD τ).loc main_arg5) ↦{fullShare} m ((((0 : Dev nD) : Thread nD τ).loc main_arg5)) : sProp 𝕄)
    = pv 0 (V1 m 0) main_arg5
  unfold pv
  rw [V1_of m 0 main_arg5 (by decide)]

/-- The center table and the label table as launched are the held buffers `main_arg1` and `main_arg5`: the two
    reshapes write neither. -/
theorem ctr_eq (c : Dev nD) : (hbPt c ctrM (ctrOf m c) : sProp 𝕄) = pv c (V1 m c) main_arg1 := by
  show ((((c : Dev nD) : Thread nD τ).loc main_arg1) ↦{fullShare} m ((((c : Dev nD) : Thread nD τ).loc main_arg1)) : sProp 𝕄)
    = pv c (V1 m c) main_arg1
  unfold pv
  rw [V1_of m c main_arg1 (by decide)]
theorem lab_eq (c : Dev nD) : (hbPt c labM (labOf m c) : sProp 𝕄) = pv c (V1 m c) main_arg5 := by
  show ((((c : Dev nD) : Thread nD τ).loc main_arg5) ↦{fullShare} m ((((c : Dev nD) : Thread nD τ).loc main_arg5)) : sProp 𝕄)
    = pv c (V1 m c) main_arg5
  unfold pv
  rw [V1_of m c main_arg5 (by decide)]

/-- After the region every held buffer is as before it, but for the result, which holds the pipeline's account of it. -/
theorem V3'_of (c : Dev nD) (r : Ref sig .tc) (h : r ≠ main_v3) : V3' m c r = V1 m c r :=
  Function.update_of_ne (StableHlo.devRef_ne_of_ne h : (Proc.devRef .tc r : DevRef τ sig) ≠ Proc.devRef .tc main_v3) _ _
theorem V3'_v3 (c : Dev nD) : V3' m c main_v3 = (dat1 m c).arrAt 1 (cfgL m).N :=
  Function.update_self _ _ _

/-- ENTRY. -/
theorem hentry1 (c : Dev nD) :
    iprop(T2 m fgt c ∗ Pipeline.ownSems0 (Ix := Unit) (Name := ℕ) (U := UC) (Lvl := ℕ) (Val := Elt F) (τ := τ) osem1 c ∗ levAts Lv lvl)
      ⊢ |={Set.univ}=> iprop((rdats m fgt 1 c).arrays (rdats m fgt 1 c).A
          ∗ Pipeline.prefHeld (pcfgs (F := F) 1).pre c (fun _ => fullShare) (adm m 1).1
          ∗ (rdats m fgt 1 c).owesAt () 0 ∗ XL m c ∗ Z1 m fgt c) := by
  -- the two arrays as whole buffers at the full share, at what the held buffers hold (the reshapes write neither)
  have harr := Pipeline.RDat.arrays_eq (pcfgs (F := F)) (adm m) (rdats m fgt) 1 c (launch1 (F := F)).arr_whole
    ((rdats m fgt 1 c).share_full fun _ => rfl) (rdats m fgt 1 c).A
  have e0 : (rdats m fgt 1 c).A 0 = V1 m c main_arg0 := ((V1_of m c main_arg0 (by decide)).trans rfl).symm
  have e3 : (rdats m fgt 1 c).A 1 = V1 m c main_v3 := ((V1_of m c main_v3 (by decide)).trans rfl).symm
  rw [harr, Gen.bigSep_W1, ownSems01_eq, e0, e3, pref_eq]
  unfold T2 XL Z1
  rw [held_no2_eq, ctr_eq]
  -- both sides are now chains of whole buffers, the eight cells, the register and the debt: match them up
  iintro ⟨⟨Hv2, ⟨H0, H1, H2, H3, H4, Hv0, Hv1, Hv3, Hv4, H5⟩, Hp, HO⟩, Hs, -⟩
  imodintro
  isplitl [H0 Hv3]
  · isplitl [H0]
    · iexact H0
    · iexact Hv3
  isplitl [H5]; · iexact H5
  isplitl [HO]
  · icases HO with ⟨%W, HO⟩; iexists W; isplitr; · ipureintro; exact fun _ _ => Or.inl trivial
    iexact HO
  isplitl [Hs H1]
  · isplitl [Hs]; · iexact Hs
    iexact H1
  isplitl [Hv2]; · iexact Hv2
  isplitl [H2]; · iexact H2
  isplitl [H3]; · iexact H3
  isplitl [H4]; · iexact H4
  isplitl [Hv0]; · iexact Hv0
  isplitl [Hv1]; · iexact Hv1
  isplitl [Hv4]; · iexact Hv4
  iexact Hp

/-- The invariant at the first point, -/
theorem hin1 (c : Dev nD) :
    iprop(XL m c ∗ Pipeline.prefHeld (pcfgs (F := F) 1).pre c (fun _ => fullShare) (adm m 1).1
        ∗ Pipeline.scopedRest (Pipeline.pin (pcfgs (F := F)) (adm m) 1).spec c)
      ⊢ (rdats m fgt 1 c).Φ 0 :=
  ΦL_in m c

/-- and what it gives back at the last. -/
theorem hout1 (c : Dev nD) :
    (rdats m fgt 1 c).Φ (Fin.last (Pipeline.pin (pcfgs (F := F)) (adm m) 1).N)
      ⊢ iprop(YL m c ∗ Pipeline.ownSems0 (Ix := Unit) (Name := ℕ) (U := UC) (Lvl := ℕ) (Val := Elt F) (τ := τ) osem1 c
          ∗ Pipeline.scopedRest (Pipeline.pin (pcfgs (F := F)) (adm m) 1).spec c) :=
  ΦL_out m c

/-- EXIT. -/
theorem hexit1 (c : Dev nD) :
    iprop((rdats m fgt 1 c).arraysAt (Pipeline.pin (pcfgs (F := F)) (adm m) 1).N
        ∗ (rdats m fgt 1 c).owesAt () (Fin.last (Pipeline.pin (pcfgs (F := F)) (adm m) 1).N) ∗ YL m c ∗ Z1 m fgt c)
      ⊢ |={Set.univ}=> T3 m fgt c := by
  -- the arrays after every write-back are at the contents the exact data names: x unchanged (an input), the result at
  -- the pipeline's account of it, which is what the thread state after the region holds it at
  have harr := Pipeline.RDat.arrays_eq (pcfgs (F := F)) (adm m) (rdats m fgt) 1 c (launch1 (F := F)).arr_whole
    ((rdats m fgt 1 c).share_full fun _ => rfl) (fun w => (dat1 m c).arrAt w (cfgL m).N)
  have hA : ((rdats m fgt 1 c).arraysAt (Pipeline.pin (pcfgs (F := F)) (adm m) 1).N : sProp 𝕄) = _ :=
    ((dat1 m c).toR_arraysAt_eq _).trans harr
  have e0 : (dat1 m c).arrAt 0 (cfgL m).N = V1 m c main_arg0 :=
    ((dat1 m c).arrAt_in 0 rfl _).trans ((V1_of m c main_arg0 (by decide)).trans rfl).symm
  rw [hA, Gen.bigSep_W1, e0, ← V3'_v3]
  unfold T3 YL Z1
  rw [held_no2_eq, ctr_eq, lab_eq]
  unfold pv
  rw [V3'_of m c main_arg0 (by decide), V3'_of m c main_arg1 (by decide), V3'_of m c main_arg2 (by decide), V3'_of m c main_arg3 (by decide),
    V3'_of m c main_arg4 (by decide), V3'_of m c main_v0 (by decide), V3'_of m c main_v1 (by decide), V3'_of m c main_v4 (by decide),
    V3'_of m c main_arg5 (by decide)]
  iintro ⟨⟨H0, Hv3⟩, HO, ⟨H1, H5⟩, Hv2, H2, H3, H4, Hv0, Hv1, Hv4, Hp⟩
  imodintro
  isplitl [Hv2]; · iexact Hv2
  isplitr [Hp HO]
  · isplitl [H0]; · iexact H0
    isplitl [H1]; · iexact H1
    isplitl [H2]; · iexact H2
    isplitl [H3]; · iexact H3
    isplitl [H4]; · iexact H4
    isplitl [Hv0]; · iexact Hv0
    isplitl [Hv1]; · iexact Hv1
    isplitl [Hv3]; · iexact Hv3
    isplitl [Hv4]; · iexact Hv4
    iexact H5
  isplitl [Hp]; · iexact Hp
  icases HO with ⟨%W, -, HO⟩; iexists W; iexact HO

-- a record's fields stated over the pinned configuration unify with the printed one only when unification may unfold
-- plain definitions in a metavariable's type
set_option backward.isDefEq.respectTransparency.types false in
/-- The center-loss region, under labels in range. -/
def reg1 (hlab : LabOk m) :
    Pipeline.RDat.RegionSeg (pcfgs (F := F)) (adm m) (rdats m fgt) () defs₀ 𝒱₀ Lv lvl 1 where
  win := (launch1 (F := F)).win.to₀
  block_pos := (launch1 (F := F)).block_pos
  stage_whole := (launch1 (F := F)).stage_whole
  K := Fin 8
  osem := osem1
  ho := ownSemFacts1
  hbody c := (body_obligation1 m hlab c).toR
  hwaits := Pipeline.RDat.hwaits_of_owed_zero _ _ _ _ Lv lvl 1 fun _ _ => rfl
  pre c := T2 m fgt c
  post c := T3 m fgt c
  X c := XL m c
  Y c := YL m c
  Z c := Z1 m fgt c
  hentry c := hentry1 m fgt c
  hin c := hin1 m fgt c
  hout c := hout1 m fgt c
  hexit c := hexit1 m fgt c

end Cert.Kernel.Hand

end
-- ==== Proof.K.Run.lean ====
/-
  The run of the whole program: the two reshapes, the classifier region, the center-loss region, the last reshape, in
  order, from any memory with zero counters. Every weakly fair execution terminates, nothing faults, the six argument
  arrays end as launched, the scalar result holds the reshape of what the center-loss pipeline leaves in its one-entry
  array, and — when the classifier's output window is not forgotten — the classifier's output holds the pipeline's
  account of it. With the window forgotten the statement holds at every float instance; with it kept, wherever the
  classifier body's obligation can name its output block.
-/
import proofs.«413297_j40621800685615_1_alg».proof.Proof.K.Reg0
import proofs.«413297_j40621800685615_1_alg».proof.Proof.K.Reg1

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ UC ℕ

variable (m : (ℓ : Loc nD τ sig) → Buf (Elt F) ℓ) (ρ : Dev nD → PrngReg) (fgt : Fin cfg0.W → Bool)

/-! ## The two host stretches as segments -/

/-- The two reshapes before the regions, over every unscoped buffer from the launch memory. -/
def segA : Pipeline.HostSeg (Ix := Unit) (Name := ℕ) (U := UC) (Lvl := ℕ) (pcfgs (F := F)) defs₀ 𝒱₀ Lv lvl :=
  seg0 m 𝒱₀ Lv lvl (fun _ c => Rr c)

/-- A reference that is not the classifier's output is among the buffers the last stretch runs within. -/
theorem mem_no2 (b : Ref sig .tc) (h2 : b ≠ main_v2) (h : ¬ (Proc.devRef .tc b : DevRef τ sig).isScoped) :
    Proc.devRef .tc b ∈ (ucNo2 : Finset (DevRef τ sig)) :=
  Finset.mem_erase.mpr ⟨StableHlo.devRef_ne_of_ne h2, Finset.mem_filter.mpr ⟨StableHlo.devRef_mem_tcRefs b, h⟩⟩

/-- The last reshape touches only the center-loss result and the scalar result. -/
theorem hostOps2_no2 : ∀ op ∈ (hostOps2 : List (HloOp τ sig (Elt F))), op.bufs ⊆ (ucNo2 : Finset (DevRef τ sig)) := by
  intro op hop
  simp only [hostOps2, List.mem_cons, List.mem_nil_iff, or_false] at hop
  subst hop
  rw [StableHlo.reshape_bufs]
  intro b hb
  simp only [Finset.mem_insert, Finset.mem_singleton] at hb
  rcases hb with rfl | rfl
  · exact mem_no2 main_v3 (by decide) (by decide)
  · exact mem_no2 main_v4 (by decide) (by decide)

/-- The reshape after the regions, over the unscoped buffers other than the classifier's output, which rides along. -/
def segD : Pipeline.HostSeg (Ix := Unit) (Name := ℕ) (U := UC) (Lvl := ℕ) (pcfgs (F := F)) defs₀ 𝒱₀ Lv lvl :=
  Pipeline.HostSeg.ofOps _ _ _ _ _ ucNo2 hostOps2 hostOps2_no2
    (fun op h => (List.forall_iff_forall_mem.mp hostOps2_fresh) op h) (V3' m) (fun c => iprop(v2Part m fgt c ∗ Rr c))

/-- What the last stretch leaves in the buffers it runs within. -/
abbrev V4' (c : Dev nD) : Valuation τ sig (Elt F) := StableHlo.after hostOps2 (V3' m c)

/-- An argument array reaches the end as launched: no reshape writes it and no region may change it. -/
theorem V4'_arg (c : Dev nD) (r : Ref sig .tc) (h0 : r ∉ hostOps0_W) (h3 : r ≠ main_v3) (h2 : r ∉ hostOps2_W) :
    V4' m c r = m ((c : Thread nD τ).loc r) := by
  have e2 : V4' m c r = V3' m c r := StableHlo.after_of_writes_sub hostOps2 _ hostOps2_writes h2
  have e3 : V3' m c r = V1 m c r :=
    Function.update_of_ne (StableHlo.devRef_ne_of_ne h3 : (Proc.devRef .tc r : DevRef τ sig) ≠ Proc.devRef .tc main_v3) _ _
  exact e2.trans (e3.trans ((V1_of m c r h0).trans rfl))

/-! ## The program as segments, and the launch -/

/-- The four items in order. -/
abbrev segs (hlab : LabOk m) (hb0 : ∀ c, ((dat0 m c).toRForget fgt).BodyObligation (defs₀ (F := F)) 𝒱₀ () Set.univ) : List (Pipeline.RDat.Seg (pcfgs (F := F)) (adm m) (rdats m fgt) () defs₀ 𝒱₀ Lv lvl) :=
  [.host (segA m), .region (reg0 m fgt hb0), .region (reg1 m fgt hlab), .host (segD m fgt)]

/-- The launch element: the pipeline library's at the two pipelines' staging cells; no counter yet. -/
def u₀ : UC :=
  (initOf (Pipeline.cells (Pipeline.pin (pcfgs (F := F)) (adm m)) (cellOf_inj (adm m)))
    (Pipeline.launchToks (Pipeline.pin (pcfgs (F := F)) (adm m)) (cellOf_inj (adm m))), 1)

/-- What a final memory satisfies on core `c`. -/
def Post (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_v4) = V4' m c main_v4
  ∧ (fgt 4 = false → s.mem ((c.tc : Thread nD τ).loc main_v2) = (dat0 m c).arrAt 4 cfg0.N)

-- the launch theorem's implicit arguments are found by unifying its conclusion with this one, which takes unfolding plain
-- definitions in a metavariable's type
set_option backward.isDefEq.respectTransparency.types false in
/-- THE RUN. -/
theorem run_main (hlab : LabOk m) (hb0 : ∀ c, ((dat0 m c).toRForget fgt).BodyObligation (defs₀ (F := F)) 𝒱₀ () Set.univ) :
    θ_run defs (onTc (τ := τ) (main (F := F))) ⟨m, fun _ => 0, ρ⟩ (fun r => ∀ c : Dev nD, Post m fgt c r.2) :=
  Pipeline.RDat.θ_run_regions_kit (pcfgs (F := F)) (adm m) (rdats m fgt) () (cellOf_inj (adm m)) EP defs₀ 𝒱₀ Lv lvl m ρ main
    (segs m fgt hlab hb0)
    (fun c Q => by
      rewrite [main_chain c, Pipeline.RDat.Seg.run_eq_chain,
        show (segs m fgt hlab hb0).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(v2Part m fgt c ∗ StableHlo.held (c : Thread nD τ) ucNo2 (V4' m c) ∗ ∃ r, prngReg c r))
    (hch := ⟨fun _ => .rfl, fun _ => .rfl, fun _ => .rfl,
      fun c => by
        show T3 m fgt c ⊢ iprop(StableHlo.held (c : Thread nD τ) ucNo2 (V3' m c) ∗ iprop(v2Part m fgt c ∗ Rr c))
        iintro ⟨Hv, Hh, HR⟩
        isplitl [Hh]; · iexact Hh
        isplitl [Hv]; · iexact Hv
        iexact HR,
      fun c => by
        show iprop(StableHlo.held (c : Thread nD τ) ucNo2 (V4' m c) ∗ iprop(v2Part m fgt c ∗ Rr c)) ⊢ _
        iintro ⟨Hh, Hv, Hp, HO⟩
        isplitr [HO]
        · isplitl [Hv]; · iexact Hv
          isplitl [Hh]; · iexact Hh
          iexact Hp
        · iexact HO⟩)
    (hinit := by
      refine Pipeline.initEach Lv lvl fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => Post m fgt c s)
    (hfin := fun c s' => by
      unfold StableHlo.held v2Part
      iintro ⟨⟨⟨%f2, %hf2, H2⟩, Hh, -⟩, HSI⟩
      icombine HSI H2 gives %h2
      ihave Hr := (pointsTo_read_all (ucNo2 : Finset (DevRef τ sig)) (fun b => ((c : Thread nD τ).1, b)) (V4' m c) s') $$ [Hh HSI]
      · isplitl [Hh] <;> iassumption
      icases Hr with ⟨%h, HSI⟩
      imodintro
      isplitr
      · ipureintro
        exact ⟨(h (Proc.devRef .tc main_arg0) (mem_no2 main_arg0 (by decide) (by decide))).trans (V4'_arg m c main_arg0 (by decide) (by decide) (by decide)),
          (h (Proc.devRef .tc main_arg1) (mem_no2 main_arg1 (by decide) (by decide))).trans (V4'_arg m c main_arg1 (by decide) (by decide) (by decide)),
          (h (Proc.devRef .tc main_arg2) (mem_no2 main_arg2 (by decide) (by decide))).trans (V4'_arg m c main_arg2 (by decide) (by decide) (by decide)),
          (h (Proc.devRef .tc main_arg3) (mem_no2 main_arg3 (by decide) (by decide))).trans (V4'_arg m c main_arg3 (by decide) (by decide) (by decide)),
          (h (Proc.devRef .tc main_arg4) (mem_no2 main_arg4 (by decide) (by decide))).trans (V4'_arg m c main_arg4 (by decide) (by decide) (by decide)),
          (h (Proc.devRef .tc main_arg5) (mem_no2 main_arg5 (by decide) (by decide))).trans (V4'_arg m c main_arg5 (by decide) (by decide) (by decide)),
          h (Proc.devRef .tc main_v4) (mem_no2 main_v4 (by decide) (by decide)),
          fun hf => (Buf.eq_of_forall_mem_univ h2).trans (hf2 hf)⟩
      · iexact HSI)
    (hQ := fun _ h => h)

end Cert.Kernel.Hand

end
-- ==== Proof.lean ====
/-
  The certificate's claim, assembled.

  The kernel is two pallas_calls. The classifier tiles PReLU(x) · wᵀ + b over a 4 × 49 grid of 512 × 2048 blocks (the
  last block column cut at the array's end); the center-loss kernel walks the 2048 samples eight at a time, copies each
  sample's class center out of the center table by the sample's label, and carries the sum of the clamped squared
  distances to the last grid point, where it multiplies by 1/2048. The reference computes the same two results with
  a dot product, a gather and two sums.

  Both programs index the center table by the labels, so the precondition asks, beside finite float inputs, that every
  label is in [0, 100000): outside that range the kernel's row copy has no source row.

  At the extended reals both sides are, entry by entry, the same functions of the six arguments (Proof/Spec.lean): the
  classifier's entry (r, j) is a sum over the 128 features, equal on both sides term by term; the loss is the sum over
  the samples of the clamped squared distances, the kernel grouping the samples by eight and the reference not —
  addition of extended reals is commutative and associative, so no finiteness is used —, and the kernel's product with
  the word 2⁻¹¹ is the reference's quotient by 2048.

  The word-level kernel's frame is stated with the classifier's output forgotten: its matrix product is not a function
  of the block's rows inside the array alone at the word level, and nothing downstream reads that output.
-/
import proofs.«413297_j40621800685615_1_alg».proof.Defs
import proofs.«413297_j40621800685615_1_alg».proof.Proof.Gen.Kernel
import proofs.«413297_j40621800685615_1_alg».proof.Proof.Gen.KernelIdeal
import proofs.«413297_j40621800685615_1_alg».proof.Proof.Gen.ReferenceIdeal
import proofs.«413297_j40621800685615_1_alg».proof.Proof.Gen.Pre_finite_inputs
import proofs.«413297_j40621800685615_1_alg».proof.Proof.Labels
import proofs.«413297_j40621800685615_1_alg».proof.Proof.RefValue
import proofs.«413297_j40621800685615_1_alg».proof.Proof.KI.Final
import proofs.«413297_j40621800685615_1_alg».proof.Proof.K.Run
import Idealize.ShloMosaic.Adequacy
import Idealize.ShloMosaic.Init

noncomputable section

namespace Cert.Proof

open Idealize.ShloMosaic Idealize.ShloMosaic.TcCoe Idealize.SL.Sem

/-! ## Labels in range, from each program's precondition -/

theorem labK (m : (ℓ : Loc Cert.Kernel.nD Cert.Kernel.τ Cert.Kernel.sig) → Buf (Elt Bits) ℓ) (h : Cert.Pre_Kernel m) :
    Cert.Kernel.Hand.LabOk (F := Bits) m :=
  fun c k => Cert.Proof.Labels.labels_lt _ _ _ _ _ _ (h c) k

theorem labKI (m : (ℓ : Loc Cert.KernelIdeal.nD Cert.KernelIdeal.τ Cert.KernelIdeal.sig) → Buf (Elt Ideal) ℓ) (h : Cert.Pre_KernelIdeal m) :
    Cert.KernelIdeal.Hand.LabOk (F := Ideal) m :=
  fun c k => Cert.Proof.Labels.labels_lt _ _ _ _ _ _ (h c) k

theorem labR (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (k : Cert.ReferenceIdeal.S2048.Idx),
      (m ((c.tc : Thread Cert.ReferenceIdeal.nD Cert.ReferenceIdeal.τ).loc Cert.ReferenceIdeal.main_arg5) k).toNat < 100000 :=
  fun c k => Cert.Proof.Labels.labels_lt _ _ _ _ _ _ (h c) k

/-! ## The claims -/

/-- The word-level kernel runs and leaves its arguments unchanged: the run with the classifier's output forgotten. -/
theorem frame_K : Cert.frame_Kernel := fun m ρ hpre =>
  (θ_run (Cert.Kernel.defs (F := Bits)) _ _).mono
    (fun r h c => by obtain ⟨h0, h1, h2, h3, h4, h5, -, -⟩ := h c; exact ⟨h0, h1, h2, h3, h4, h5⟩)
    (Cert.Kernel.Hand.run_main (F := Bits) m ρ Cert.Kernel.Hand.fgt0 (labK m hpre)
      (fun c => (Cert.Kernel.Hand.body_obligation0_fgt m c).toRForget))

/-- The idealized kernel's frame: its run with the results named, the results dropped. -/
theorem frame_KI : Cert.frame_KernelIdeal := fun m ρ hpre =>
  (θ_run (Cert.KernelIdeal.defs (F := Ideal)) _ _).mono (fun r h c => (h c).2.2)
    (Cert.KernelIdeal.Hand.ker_run m ρ (labKI m hpre))

/-- The reference's frame: its run with the results named, the results dropped. -/
theorem frame_R : Cert.frame_ReferenceIdeal := fun m ρ hpre =>
  (θ_run (Cert.ReferenceIdeal.defs (F := Ideal)) _ _).mono (fun r h c => (h c).2.2)
    (Cert.Proof.RefValue.ref_run m ρ (labR m hpre))

/-- From memories agreeing on the arguments both idealized programs end at the specification's two functions of them. -/
theorem algebraic : Cert.algebraic_KernelIdeal_ReferenceIdeal := by
  intro m ρ m' ρ' hpre hagree
  have hlab := labKI m hpre
  have hlab' : ∀ (c : Dev Cert.ReferenceIdeal.nD) (k : Cert.ReferenceIdeal.S2048.Idx),
      (m' ((c.tc : Thread Cert.ReferenceIdeal.nD Cert.ReferenceIdeal.τ).loc Cert.ReferenceIdeal.main_arg5) k).toNat < 100000 := by
    intro c k; rw [(hagree c).2.2.2.2.2]; exact hlab c k
  refine ⟨_, _, Cert.KernelIdeal.Hand.ker_run m ρ hlab, ?_⟩
  refine (θ_run (Cert.ReferenceIdeal.defs (F := Ideal)) _ _).mono (fun r h c => ?_) (Cert.Proof.RefValue.ref_run m' ρ' hlab')
  obtain ⟨hl, ho, hargs⟩ := h c
  obtain ⟨a0, a1, a2, a3, a4, a5⟩ := hagree c
  exact ⟨by rw [hl, a0, a1, a5]; try rfl, by rw [ho, a0, a2, a3, a4]; try rfl, hargs⟩

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
